-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000 : Shape := ⟨1, ![500000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg4 : IVec S500000 32) (main_arg6 : IVec S500000 32) (main_v28 : IVec S_ 1) (main_v33 : IVec S500000 1) : IVec S_ 1 :=
  let main_c_12 : IVec S_ 1 := constantI S_ 1 1#1
  let main_v34 : IVec S_ 1 := (fun x v => Host.reduce IntOp.andi x v reducesTo_S500000_S_d0 h_S_) main_v33 main_c_12
  let main_v35 : IVec S_ 1 := andi main_v28 main_v34
  let main_c_13 : IVec S_ 32 := constantI S_ 32 0#32
  let main_v36 : IVec S500000 32 := broadcastInDim S500000 ![] bcast_S_S500000 main_c_13
  let main_v37 : IVec S500000 1 := cmpi .sge main_arg4 main_v36
  let main_c_14 : IVec S_ 32 := constantI S_ 32 50000#32
  let main_v38 : IVec S500000 32 := broadcastInDim S500000 ![] bcast_S_S500000 main_c_14
  let main_v39 : IVec S500000 1 := cmpi .slt main_arg4 main_v38
  let main_v40 : IVec S500000 1 := andi main_v37 main_v39
  let main_c_15 : IVec S_ 1 := constantI S_ 1 1#1
  let main_v41 : IVec S_ 1 := (fun x v => Host.reduce IntOp.andi x v reducesTo_S500000_S_d0 h_S_) main_v40 main_c_15
  let main_v42 : IVec S_ 1 := andi main_v35 main_v41
  let main_c_16 : IVec S_ 32 := constantI S_ 32 0#32
  let main_v43 : IVec S500000 32 := broadcastInDim S500000 ![] bcast_S_S500000 main_c_16
  let main_v44 : IVec S500000 1 := cmpi .sge main_arg6 main_v43
  let main_c_17 : IVec S_ 32 := constantI S_ 32 50000#32
  let main_v45 : IVec S500000 32 := broadcastInDim S500000 ![] bcast_S_S500000 main_c_17
  let main_v46 : IVec S500000 1 := cmpi .slt main_arg6 main_v45
  let main_v47 : IVec S500000 1 := andi main_v44 main_v46
  let main_c_18 : IVec S_ 1 := constantI S_ 1 1#1
  let main_v48 : IVec S_ 1 := (fun x v => Host.reduce IntOp.andi x v reducesTo_S500000_S_d0 h_S_) main_v47 main_c_18
  let main_v49 : IVec S_ 1 := andi main_v42 main_v48
  main_v49

def fn_part1 {F : FTy → Type} [FloatOps F] (main_arg2 : IVec S500000 32) (main_arg4 : IVec S500000 32) (main_arg6 : IVec S500000 32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S500000 32 := broadcastInDim S500000 ![] bcast_S_S500000 main_c_10
  let main_v30 : IVec S500000 1 := cmpi .sge main_arg2 main_v29
  let main_c_11 : IVec S_ 32 := constantI S_ 32 50000#32
  let main_v31 : IVec S500000 32 := broadcastInDim S500000 ![] bcast_S_S500000 main_c_11
  let main_v32 : IVec S500000 1 := cmpi .slt main_arg2 main_v31
  let main_v33 : IVec S500000 1 := andi main_v30 main_v32
  fn_part2 (F := F) main_arg4 main_arg6 main_v28 main_v33

def fn {F : FTy → Type} [FloatOps F] (main_arg0 : FVec F S50000x128 .f32) (main_arg1 : IVec S500000 32) (main_arg2 : IVec S500000 32) (main_arg3 : IVec S500000 32) (main_arg4 : IVec S500000 32) (main_arg5 : IVec S500000 32) (main_arg6 : IVec S500000 32) (main_arg7 : FVec F S128x128 .f32) (main_arg8 : FVec F S128x128 .f32) (main_arg9 : FVec F S128x128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg7
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg4 main_arg6 main_arg10 main_arg11 main_v13 main_v16
-- ==== Kernel.lean ====
abbrev S50000x128 : Shape := ⟨2, ![50000, 128]⟩
abbrev S500000 : Shape := ⟨1, ![500000]⟩
abbrev S128x128 : Shape := ⟨2, ![128, 128]⟩
abbrev S128 : Shape := ⟨1, ![128]⟩
abbrev S1500000 : Shape := ⟨1, ![1500000]⟩
abbrev S_ : Shape := ⟨0, ![]⟩
abbrev S1500000x1 : Shape := ⟨2, ![1500000, 1]⟩
abbrev S1500000x128 : Shape := ⟨2, ![1500000, 128]⟩
abbrev S150000x128 : Shape := ⟨2, ![150000, 128]⟩
abbrev S150000 : Shape := ⟨1, ![150000]⟩
abbrev S3x50000x128 : Shape := ⟨3, ![3, 50000, 128]⟩
abbrev S1x50000x128 : Shape := ⟨3, ![1, 50000, 128]⟩
abbrev S3x50000 : Shape := ⟨2, ![3, 50000]⟩
abbrev S1x50000 : Shape := ⟨2, ![1, 50000]⟩
abbrev S50000 : Shape := ⟨1, ![50000]⟩
abbrev S50000x1 : Shape := ⟨2, ![50000, 1]⟩
abbrev S50000x3 : Shape := ⟨2, ![50000, 3]⟩
abbrev S1x128 : Shape := ⟨2, ![1, 128]⟩
abbrev S2000x128 : Shape := ⟨2, ![2000, 128]⟩
abbrev S2000x3 : Shape := ⟨2, ![2000, 3]⟩
abbrev S2000x1 : Shape := ⟨2, ![2000, 1]⟩

abbrev nBuf : Space → Nat
  | .hbm => 70
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S500000, .i32⟩
  | .hbm, ⟨5, _⟩ => ⟨S500000, .i32⟩
  | .hbm, ⟨6, _⟩ => ⟨S500000, .i32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S1500000, .i32⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S_, .i32⟩
  | .hbm, ⟨17, _⟩ => ⟨S500000, .i32⟩
  | .hbm, ⟨18, _⟩ => ⟨S500000, .i32⟩
  | .hbm, ⟨19, _⟩ => ⟨S1500000, .i32⟩
  | .hbm, ⟨20, _⟩ => ⟨S_, .i32⟩
  | .hbm, ⟨21, _⟩ => ⟨S1500000, .i32⟩
  | .hbm, ⟨22, _⟩ => ⟨S1500000, .i1⟩
  | .hbm, ⟨23, _⟩ => ⟨S_, .i32⟩
  | .hbm, ⟨24, _⟩ => ⟨S1500000, .i32⟩
  | .hbm, ⟨25, _⟩ => ⟨S1500000, .i32⟩
  | .hbm, ⟨26, _⟩ => ⟨S1500000, .i32⟩
  | .hbm, ⟨27, _⟩ => ⟨S1500000x1, .i32⟩
  | .hbm, ⟨28, _⟩ => ⟨S1500000x128, .f32⟩
  | .hbm, ⟨29, _⟩ => ⟨S_, .f32⟩
  | .hbm, ⟨30, _⟩ => ⟨S150000x128, .f32⟩
  | .hbm, ⟨31, _⟩ => ⟨S1500000x1, .i32⟩
  | .hbm, ⟨32, _⟩ => ⟨S150000x128, .f32⟩
  | .hbm, ⟨33, _⟩ => ⟨S_, .f32⟩
  | .hbm, ⟨34, _⟩ => ⟨S1500000, .f32⟩
  | .hbm, ⟨35, _⟩ => ⟨S_, .f32⟩
  | .hbm, ⟨36, _⟩ => ⟨S150000, .f32⟩
  | .hbm, ⟨37, _⟩ => ⟨S1500000x1, .i32⟩
  | .hbm, ⟨38, _⟩ => ⟨S150000, .f32⟩
  | .hbm, ⟨39, _⟩ => ⟨S_, .f32⟩
  | .hbm, ⟨40, _⟩ => ⟨S_, .f32⟩
  | .hbm, ⟨41, _⟩ => ⟨S150000, .f32⟩
  | .hbm, ⟨42, _⟩ => ⟨S150000, .f32⟩
  | .hbm, ⟨43, _⟩ => ⟨S_, .f32⟩
  | .hbm, ⟨44, _⟩ => ⟨S150000, .f32⟩
  | .hbm, ⟨45, _⟩ => ⟨S150000, .f32⟩
  | .hbm, ⟨46, _⟩ => ⟨S3x50000x128, .f32⟩
  | .hbm, ⟨47, _⟩ => ⟨S1x50000x128, .f32⟩
  | .hbm, ⟨48, _⟩ => ⟨S50000x128, .f32⟩
  | .hbm, ⟨49, _⟩ => ⟨S1x50000x128, .f32⟩
  | .hbm, ⟨50, _⟩ => ⟨S50000x128, .f32⟩
  | .hbm, ⟨51, _⟩ => ⟨S1x50000x128, .f32⟩
  | .hbm, ⟨52, _⟩ => ⟨S50000x128, .f32⟩
  | .hbm, ⟨53, _⟩ => ⟨S3x50000, .f32⟩
  | .hbm, ⟨54, _⟩ => ⟨S1x50000, .f32⟩
  | .hbm, ⟨55, _⟩ => ⟨S50000, .f32⟩
  | .hbm, ⟨56, _⟩ => ⟨S1x50000, .f32⟩
  | .hbm, ⟨57, _⟩ => ⟨S50000, .f32⟩
  | .hbm, ⟨58, _⟩ => ⟨S1x50000, .f32⟩
  | .hbm, ⟨59, _⟩ => ⟨S50000, .f32⟩
  | .hbm, ⟨60, _⟩ => ⟨S50000x1, .f32⟩
  | .hbm, ⟨61, _⟩ => ⟨S50000x1, .f32⟩
  | .hbm, ⟨62, _⟩ => ⟨S50000x1, .f32⟩
  | .hbm, ⟨63, _⟩ => ⟨S50000x3, .f32⟩
  | .hbm, ⟨64, _⟩ => ⟨S128x128, .bf16⟩
  | .hbm, ⟨65, _⟩ => ⟨S128x128, .bf16⟩
  | .hbm, ⟨66, _⟩ => ⟨S128x128, .bf16⟩
  | .hbm, ⟨67, _⟩ => ⟨S128x128, .bf16⟩
  | .hbm, ⟨68, _⟩ => ⟨S1x128, .f32⟩
  | .hbm, ⟨69, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x3, .f32⟩
  | .local _ .vmem, ⟨7, _⟩ => ⟨S2000x3, .f32⟩
  | .local _ .vmem, ⟨8, _⟩ => ⟨S2000x128, .f32⟩
  | .local _ .vmem, ⟨9, _⟩ => ⟨S2000x128, .f32⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_v20 : Ref sig .tc := ⟨.hbm, 42, rfl⟩
abbrev main_cst_6 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S500000_S500000_S500000_S1500000_d0 : Shape.Concatenates [S500000, S500000, S500000] S1500000 0
  bcast_S_S500000 : S_.BroadcastsInDim S500000 (![] : Fin 0 → Fin S500000.rank)
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S_S150000x128 : S_.BroadcastsInDim S150000x128 (![] : Fin 0 → Fin S150000x128.rank)
  bcast_S_S150000 : S_.BroadcastsInDim S150000 (![] : Fin 0 → Fin S150000.rank)
  shapeCasts_S150000x128_S3x50000x128 : S150000x128.ShapeCasts S3x50000x128
  slices_S3x50000x128_S1x50000x128_0_0_0 : S3x50000x128.Slices ![0, 0, 0] S1x50000x128
  shapeCasts_S1x50000x128_S50000x128 : S1x50000x128.ShapeCasts S50000x128
  slices_S3x50000x128_S1x50000x128_1_0_0 : S3x50000x128.Slices ![1, 0, 0] S1x50000x128
  slices_S3x50000x128_S1x50000x128_2_0_0 : S3x50000x128.Slices ![2, 0, 0] S1x50000x128
  shapeCasts_S150000_S3x50000 : S150000.ShapeCasts S3x50000
  slices_S3x50000_S1x50000_0_0 : S3x50000.Slices ![0, 0] S1x50000
  shapeCasts_S1x50000_S50000 : S1x50000.ShapeCasts S50000
  slices_S3x50000_S1x50000_1_0 : S3x50000.Slices ![1, 0] S1x50000
  slices_S3x50000_S1x50000_2_0 : S3x50000.Slices ![2, 0] S1x50000
  bcast_S50000_S50000x1_0 : S50000.BroadcastsInDim S50000x1 (![0] : Fin 1 → Fin S50000x1.rank)
  concatenates_S50000x1_S50000x1_S50000x1_S50000x3_d1 : Shape.Concatenates [S50000x1, S50000x1, S50000x1] S50000x3 1
  bitsLt_bf16_f32 : FTy.bits .bf16 < FTy.bits .f32
  shapeCasts_S128_S1x128 : S128.ShapeCasts S1x128
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  slices_S2000x3_o0_0_S2000x1 : S2000x3.Slices ![0, 0] S2000x1
  slices_S2000x3_o0_1_S2000x1 : S2000x3.Slices ![0, 1] S2000x1
  slices_S2000x3_o0_2_S2000x1 : S2000x3.Slices ![0, 2] S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S1500000x1_S1500000x128_1_0_n_n_0_1_1128_wf : GatherDims.WF S50000x128 S1500000x1 S1500000x128 [1] [0] [] [0] [] 1 ![1, 128]
  scatter_S150000x128_S1500000x1_S1500000x128_1_0_0_1_wf : ScatterDims.WF S150000x128 S1500000x1 S1500000x128 [1] [0] [0] 1
  scatter_S150000_S1500000x1_S1500000_n_0_0_1_wf : ScatterDims.WF S150000 S1500000x1 S1500000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x3.size a ≤ S50000x3.size a
  hwx0_3 : ∀ i : grid0.Coords, EltTy.bits .f32 = 32 ∨ (Rect.block (s := S50000x3) S2000x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)

variable [Facts₀]

def gather_S50000x128_S1500000x1_S1500000x128_1_0_n_n_0_1_1128 : GatherDims S50000x128 S1500000x1 S1500000x128 where
  offsetDims := [1]
  collapsedSliceDims := [0]
  operandBatchingDims := []
  startIndicesBatchingDims := []
  startIndexMap := [0]
  indexVectorDim := 1
  sliceSizes := ![1, 128]
  wf := gather_S50000x128_S1500000x1_S1500000x128_1_0_n_n_0_1_1128_wf
def scatter_S150000x128_S1500000x1_S1500000x128_1_0_0_1 : ScatterDims S150000x128 S1500000x1 S1500000x128 where
  updateWindowDims := [1]
  insertedWindowDims := [0]
  scatterDimsToOperandDims := [0]
  indexVectorDim := 1
  wf := scatter_S150000x128_S1500000x1_S1500000x128_1_0_0_1_wf
def scatter_S150000_S1500000x1_S1500000_n_0_0_1 : ScatterDims S150000 S1500000x1 S1500000 where
  updateWindowDims := []
  insertedWindowDims := [0]
  scatterDimsToOperandDims := [0]
  indexVectorDim := 1
  wf := scatter_S150000_S1500000x1_S1500000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v25) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S2000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v41) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v44) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v45) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v46) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S500000 : Shape := ⟨1, ![500000]⟩
abbrev S128x128 : Shape := ⟨2, ![128, 128]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 103
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S500000, .i32⟩
  | .hbm, ⟨2, _⟩ => ⟨S500000, .i32⟩
  | .hbm, ⟨3, _⟩ => ⟨S500000, .i32⟩
  | .hbm, ⟨4, _⟩ => ⟨S500000, .i32⟩
  | .hbm, ⟨5, _⟩ => ⟨S500000, .i32⟩
  | .hbm, ⟨6, _⟩ => ⟨S500000, .i32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000x128, .f32⟩
  | .hbm, ⟨21, _⟩ => ⟨S_, .f32⟩
  | .hbm, ⟨22, _⟩ => ⟨S50000x128, .f32⟩
  | .hbm, ⟨23, _⟩ => ⟨S500000x1, .i32⟩
  | .hbm, ⟨24, _⟩ => ⟨S50000x128, .f32⟩
  | .hbm, ⟨25, _⟩ => ⟨S_, .f32⟩
  | .hbm, ⟨26, _⟩ => ⟨S500000, .f32⟩
  | .hbm, ⟨27, _⟩ => ⟨S_, .f32⟩
  | .hbm, ⟨28, _⟩ => ⟨S50000, .f32⟩
  | .hbm, ⟨29, _⟩ => ⟨S500000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x128, .f32⟩
  | .hbm, ⟨48, _⟩ => ⟨S_, .f32⟩
  | .hbm, ⟨49, _⟩ => ⟨S50000x128, .f32⟩
  | .hbm, ⟨50, _⟩ => ⟨S500000x1, .i32⟩
  | .hbm, ⟨51, _⟩ => ⟨S50000x128, .f32⟩
  | .hbm, ⟨52, _⟩ => ⟨S_, .f32⟩
  | .hbm, ⟨53, _⟩ => ⟨S500000, .f32⟩
  | .hbm, ⟨54, _⟩ => ⟨S_, .f32⟩
  | .hbm, ⟨55, _⟩ => ⟨S50000, .f32⟩
  | .hbm, ⟨56, _⟩ => ⟨S500000x1, .i32⟩
  | .hbm, ⟨57, _⟩ => ⟨S50000, .f32⟩
  | .hbm, ⟨58, _⟩ => ⟨S_, .f32⟩
  | .hbm, ⟨59, _⟩ => ⟨S_, .f32⟩
  | .hbm, ⟨60, _⟩ => ⟨S50000, .f32⟩
  | .hbm, ⟨61, _⟩ => ⟨S50000, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S500000, .i32⟩
  | .hbm, ⟨69, _⟩ => ⟨S500000, .i1⟩
  | .hbm, ⟨70, _⟩ => ⟨S_, .i32⟩
  | .hbm, ⟨71, _⟩ => ⟨S500000, .i32⟩
  | .hbm, ⟨72, _⟩ => ⟨S500000, .i32⟩
  | .hbm, ⟨73, _⟩ => ⟨S500000, .i32⟩
  | .hbm, ⟨74, _⟩ => ⟨S500000x1, .i32⟩
  | .hbm, ⟨75, _⟩ => ⟨S500000x128, .f32⟩
  | .hbm, ⟨76, _⟩ => ⟨S_, .f32⟩
  | .hbm, ⟨77, _⟩ => ⟨S50000x128, .f32⟩
  | .hbm, ⟨78, _⟩ => ⟨S500000x1, .i32⟩
  | .hbm, ⟨79, _⟩ => ⟨S50000x128, .f32⟩
  | .hbm, ⟨80, _⟩ => ⟨S_, .f32⟩
  | .hbm, ⟨81, _⟩ => ⟨S500000, .f32⟩
  | .hbm, ⟨82, _⟩ => ⟨S_, .f32⟩
  | .hbm, ⟨83, _⟩ => ⟨S50000, .f32⟩
  | .hbm, ⟨84, _⟩ => ⟨S500000x1, .i32⟩
  | .hbm, ⟨85, _⟩ => ⟨S50000, .f32⟩
  | .hbm, ⟨86, _⟩ => ⟨S_, .f32⟩
  | .hbm, ⟨87, _⟩ => ⟨S_, .f32⟩
  | .hbm, ⟨88, _⟩ => ⟨S50000, .f32⟩
  | .hbm, ⟨89, _⟩ => ⟨S50000, .f32⟩
  | .hbm, ⟨90, _⟩ => ⟨S50000x1, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S50000x128, .f32⟩
  | .hbm, ⟨102, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_cst_8 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_call1_v0 : Ref sig .tc := ⟨.hbm, 59, rfl⟩
abbrev main_call1_v1 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_10 : Ref sig .tc := ⟨.hbm, 67, rfl⟩
abbrev main_v39 : Ref sig .tc := ⟨.hbm, 68, rfl⟩
abbrev main_v40 : Ref sig .tc := ⟨.hbm, 69, rfl⟩
abbrev main_c_11 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_12 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_13 : Ref sig .tc := ⟨.hbm, 80, rfl⟩
abbrev main_v49 : Ref sig .tc := ⟨.hbm, 81, rfl⟩
abbrev main_cst_14 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_15 : Ref sig .tc := ⟨.hbm, 86, rfl⟩
abbrev main_call2_v0 : Ref sig .tc := ⟨.hbm, 87, rfl⟩
abbrev main_call2_v1 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_call3_cst : Ref sig .tc := ⟨.hbm, 100, rfl⟩
abbrev main_call3_v0 : Ref sig .tc := ⟨.hbm, 101, rfl⟩
abbrev main_v64 : Ref sig .tc := ⟨.hbm, 102, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x128_S50000x128_1_0_0_1_n_n_wf : DotDims.WF S50000x128 S128x128 S50000x128 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibStretch.lean ====
/-
  A long straight line of host operations read at one buffer, stretch by stretch.

  When each operation of the line writes exactly one buffer, and the list of those result references is known, "no
  operation from position k on writes r" is one membership test in a list of references. A buffer that is not
  written from position k on holds after the whole line what it holds after the first k operations; cutting once
  more at i ≤ k, it holds what the operations i … k-1 leave when run from the contents the first i left. A proof
  reads a long line this way: it names the contents after a prefix, runs a short stretch over them, and reads the
  stretch's inputs back as the whole line's contents (they are not written again either).
-/
import Mathlib.Data.List.Forall2
import Idealize.ShloMosaic.Lib.StableHlo.Run

namespace Cert.LibStretch

open Idealize.ShloMosaic Idealize.ShloMosaic.StableHlo

variable {τ : Topo} {sig : RefSig} {Val : EltTy → Type}

/-- Operation by operation, the line writes exactly the buffers of the references ys. -/
def WritesAre (ops : List (HloOp τ sig Val)) (ys : List (Ref sig .tc)) : Prop :=
  List.Forall₂ (fun op y => op.writes = {Proc.devRef .tc y}) ops ys

/-- A reference outside the list is written by no operation of the line. -/
theorem not_mem_writes {ops : List (HloOp τ sig Val)} {ys : List (Ref sig .tc)} (h : WritesAre ops ys)
    {r : Ref sig .tc} (hr : r ∉ ys) : ∀ op ∈ ops, Proc.devRef (τ := τ) .tc r ∉ op.writes := by
  induction h with
  | nil => intro op hop; exact absurd hop List.not_mem_nil
  | cons hxy _ ih =>
    intro op hop
    rcases List.mem_cons.mp hop with e | hop
    · subst e
      rw [hxy, Finset.mem_singleton]
      exact devRef_ne_of_ne fun e => hr (e ▸ List.mem_cons_self)
    · exact ih (fun hm => hr (List.mem_cons_of_mem _ hm)) op hop

/-- Two lines run one after the other. -/
theorem after_cat : ∀ (l₁ l₂ : List (HloOp τ sig Val)) (W : Valuation τ sig Val),
    after (l₁ ++ l₂) W = after l₂ (after l₁ W)
  | [], _, _ => rfl
  | op :: l₁, l₂, W => by rw [List.cons_append, after_cons, after_cons, after_cat l₁ l₂]

/-- The contents after the first i operations of the line (a name of its own, so that a proof can set the prefix aside
    as one object while it computes with a stretch that follows it). -/
def pre (ops : List (HloOp τ sig Val)) (i : Nat) (W : Valuation τ sig Val) : Valuation τ sig Val := after (ops.take i) W

/-- A buffer no operation from position k on writes holds, after the line, what it holds after the first k. -/
theorem after_eq_take {ops : List (HloOp τ sig Val)} {ys : List (Ref sig .tc)} (h : WritesAre ops ys) (k : Nat)
    (W : Valuation τ sig Val) (r : Ref sig .tc) (hr : r ∉ ys.drop k) :
    after ops W (Proc.devRef .tc r) = after (ops.take k) W (Proc.devRef .tc r) := by
  conv_lhs => rw [← List.take_append_drop k ops]
  rw [after_cat, after_of_forall_not_mem _ _ (not_mem_writes (List.forall₂_drop k h) hr)]

/-- The same, the prefix named. -/
theorem after_eq_pre {ops : List (HloOp τ sig Val)} {ys : List (Ref sig .tc)} (h : WritesAre ops ys) (k : Nat)
    (W : Valuation τ sig Val) (r : Ref sig .tc) (hr : r ∉ ys.drop k) :
    after ops W (Proc.devRef .tc r) = pre ops k W (Proc.devRef .tc r) :=
  after_eq_take h k W r hr

/-- The same, cut once more at i ≤ k: the operations i … k-1 run from what the first i left. -/
theorem after_eq_stretch {ops : List (HloOp τ sig Val)} {ys : List (Ref sig .tc)} (h : WritesAre ops ys) (i k : Nat)
    (hik : i ≤ k) (W : Valuation τ sig Val) (r : Ref sig .tc) (hr : r ∉ ys.drop k) :
    after ops W (Proc.devRef .tc r) = after ((ops.take k).drop i) (pre ops i W) (Proc.devRef .tc r) := by
  rw [after_eq_take h k W r hr]
  conv_lhs => rw [← List.take_append_drop i (ops.take k)]
  rw [after_cat, List.take_take, Nat.min_eq_left hik]
  rfl

end Cert.LibStretch
-- ==== Proof.LibSsa.lean ====
/-
  A straight line of host operations in single-assignment form, read one operation at a time.

  When each operation of a line writes exactly one buffer and the list of the written references is known, the line
  is in single-assignment form where every reference occurs once in that list. The contents of the buffer the
  operation at position k writes are then, after the WHOLE line, that operation's function applied to the contents,
  after the WHOLE line, of its operand buffers: the result buffer is not written again after position k, so it keeps
  what the operation gave it; and no operand is written at or after position k, so what the operation read (the
  contents after the first k operations) is what the operand still holds at the end. Both side conditions are
  membership tests in a tail of the list of written references. One such one-step equation per kind of operation
  (no operand, one, two, three, a reshape) turns a long line into a system of equations between final contents,
  each of which mentions only final contents.
-/
import proofs.«408782_j40278203301916_3_alg».proof.Proof.LibStretch

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- A buffer not written after position k holds, after the line, what the operation at position k leaves in it when
    run from the contents after the first k operations. -/
theorem after_at (h : WritesAre ops ys) (k : Nat) (W : Valuation τ sig Val) (op : HloOp τ sig Val)
    (hop : ops[k]? = some op) (y : Ref sig .tc) (hy : y ∉ ys.drop (k + 1)) :
    after ops W (Proc.devRef .tc y) = op.result (after (ops.take k) W) (Proc.devRef .tc y) := by
  rw [after_eq_take h (k + 1) W y hy, List.take_succ, hop, Option.toList_some, after_cat, after_cons, after_nil]

/-- A buffer not written at or after position k holds after the first k operations what it holds after the line. -/
theorem read_take (h : WritesAre ops ys) (k : Nat) (W : Valuation τ sig Val) (x : Ref sig .tc)
    (hx : x ∉ ys.drop k) :
    after (ops.take k) W (Proc.devRef .tc x) = after ops W (Proc.devRef .tc x) :=
  (after_eq_take h k W x hx).symm

/-- A reference the line never writes keeps its contents. -/
theorem keeps (h : WritesAre ops ys) (W : Valuation τ sig Val) (r : Ref sig .tc) (hr : r ∉ ys) :
    after ops W (Proc.devRef .tc r) = W (Proc.devRef .tc r) :=
  after_of_forall_not_mem ops W (not_mem_writes h hr)

/-- One step, no operand: the result buffer of a constant at position k, not written again, holds the constant. -/
theorem at_nullary (h : WritesAre ops ys) (k : Nat) (W : Valuation τ sig Val) {y : Ref sig .tc}
    (v : y.ty.Contents Val) (hy0) (hop : ops[k]? = some (nullary y v hy0)) (hy : y ∉ ys.drop (k + 1)) :
    after ops W (Proc.devRef .tc y) = v := by
  rw [after_at h k W _ hop y hy]; exact nullary_result y v hy0 _

/-- One step, one operand: the result buffer holds the function of the operand's final contents. -/
theorem at_unary (h : WritesAre ops ys) (k : Nat) (W : Valuation τ sig Val) {x y : Ref sig .tc}
    (f : x.ty.Contents Val → y.ty.Contents Val) (hx0 hy0) (hop : ops[k]? = some (unary x y f hx0 hy0))
    (hy : y ∉ ys.drop (k + 1)) (hx : x ∉ ys.drop k) :
    after ops W (Proc.devRef .tc y) = f (after ops W (Proc.devRef .tc x)) := by
  rw [after_at h k W _ hop y hy, ← read_take h k W x hx]; exact unary_result x y f hx0 hy0 _

/-- One step, two operands: the result buffer holds the function of the two operands' final contents. -/
theorem at_binary (h : WritesAre ops ys) (k : Nat) (W : Valuation τ sig Val) {a b y : Ref sig .tc}
    (f : a.ty.Contents Val → b.ty.Contents Val → y.ty.Contents Val) (ha0 hb0 hy0)
    (hop : ops[k]? = some (binary a b y f ha0 hb0 hy0))
    (hy : y ∉ ys.drop (k + 1)) (ha : a ∉ ys.drop k) (hb : b ∉ ys.drop k) :
    after ops W (Proc.devRef .tc y) = f (after ops W (Proc.devRef .tc a)) (after ops W (Proc.devRef .tc b)) := by
  rw [after_at h k W _ hop y hy, ← read_take h k W a ha, ← read_take h k W b hb]
  exact binary_result a b y f ha0 hb0 hy0 _

/-- One step, three operands: the result buffer holds the function of the three operands' final contents. -/
theorem at_ternary (h : WritesAre ops ys) (k : Nat) (W : Valuation τ sig Val) {c a b y : Ref sig .tc}
    (f : c.ty.Contents Val → a.ty.Contents Val → b.ty.Contents Val → y.ty.Contents Val) (hc0 ha0 hb0 hy0)
    (hop : ops[k]? = some (ternary c a b y f hc0 ha0 hb0 hy0))
    (hy : y ∉ ys.drop (k + 1)) (hc : c ∉ ys.drop k) (ha : a ∉ ys.drop k) (hb : b ∉ ys.drop k) :
    after ops W (Proc.devRef .tc y)
      = f (after ops W (Proc.devRef .tc c)) (after ops W (Proc.devRef .tc a)) (after ops W (Proc.devRef .tc b)) := by
  rw [after_at h k W _ hop y hy, ← read_take h k W c hc, ← read_take h k W a ha, ← read_take h k W b hb]
  exact ternary_result c a b y f hc0 ha0 hb0 hy0 _

/-- One step, a reshape: the result buffer holds the operand's final contents, in row-major order at its own shape. -/
theorem at_reshape (h : WritesAre ops ys) (k : Nat) (W : Valuation τ sig Val) {x y : Ref sig .tc}
    (he : x.ty.elt = y.ty.elt) (hn : x.ty.shape.ShapeCasts y.ty.shape) (hx0 hy0)
    (hop : ops[k]? = some (reshape x y he hn hx0 hy0)) (hy : y ∉ ys.drop (k + 1)) (hx : x ∉ ys.drop k) :
    after ops W (Proc.devRef .tc y) = fun i => he ▸ shapeCast y.ty.shape (after ops W (Proc.devRef .tc x)) hn i := by
  rw [after_at h k W _ hop y hy, ← read_take h k W x hx]; exact reshape_result x y he hn hx0 hy0 _

/-- Proves that a literal line writes, operation by operation, the references of a literal list of the same length:
    each step is the operation's set of written buffers, by computation. -/
macro "writes_are" : tactic =>
  `(tactic| (unfold Cert.LibStretch.WritesAre
             repeat (first | exact List.Forall₂.nil | refine List.Forall₂.cons rfl ?_)))

end Cert.LibSsa
-- ==== Proof.LibSsaT.lean ====
/-
  One-step equations of a single-assignment line of host operations, over typed references.

  Inside a module-local function an operation is stated over typed references: its function acts between the types the
  references carry, and the buffers' own types are reached by a transport along each reference's type equation. Read
  through that transport, the one-step equations keep the operation's function at the head of the right-hand side, so
  that comparing such an equation with a statement over literal buffers never has to open the function.
-/
import proofs.«408782_j40278203301916_3_alg».proof.Proof.LibSsa

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- Reading a typed reference's buffer back at the reference's type undoes storing at it. -/
theorem ofBuf_toBuf {T : BufTy} (y : TRef sig T) (v : T.Contents Val) : y.ofBuf (y.toBuf v) = v := by
  obtain ⟨r, hr, _, _⟩ := y
  subst hr
  rfl

/-- One step over typed references, no operand. -/
theorem at_tnullary (h : WritesAre ops ys) (k : Nat) (W : Valuation τ sig Val) {Ty : BufTy} (y : TRef sig Ty)
    (v : Ty.Contents Val) (hop : ops[k]? = some (TRef.nullary y v)) (hy : y.ref ∉ ys.drop (k + 1)) :
    y.ofBuf (after ops W (Proc.devRef .tc y.ref)) = v := by
  rw [at_nullary h k W _ _ hop hy]; exact ofBuf_toBuf y _

/-- One step over typed references, one operand. -/
theorem at_tunary (h : WritesAre ops ys) (k : Nat) (W : Valuation τ sig Val) {Tx Ty : BufTy} (x : TRef sig Tx)
    (y : TRef sig Ty) (f : Tx.Contents Val → Ty.Contents Val) (hop : ops[k]? = some (TRef.unary x y f))
    (hy : y.ref ∉ ys.drop (k + 1)) (hx : x.ref ∉ ys.drop k) :
    y.ofBuf (after ops W (Proc.devRef .tc y.ref)) = f (x.ofBuf (after ops W (Proc.devRef .tc x.ref))) := by
  rw [at_unary h k W _ _ _ hop hy hx]; exact ofBuf_toBuf y _

/-- One step over typed references, two operands. -/
theorem at_tbinary (h : WritesAre ops ys) (k : Nat) (W : Valuation τ sig Val) {Ta Tb Ty : BufTy} (a : TRef sig Ta)
    (b : TRef sig Tb) (y : TRef sig Ty) (f : Ta.Contents Val → Tb.Contents Val → Ty.Contents Val)
    (hop : ops[k]? = some (TRef.binary a b y f))
    (hy : y.ref ∉ ys.drop (k + 1)) (ha : a.ref ∉ ys.drop k) (hb : b.ref ∉ ys.drop k) :
    y.ofBuf (after ops W (Proc.devRef .tc y.ref))
      = f (a.ofBuf (after ops W (Proc.devRef .tc a.ref))) (b.ofBuf (after ops W (Proc.devRef .tc b.ref))) := by
  rw [at_binary h k W _ _ _ _ hop hy ha hb]; exact ofBuf_toBuf y _

/-- One step over typed references, three operands. -/
theorem at_tternary (h : WritesAre ops ys) (k : Nat) (W : Valuation τ sig Val) {Tc Ta Tb Ty : BufTy} (c : TRef sig Tc)
    (a : TRef sig Ta) (b : TRef sig Tb) (y : TRef sig Ty)
    (f : Tc.Contents Val → Ta.Contents Val → Tb.Contents Val → Ty.Contents Val)
    (hop : ops[k]? = some (TRef.ternary c a b y f))
    (hy : y.ref ∉ ys.drop (k + 1)) (hc : c.ref ∉ ys.drop k) (ha : a.ref ∉ ys.drop k) (hb : b.ref ∉ ys.drop k) :
    y.ofBuf (after ops W (Proc.devRef .tc y.ref))
      = f (c.ofBuf (after ops W (Proc.devRef .tc c.ref))) (a.ofBuf (after ops W (Proc.devRef .tc a.ref)))
          (b.ofBuf (after ops W (Proc.devRef .tc b.ref))) := by
  rw [at_ternary h k W _ _ _ _ _ hop hy hc ha hb]; exact ofBuf_toBuf y _

end Cert.LibSsa
-- ==== Proof.LibSsaTL.lean ====
/-
  One-step equations of a single-assignment line of host operations, over typed references that carry the buffer's
  own type.

  A typed reference to a literal buffer, typed at that buffer's own type, moves contents along an equation that is
  reflexivity: reading and storing through it are the identity. For such references the one-step equations hold
  between the buffers' final contents themselves, with no transport on either side; an operation printed at a literal
  type that the buffer's type computes to is such an operation.
-/
import proofs.«408782_j40278203301916_3_alg».proof.Proof.LibSsaT

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- One step over typed references at the buffers' own types, no operand. -/
theorem at_lnullary (h : WritesAre ops ys) (k : Nat) (W : Valuation τ sig Val) {y : Ref sig .tc} (hyd hys)
    (v : y.ty.Contents Val) (hop : ops[k]? = some (TRef.nullary (TRef.of (T := y.ty) y rfl hyd hys) v))
    (hy : y ∉ ys.drop (k + 1)) :
    after ops W (Proc.devRef .tc y) = v :=
  at_tnullary h k W (TRef.of (T := y.ty) y rfl hyd hys) v hop hy

/-- One step over typed references at the buffers' own types, one operand. -/
theorem at_lunary (h : WritesAre ops ys) (k : Nat) (W : Valuation τ sig Val) {x y : Ref sig .tc} (hxd hxs hyd hys)
    (f : x.ty.Contents Val → y.ty.Contents Val)
    (hop : ops[k]? = some (TRef.unary (TRef.of (T := x.ty) x rfl hxd hxs) (TRef.of (T := y.ty) y rfl hyd hys) f))
    (hy : y ∉ ys.drop (k + 1)) (hx : x ∉ ys.drop k) :
    after ops W (Proc.devRef .tc y) = f (after ops W (Proc.devRef .tc x)) :=
  at_tunary h k W (TRef.of (T := x.ty) x rfl hxd hxs) (TRef.of (T := y.ty) y rfl hyd hys) f hop hy hx

/-- One step over typed references at the buffers' own types, two operands. -/
theorem at_lbinary (h : WritesAre ops ys) (k : Nat) (W : Valuation τ sig Val) {a b y : Ref sig .tc}
    (had has hbd hbs hyd hys) (f : a.ty.Contents Val → b.ty.Contents Val → y.ty.Contents Val)
    (hop : ops[k]? = some (TRef.binary (TRef.of (T := a.ty) a rfl had has) (TRef.of (T := b.ty) b rfl hbd hbs)
      (TRef.of (T := y.ty) y rfl hyd hys) f))
    (hy : y ∉ ys.drop (k + 1)) (ha : a ∉ ys.drop k) (hb : b ∉ ys.drop k) :
    after ops W (Proc.devRef .tc y) = f (after ops W (Proc.devRef .tc a)) (after ops W (Proc.devRef .tc b)) :=
  at_tbinary h k W (TRef.of (T := a.ty) a rfl had has) (TRef.of (T := b.ty) b rfl hbd hbs)
    (TRef.of (T := y.ty) y rfl hyd hys) f hop hy ha hb

/-- One step over typed references at the buffers' own types, three operands. -/
theorem at_lternary (h : WritesAre ops ys) (k : Nat) (W : Valuation τ sig Val) {c a b y : Ref sig .tc}
    (hcd hcs had has hbd hbs hyd hys)
    (f : c.ty.Contents Val → a.ty.Contents Val → b.ty.Contents Val → y.ty.Contents Val)
    (hop : ops[k]? = some (TRef.ternary (TRef.of (T := c.ty) c rfl hcd hcs) (TRef.of (T := a.ty) a rfl had has)
      (TRef.of (T := b.ty) b rfl hbd hbs) (TRef.of (T := y.ty) y rfl hyd hys) f))
    (hy : y ∉ ys.drop (k + 1)) (hc : c ∉ ys.drop k) (ha : a ∉ ys.drop k) (hb : b ∉ ys.drop k) :
    after ops W (Proc.devRef .tc y)
      = f (after ops W (Proc.devRef .tc c)) (after ops W (Proc.devRef .tc a)) (after ops W (Proc.devRef .tc b)) :=
  at_tternary h k W (TRef.of (T := c.ty) c rfl hcd hcs) (TRef.of (T := a.ty) a rfl had has)
    (TRef.of (T := b.ty) b rfl hbd hbs) (TRef.of (T := y.ty) y rfl hyd hys) f hop hy hc ha hb

end Cert.LibSsa
-- ==== Proof.LibSsaIdx.lean ====
/-
  Side conditions of the one-step equations of a single-assignment line, by arithmetic on the references' indices.

  The one-step equations ask that a reference does not occur in a tail of the list of the written references. When the
  written references' indices, in the order of the line, are consecutive numbers a, a+1, a+2, …, the tail from
  position k on holds exactly the indices from a+k on, so a reference whose index is below a+k is not in that tail:
  each side condition becomes one comparison of two numbers. A line given as a concatenation of shorter lines writes
  the concatenation of what the shorter lines write.
-/
import proofs.«408782_j40278203301916_3_alg».proof.Proof.LibSsaTL

namespace Cert.LibSsa

open Idealize.ShloMosaic Idealize.ShloMosaic.StableHlo Cert.LibStretch

variable {τ : Topo} {sig : RefSig} {Val : EltTy → Type}

/-- In a list of references whose indices are the consecutive numbers from a on, a reference with an index below
    a + k does not occur from position k on. -/
theorem not_mem_drop_of_idx_lt {ys : List (Ref sig .tc)} {a : Nat}
    (h : ys.map (fun r => r.idx.val) = List.range' a ys.length) (k : Nat) (r : Ref sig .tc)
    (hr : r.idx.val < a + k) : r ∉ ys.drop k := by
  intro hm
  have hv : r.idx.val ∈ (ys.drop k).map (fun r => r.idx.val) := List.mem_map_of_mem hm
  rw [List.map_drop, h, List.drop_range', List.mem_range'_1] at hv
  omega

/-- A reference with an index below all the written ones is not written. -/
theorem not_mem_of_idx_lt {ys : List (Ref sig .tc)} {a : Nat}
    (h : ys.map (fun r => r.idx.val) = List.range' a ys.length) (r : Ref sig .tc)
    (hr : r.idx.val < a) : r ∉ ys :=
  not_mem_drop_of_idx_lt h 0 r (by omega)

/-- Two lines one after the other write what the first writes, then what the second writes. -/
theorem writesAre_append {l₁ l₂ : List (HloOp τ sig Val)} {ys₁ ys₂ : List (Ref sig .tc)}
    (h₁ : WritesAre l₁ ys₁) (h₂ : WritesAre l₂ ys₂) : WritesAre (l₁ ++ l₂) (ys₁ ++ ys₂) := by
  unfold WritesAre at h₁ h₂ ⊢
  induction h₁ with
  | nil => exact h₂
  | cons h _ ih => exact List.Forall₂.cons h ih

/-- The comparison of a literal reference's index with a literal number, by computation. -/
macro "idx_lt" : tactic => `(tactic| decide)

end Cert.LibSsa
-- ==== Proof.LibNary.lean ====
import Idealize.ShloMosaic.Lib.StableHlo.Run

/-! A host operation with a literal family of THREE operand references (a three-piece concatenate): its result
    with each operand's contents read at that operand's own reference, so that the contents of the operands can
    be rewritten further, one operation at a time. -/

noncomputable section

namespace Cert.LibNary

open Idealize.ShloMosaic Idealize.ShloMosaic.StableHlo

variable {τ : Topo} {sig : RefSig} {Val : EltTy → Type}
variable {x a b y : Ref sig .tc}

/-- The result buffer of a three-operand operation holds the operation's function applied to the three operands'
    contents, operand `k` read at reference `k` of the literal family. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a))
          (Fin.cons (F (Proc.devRef .tc b)) (fun i => i.elim0)))) := by
  rw [nary_result]; congr 1; funext k; fin_cases k <;> rfl

/-- The same equation with the result reference kept out of the simplifier's index, so that one simplification
    pass can use it on a reference it has not yet reduced. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a))
          (Fin.cons (F (Proc.devRef .tc b)) (fun i => i.elim0)))) :=
  nary3_result f hxs hy F

end Cert.LibNary

end
-- ==== Proof.LibSsaN3.lean ====
/-
  The one-step equation of a single-assignment line of host operations for an operation with a literal family of
  three operand references (a three-piece concatenate).

  As for one, two or three separately named operands: the result buffer of the operation at position k, not written
  again, holds the operation's function applied to the family of the three operands' final contents, operand i read
  at reference i of the family; none of the three operands is written at or after position k.
-/
import proofs.«408782_j40278203301916_3_alg».proof.Proof.LibSsa
import proofs.«408782_j40278203301916_3_alg».proof.Proof.LibNary

namespace Cert.LibSsa

open Idealize.ShloMosaic Idealize.ShloMosaic.StableHlo Cert.LibStretch

variable {τ : Topo} {sig : RefSig} {Val : EltTy → Type}
variable {ops : List (HloOp τ sig Val)} {ys : List (Ref sig .tc)}

/-- One step, a literal family of three operands: the result buffer holds the function of the family of the three
    operands' final contents. -/
theorem at_nary3 (h : WritesAre ops ys) (k : Nat) (W : Valuation τ sig Val) {x a b y : Ref sig .tc}
    (f : ((i : Fin 3) → ((![x, a, b] : Fin 3 → Ref sig .tc) i).ty.Contents Val) → y.ty.Contents Val) (hxs hy0)
    (hop : ops[k]? = some (nary ![x, a, b] y f hxs hy0))
    (hy : y ∉ ys.drop (k + 1)) (hx : x ∉ ys.drop k) (ha : a ∉ ys.drop k) (hb : b ∉ ys.drop k) :
    after ops W (Proc.devRef .tc y)
      = f (Fin.cons (after ops W (Proc.devRef .tc x)) (Fin.cons (after ops W (Proc.devRef .tc a))
          (Fin.cons (after ops W (Proc.devRef .tc b)) (fun i => i.elim0)))) := by
  rw [after_at h k W _ hop y hy, ← read_take h k W x hx, ← read_take h k W a ha, ← read_take h k W b hb]
  exact Cert.LibNary.nary3_result f hxs hy0 _

end Cert.LibSsa
-- ==== Proof.KIHostV.lean ====
/-
  The host side of the fused program up to its one kernel launch: fifty-seven operations in a straight line, each
  writing one buffer that no later operation writes again. `V` is what every buffer holds when the launch begins;
  the twelve argument buffers are written by none of the operations, so the launch finds them as they were.
-/
import proofs.«408782_j40278203301916_3_alg».proof.Proof.Gen.KernelIdeal.Launch
import Idealize.ShloMosaic.Lib.Pipeline.Frame
import proofs.«408782_j40278203301916_3_alg».proof.Proof.LibSsaIdx
import proofs.«408782_j40278203301916_3_alg».proof.Proof.LibSsaN3

noncomputable section

namespace Cert.KernelIdeal.Hand

open Idealize.ShloMosaic Idealize.ShloMosaic.TcCoe Idealize.ShloMosaic.StableHlo
open Idealize.SL Idealize.SL.Sem
open Cert.KernelIdeal Cert.KernelIdeal.Gen Cert.LibStretch Cert.LibSsa

variable {F : FTy → Type} [FloatOps F]

/-- The whole line: the three stretches in order. -/
abbrev allOps : List (HloOp τ sig (Elt F)) := List.flatten [hostOps0, hostOps0_1, hostOps0_2]

/-- The buffers the line writes, in the order it writes them. -/
abbrev ys : List (Ref sig .tc) :=
  [main_v0, main_c, main_v1, main_v2, main_c_0, main_v3, main_v4, main_v5, main_c_1, main_v6, main_v7, main_c_2, main_v8, main_v9, main_v10, main_v11, main_v12, main_cst, main_v13, main_v14, main_v15, main_cst_3, main_v16, main_cst_4, main_v17, main_v18, main_v19, main_cst_5, main_call0_v0, main_call0_v1, main_v20, main_cst_6, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45]

/-- Operation by operation the line writes exactly those buffers. -/
theorem writesAre : WritesAre (allOps (F := F)) ys := by
  simp only [allOps, hostOps0, hostOps0_1, hostOps0_2, List.flatten_cons, List.flatten_nil, List.append_nil, List.cons_append,
    List.nil_append]
  writes_are

/-- The written buffers' numbers are consecutive from 12 on: the line is in single-assignment form. -/
theorem ys_idx : (ys.map fun r => r.idx.val) = List.range' 12 ys.length := by decide

variable (m : (ℓ : Loc nD τ sig) → Buf (Elt F) ℓ)

/-- Core `c`'s buffers when the launch begins: after the whole line. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to the launch is the line, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- An argument buffer (numbers 0 … 11) is below every written buffer's number: the line leaves it alone. -/
theorem V_arg (c : Dev nD) (r : Ref sig .tc) (hr : r.idx.val < 12) : V m c r = m ((c : Thread nD τ).loc r) :=
  keeps (writesAre (F := F)) (fun b => m (c, b)) r (not_mem_of_idx_lt ys_idx r hr)

theorem V_main_arg0 (c : Dev nD) : V m c main_arg0 = m ((c : Thread nD τ).loc main_arg0) := V_arg m c main_arg0 (by decide)
theorem V_main_arg1 (c : Dev nD) : V m c main_arg1 = m ((c : Thread nD τ).loc main_arg1) := V_arg m c main_arg1 (by decide)
theorem V_main_arg2 (c : Dev nD) : V m c main_arg2 = m ((c : Thread nD τ).loc main_arg2) := V_arg m c main_arg2 (by decide)
theorem V_main_arg3 (c : Dev nD) : V m c main_arg3 = m ((c : Thread nD τ).loc main_arg3) := V_arg m c main_arg3 (by decide)
theorem V_main_arg4 (c : Dev nD) : V m c main_arg4 = m ((c : Thread nD τ).loc main_arg4) := V_arg m c main_arg4 (by decide)
theorem V_main_arg5 (c : Dev nD) : V m c main_arg5 = m ((c : Thread nD τ).loc main_arg5) := V_arg m c main_arg5 (by decide)
theorem V_main_arg6 (c : Dev nD) : V m c main_arg6 = m ((c : Thread nD τ).loc main_arg6) := V_arg m c main_arg6 (by decide)
theorem V_main_arg7 (c : Dev nD) : V m c main_arg7 = m ((c : Thread nD τ).loc main_arg7) := V_arg m c main_arg7 (by decide)
theorem V_main_arg8 (c : Dev nD) : V m c main_arg8 = m ((c : Thread nD τ).loc main_arg8) := V_arg m c main_arg8 (by decide)
theorem V_main_arg9 (c : Dev nD) : V m c main_arg9 = m ((c : Thread nD τ).loc main_arg9) := V_arg m c main_arg9 (by decide)
theorem V_main_arg10 (c : Dev nD) : V m c main_arg10 = m ((c : Thread nD τ).loc main_arg10) := V_arg m c main_arg10 (by decide)
theorem V_main_arg11 (c : Dev nD) : V m c main_arg11 = m ((c : Thread nD τ).loc main_arg11) := V_arg m c main_arg11 (by decide)

end Cert.KernelIdeal.Hand

end
-- ==== Proof.KIFrame.lean ====
/-
  The fused program runs to the end, faults nowhere and leaves its arguments alone.

  Its one kernel launch walks 25 grid points. At point t the launch hands the body, in on-chip buffers, block t (2000
  rows) of the three message-sum arrays, of the reciprocal-degree array and of the features, and the four matrices and the bias
  row whole; the body loads them, computes, and stores one 2000 x 128 block that covers its output buffer, which is
  written back as block t of the result. Below: what the body leaves in the output buffer as a function of the blocks it
  was handed (`out0_10`), the body's run on any such buffers (`sound_kernel`), the launch's bookkeeping (`dats`), the
  whole program's run (`run_main`) with the result array named, and the statement about the arguments (`frame`).
-/
import proofs.«408782_j40278203301916_3_alg».proof.Proof.KIHostV
import proofs.«408782_j40278203301916_3_alg».proof.Proof.Gen.KernelIdeal.Skeleton
import proofs.«408782_j40278203301916_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the launch hands the body -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's on-chip buffer holds its block at every point, whether the launch fetched it there or kept it
    from the point before (the matrices and the bias are fetched once). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The statement about the arguments, from a run that names every array -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 4).trans (((dats 0 c).arrAt_in 4 rfl _).trans ((hA c 4).trans (V_main_arg0 m c))),
      ((h c).2 main_arg1 (Pipeline.mem_restRefs_of main_arg1 (by decide) (by decide))).trans (V_main_arg1 m c), ((h c).2 main_arg2 (Pipeline.mem_restRefs_of main_arg2 (by decide) (by decide))).trans (V_main_arg2 m c),
      ((h c).2 main_arg3 (Pipeline.mem_restRefs_of main_arg3 (by decide) (by decide))).trans (V_main_arg3 m c), ((h c).2 main_arg4 (Pipeline.mem_restRefs_of main_arg4 (by decide) (by decide))).trans (V_main_arg4 m c),
      ((h c).2 main_arg5 (Pipeline.mem_restRefs_of main_arg5 (by decide) (by decide))).trans (V_main_arg5 m c), ((h c).2 main_arg6 (Pipeline.mem_restRefs_of main_arg6 (by decide) (by decide))).trans (V_main_arg6 m c),
      ((h c).2 main_arg7 (Pipeline.mem_restRefs_of main_arg7 (by decide) (by decide))).trans (V_main_arg7 m c), ((h c).2 main_arg8 (Pipeline.mem_restRefs_of main_arg8 (by decide) (by decide))).trans (V_main_arg8 m c),
      ((h c).2 main_arg9 (Pipeline.mem_restRefs_of main_arg9 (by decide) (by decide))).trans (V_main_arg9 m c), ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-! ## The body's accesses: each a whole buffer -/

abbrev rA : Rect S2000x128 := Rect.unit (s := S2000x128) ![0, 0] S2000x128.size inb_S2000x128_S2000x128_0_0
abbrev rI : Rect S2000x3 := Rect.unit (s := S2000x3) ![0, 0] S2000x3.size inb_S2000x3_S2000x3_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- What the body leaves in the output buffer, from the ten input blocks: its one store, of the body's arithmetic
    (the two payload terms, the first feeding the second) on the loaded blocks. -/
def out0_10 (x0 : Vec F S2000x128 .f32) (x1 : Vec F S2000x128 .f32) (x2 : Vec F S2000x128 .f32) (x3 : Vec F S2000x3 .f32) (x4 : Vec F S2000x128 .f32) (x5 : Vec F S128x128 .bf16) (x6 : Vec F S128x128 .bf16) (x7 : Vec F S128x128 .bf16) (x8 : Vec F S128x128 .bf16) (x9 : Vec F S1x128 .f32) : Vec F S2000x128 .f32 :=
  View.canon [⟨rA, k0_pay1 (k0_pay2 (View.ld x3 rI) (View.ld x0 rA) (View.ld x1 rA) (View.ld x2 rA) (View.ld x4 rA) (View.ld x5 rW) (View.ld x6 rW) (View.ld x7 rW) (View.ld x8 rW)) (View.ld x9 rB)⟩]

/-- The one store covers the buffer. -/
theorem cover0_10 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

/-! ## The body's run -/

set_option maxHeartbeats 4000000 in
/-- On whole on-chip buffers, the inputs' at contents `xW` and the output's at anything, the body runs to a state with
    the inputs' as they were and the output's at `out0_10` of the inputs'. -/
theorem sound_kernel (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x3 .f32) (harg4 : arg4.IsWhole) (arg5 : Memref sig .tc .vmem S2000x128 .f32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S1x128 .f32) (harg10 : arg10.IsWhole) (arg11 : Memref sig .tc .vmem S2000x128 .f32) (harg11 : arg11.IsWhole)
    (x0 : Vec F S2000x128 .f32) (x1 : Vec F S2000x128 .f32) (x2 : Vec F S2000x128 .f32) (x3 : Vec F S2000x3 .f32) (x4 : Vec F S2000x128 .f32) (x5 : Vec F S128x128 .bf16) (x6 : Vec F S128x128 .bf16) (x7 : Vec F S128x128 .bf16) (x8 : Vec F S128x128 .bf16) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0__relconv_kernel i arg1 harg1 arg2 harg2 arg3 harg3 arg4 harg4 arg5 harg5 arg6 harg6 arg7 harg7 arg8 harg8 arg9 harg9 arg10 harg10 arg11 harg11) K := by
  simp only [cc0__relconv_kernel_eq_skeleton]; unfold cc0__relconv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover0_10 _)

/-! ## The launch's bookkeeping -/

/-- The arrays as the launch finds them; after the body at point `t` each input buffer at its block and the output
    buffer at `out0_10` of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body at a point of the grid -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the arguments -/

set_option backward.isDefEq.respectTransparency.types false in
/-- Every weakly fair execution of the program ends, and in every final state each array of the launch holds what
    the bookkeeping computes (the result: the blocks written back) and every other buffer what the launch found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Hand

end
-- ==== Proof.Spec.lean ====
/-
  The relational graph convolution both programs compute, stated over plain index types.

  A node has a feature row of 128 numbers. Each of three relations has a list of edges; an edge carries a source word
  and a destination word. For one relation the message sum into node v is the sum, over the edges whose destination
  word reads v, of the feature row of the edge's source; the in-degree of v is the number of those edges, counted in
  the float one. The layer's output at node p, column q is

      max ( ((((a₀/d₀)·W₀ + (a₁/d₁)·W₁) + (a₂/d₂)·W₂) + x·W) + b , 0 )

  with a_r the relation's message sum at p, d_r = max(1, degree), each product a row of 128 against a column of 128.

  One side forms the three message sums separately. The other side lays the three edge lists end to end, moves the
  destinations of the second and third list up by one and two node counts, forms ONE message sum over 150000 segments,
  reads relation r's sum for node p at segment r·50000 + p, and multiplies by the reciprocal of the clipped degree
  instead of dividing. The definitions below serve both: the sums are stated for an edge list of any length and a
  segment number that is any integer.
-/
import Idealize.ShloMosaic.PureOps.Ideal
import Idealize.ShloMosaic.Lib.ValueIdx

noncomputable section

open scoped BigOperators

namespace Cert.Spec

open Idealize.ShloMosaic Idealize.ShloMosaic.ValueIdx

/-- The float zero every sum starts from and the final maximum is taken against. -/
abbrev zeroF : EReal := Ideal.ofBits .f32 0x00000000#32
/-- The float one: an edge's contribution to a degree, the lower clip of a degree, the numerator of a reciprocal. -/
abbrev oneF : EReal := Ideal.ofBits .f32 0x3F800000#32

/-- The feature row a source word names: a negative word is moved up once by the node count, the result is read
    signed and clamped into the rows 0 … 49999. -/
def rowOf (w : BitVec 32) : Fin 50000 :=
  ⟨min (Scalar.select (IntOp.cmpi .slt w 0#32) (IntOp.addi w 50000#32) w).toInt.toNat 49999, by omega⟩

/-- The message sum of segment `v`, column `k`, over an edge list of length `E`: zero plus the feature (row of the
    source, column `k`) of every edge whose destination word reads `v`. -/
def agg {E : Nat} (x : (⟨2, ![50000, 128]⟩ : Shape).Idx → EReal) (src dst : Fin E → BitVec 32) (v : ℤ) (k : Fin 128) : EReal :=
  zeroF + ∑ e : Fin E, if (dst e).toInt = v then x (ix2 (rowOf (src e)) k) else 0

/-- The degree of segment `v`: zero plus a one for every edge whose destination word reads `v`. -/
def deg {E : Nat} (dst : Fin E → BitVec 32) (v : ℤ) : EReal :=
  zeroF + ∑ e : Fin E, if (dst e).toInt = v then oneF else 0

/-- Three lists of 500000 words laid end to end. -/
def srcAll (s0 s1 s2 : Fin 500000 → BitVec 32) (e : Fin 1500000) : BitVec 32 :=
  if h : e.val < 500000 then s0 ⟨e.val, h⟩
  else if h2 : e.val < 1000000 then s1 ⟨e.val - 500000, by omega⟩
  else s2 ⟨e.val - 1000000, by have := e.isLt; omega⟩

/-- Three lists of 500000 destination words laid end to end, the second moved up by one node count and the third by
    two (word addition). -/
def dstAll (d0 d1 d2 : Fin 500000 → BitVec 32) (e : Fin 1500000) : BitVec 32 :=
  if h : e.val < 500000 then d0 ⟨e.val, h⟩
  else if h2 : e.val < 1000000 then IntOp.addi (d1 ⟨e.val - 500000, by omega⟩) 50000#32
  else IntOp.addi (d2 ⟨e.val - 1000000, by have := e.isLt; omega⟩) 100000#32

/-- THE SEPARATE FORM at node `p`, column `q`: three message sums, each divided by its clipped degree. -/
def Gref (x : (⟨2, ![50000, 128]⟩ : Shape).Idx → EReal) (s0 d0 s1 d1 s2 d2 : Fin 500000 → BitVec 32)
    (W0 W1 W2 WL : (⟨2, ![128, 128]⟩ : Shape).Idx → EReal) (b : (⟨1, ![128]⟩ : Shape).Idx → EReal)
    (p : Fin 50000) (q : Fin 128) : EReal :=
  max (((((∑ k : Fin 128, Ideal.div (agg x s0 d0 (p.val : ℤ) k) (max oneF (deg d0 (p.val : ℤ))) * W0 (ix2 k q))
        + ∑ k : Fin 128, Ideal.div (agg x s1 d1 (p.val : ℤ) k) (max oneF (deg d1 (p.val : ℤ))) * W1 (ix2 k q))
        + ∑ k : Fin 128, Ideal.div (agg x s2 d2 (p.val : ℤ) k) (max oneF (deg d2 (p.val : ℤ))) * W2 (ix2 k q))
        + ∑ k : Fin 128, x (ix2 p k) * WL (ix2 k q))
        + b (ix1 q)) zeroF

/-- THE FUSED FORM at node `p`, column `q`, from the arrays the fused side hands its last stage: three message-sum arrays,
    the array of the three reciprocal clipped degrees per node, the features, the four matrices and the bias as a row. -/
def Gker (A0 A1 A2 : (⟨2, ![50000, 128]⟩ : Shape).Idx → EReal) (INV : (⟨2, ![50000, 3]⟩ : Shape).Idx → EReal)
    (X : (⟨2, ![50000, 128]⟩ : Shape).Idx → EReal) (W0 W1 W2 WL : (⟨2, ![128, 128]⟩ : Shape).Idx → EReal)
    (B : (⟨2, ![1, 128]⟩ : Shape).Idx → EReal) (p : Fin 50000) (q : Fin 128) : EReal :=
  max (((((∑ k : Fin 128, (A0 (ix2 p k) * INV (ix2 p (0 : Fin 3))) * W0 (ix2 k q))
        + ∑ k : Fin 128, (A1 (ix2 p k) * INV (ix2 p (1 : Fin 3))) * W1 (ix2 k q))
        + ∑ k : Fin 128, (A2 (ix2 p k) * INV (ix2 p (2 : Fin 3))) * W2 (ix2 k q))
        + ∑ k : Fin 128, X (ix2 p k) * WL (ix2 k q))
        + B (ix2 (0 : Fin 1) q)) zeroF

end Cert.Spec

end
-- ==== Proof.LibKeepdims.lean ====
/-
  Row-wise reductions with a kept unit axis, read at an index: the column forms a `jnp.mean(x, axis=-1, keepdims=True)`
  inside a kernel body goes through, which the value library's list of layout lemmas does not carry — a vector `[a]`
  cast to a column `[a, 1]`, a column `[a, 1]` broadcast along rows to `[a, b]`, a lane sum of `[a, b]` over its second
  axis read as the sum over that axis's coordinate — and a matrix product `[n, K] × [K, m]` into a zero accumulator
  read as the sum over the contracted coordinate, for any dimension record whose operand indices are the plain ones.
  All statements are over indices built from coordinates of literal `Fin` types (`ix1`, `ix2`).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Idealize.ShloMosaic.Keepdims

open Idealize.ShloMosaic Idealize.ShloMosaic.ValueIdx

variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of `[a, b]` over its second axis, at the ideal values, read at row `p`: the sum over the row. -/
theorem multiReduction_add_rows {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

/-- A matrix product `[n, K] × [K, m]` into the zero accumulator, at the ideal values, read at `(p, h)`: the sum over the
    contracted coordinate — for any dimension record contracting the left operand's second axis with the right
    operand's first (the four coordinate facts `hl0 … hr1` are `fun _ _ => rfl` at a literal record). -/
theorem matmul_zero_apply {n K m : ℕ} {φ₁ φ₂ : FTy}
    (d : DotDims (⟨2, ![n, K]⟩ : Shape) (⟨2, ![K, m]⟩ : Shape) (⟨2, ![n, m]⟩ : Shape))
    (hr : d.contr.rank = 1) (hs : d.contr.size ⟨0, by omega⟩ = K)
    (hl0 : ∀ (j : (⟨2, ![n, m]⟩ : Shape).Idx) (k : d.contr.Idx), (d.lhsIdx j k 0).val = (j 0).val)
    (hl1 : ∀ (j : (⟨2, ![n, m]⟩ : Shape).Idx) (k : d.contr.Idx), (d.lhsIdx j k 1).val = (k ⟨0, by omega⟩).val)
    (hr0 : ∀ (j : (⟨2, ![n, m]⟩ : Shape).Idx) (k : d.contr.Idx), (d.rhsIdx j k 0).val = (k ⟨0, by omega⟩).val)
    (hr1 : ∀ (j : (⟨2, ![n, m]⟩ : Shape).Idx) (k : d.contr.Idx), (d.rhsIdx j k 1).val = (j 1).val)
    (prec : Option ContractPrecision) (lhs : FVec Ideal (⟨2, ![n, K]⟩ : Shape) φ₁) (rhs : FVec Ideal (⟨2, ![K, m]⟩ : Shape) φ₂)
    (p : Fin n) (h : Fin m) :
    FloatOps.matmul d prec lhs rhs (constant (⟨2, ![n, m]⟩ : Shape) .f32 0x00000000#32) (ix2 p h)
      = ∑ k : Fin K, lhs (ix2 p k) * rhs (ix2 k h) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p h) ((contrEquiv1 d K hr hs).symm k) = ix2 p k := funext fun ax => Fin.ext (by
    match ax with
    | ⟨0, _⟩ => exact hl0 _ _
    | ⟨1, _⟩ => exact (hl1 _ _).trans hk)
  have er : d.rhsIdx (ix2 p h) ((contrEquiv1 d K hr hs).symm k) = ix2 k h := funext fun ax => Fin.ext (by
    match ax with
    | ⟨0, _⟩ => exact (hr0 _ _).trans hk
    | ⟨1, _⟩ => exact hr1 _ _)
  rw [el, er]

end Idealize.ShloMosaic.Keepdims

end
-- ==== Proof.KIBlocks.lean ====
/-
  From the blocks the kernel writes back to the whole result array.

  At grid point t the body stores, into the output buffer, the layer's last stage on rows 2000·t … 2000·t + 1999: for a row
  of the block and a column q, the maximum with zero of the four 128-term products — three of (message sum × reciprocal
  clipped degree) rows against a matrix column, one of a feature row against a matrix column — plus the bias. Every input block is the
  restriction of its whole array to those rows (the matrices and the bias whole), so the stored block is the restriction of
  ONE function of the whole arrays, `Garr`; the 25 blocks cover the 50000 rows; hence the result array is `Garr`.
-/
import proofs.«408782_j40278203301916_3_alg».proof.Proof.KIFrame
import proofs.«408782_j40278203301916_3_alg».proof.Proof.Spec
import proofs.«408782_j40278203301916_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Blocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (ρ : Dev nD → PrngReg)

/-- The result as ONE function of the arrays the launch finds: the fused form of the layer at (row, column). -/
def Garr (c : Dev nD) : S50000x128.Idx → EReal := fun j =>
  Cert.Spec.Gker (V m c main_v25) (V m c main_v27) (V m c main_v29) (V m c main_v40) (V m c main_arg0)
    (V m c main_v41) (V m c main_v42) (V m c main_v43) (V m c main_v44) (V m c main_v45) (j 0) (j 1)

/-! ## The body's arithmetic at a row and a column -/

theorem dotL0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dotL1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem dotR0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem dotR1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- One product of the body: a 2000 x 128 block against a 128 x 128 matrix into the zero accumulator, at (r, q),
    is the sum over the contracted coordinate. -/
theorem prod_apply (lhs : FVec Ideal S2000x128 .bf16) (rhs : FVec Ideal S128x128 .bf16) (r : Fin 2000) (q : Fin 128) :
    matmul dot_S2000x128_S128x128_S2000x128_1_0_0_1_n_n none lhs (shapeCast S128x128 rhs shapeCasts_S128x128_S128x128)
        (constant (F := Ideal) S2000x128 .f32 0x00000000#32) (ix2 r q)
      = ∑ k : Fin 128, lhs (ix2 r k) * rhs (ix2 k q) := by
  rw [shapeCast_self]
  exact Keepdims.matmul_zero_apply dot_S2000x128_S128x128_S2000x128_1_0_0_1_n_n rfl rfl dotL0 dotL1 dotR0 dotR1 none lhs rhs r q

/-- A message-sum block scaled by a column of the reciprocal-degree block, at (r, k). -/
theorem scaled_apply (v0 : FVec Ideal S2000x3 .f32) (v5 : FVec Ideal S2000x128 .f32) (o : Nat)
    (hs : S2000x3.Slices ![0, o] S2000x1) (e : Fin 3) (he : e.val = o) (r : Fin 2000) (k : Fin 128) :
    (truncf .bf16 (mulf (shapeCast S2000x128 v5 shapeCasts_S2000x128_S2000x128)
        (broadcastTo S2000x128 (extractStridedSlice S2000x1 ![0, o] (shapeCast S2000x3 v0 shapeCasts_S2000x3_S2000x3) hs)
          broadcasts_S2000x1_S2000x128)) bitsLt_bf16_f32 : FVec Ideal S2000x128 .bf16) (ix2 r k)
      = v5 (ix2 r k) * v0 (ix2 r e) := by
  show shapeCast S2000x128 v5 shapeCasts_S2000x128_S2000x128 (ix2 r k)
      * broadcastTo S2000x128 (extractStridedSlice S2000x1 ![0, o] (shapeCast S2000x3 v0 shapeCasts_S2000x3_S2000x3) hs)
          broadcasts_S2000x1_S2000x128 (ix2 r k) = _
  rw [shapeCast_self, shapeCast_self, Keepdims.broadcastTo_a1_ab_apply,
    slice2_axis1_apply o v0 hs r (0 : Fin 1) e (by rw [he]; rfl)]

/-- The four products added, at (r, q). -/
theorem pay2_apply (v0 : Vec Ideal S2000x3 .f32) (v5 v10 v15 v20 : Vec Ideal S2000x128 .f32)
    (v22 v25 v29 v33 : Vec Ideal S128x128 .bf16) (r : Fin 2000) (q : Fin 128) :
    k0_pay2 v0 v5 v10 v15 v20 v22 v25 v29 v33 (ix2 r q)
      = (((∑ k : Fin 128, (v5 (ix2 r k) * v0 (ix2 r (0 : Fin 3))) * v22 (ix2 k q))
          + ∑ k : Fin 128, (v10 (ix2 r k) * v0 (ix2 r (1 : Fin 3))) * v25 (ix2 k q))
          + ∑ k : Fin 128, (v15 (ix2 r k) * v0 (ix2 r (2 : Fin 3))) * v29 (ix2 k q))
          + ∑ k : Fin 128, v20 (ix2 r k) * v33 (ix2 k q) := by
  unfold k0_pay2
  refine congrArg₂ (· + ·) (congrArg₂ (· + ·) (congrArg₂ (· + ·) ?_ ?_) ?_) ?_
  · refine (prod_apply _ v22 r q).trans (Finset.sum_congr rfl fun k _ => congrArg (· * v22 (ix2 k q)) ?_)
    exact scaled_apply v0 v5 0 slices_S2000x3_o0_0_S2000x1 0 rfl r k
  · refine (prod_apply _ v25 r q).trans (Finset.sum_congr rfl fun k _ => congrArg (· * v25 (ix2 k q)) ?_)
    exact scaled_apply v0 v10 1 slices_S2000x3_o0_1_S2000x1 1 rfl r k
  · refine (prod_apply _ v29 r q).trans (Finset.sum_congr rfl fun k _ => congrArg (· * v29 (ix2 k q)) ?_)
    exact scaled_apply v0 v15 2 slices_S2000x3_o0_2_S2000x1 2 rfl r k
  · exact prod_apply _ v33 r q

/-- The body's stored value at (r, q): the four products, the bias row's entry added, the maximum with zero. -/
theorem pay_apply (v0 : Vec Ideal S2000x3 .f32) (v5 v10 v15 v20 : Vec Ideal S2000x128 .f32)
    (v22 v25 v29 v33 : Vec Ideal S128x128 .bf16) (v37 : Vec Ideal S1x128 .f32) (r : Fin 2000) (q : Fin 128) :
    k0_pay1 (k0_pay2 v0 v5 v10 v15 v20 v22 v25 v29 v33) v37 (ix2 r q)
      = max (((((∑ k : Fin 128, (v5 (ix2 r k) * v0 (ix2 r (0 : Fin 3))) * v22 (ix2 k q))
          + ∑ k : Fin 128, (v10 (ix2 r k) * v0 (ix2 r (1 : Fin 3))) * v25 (ix2 k q))
          + ∑ k : Fin 128, (v15 (ix2 r k) * v0 (ix2 r (2 : Fin 3))) * v29 (ix2 k q))
          + ∑ k : Fin 128, v20 (ix2 r k) * v33 (ix2 k q))
          + v37 (ix2 (0 : Fin 1) q)) Cert.Spec.zeroF := by
  unfold k0_pay1
  refine congrArg₂ max (congrArg₂ (· + ·) (pay2_apply v0 v5 v10 v15 v20 v22 v25 v29 v33 r q) ?_) rfl
  rw [shapeCast_self]
  exact broadcastTo_1b_ab_apply v37 broadcasts_S1x128_S2000x128 r q

/-! ## The stored block from the ten loaded blocks -/

theorem zero_offsets : (![0, 0] : Fin 2 → Nat) = fun _ => 0 :=
  funext fun a => by match a with | ⟨0, _⟩ => rfl | ⟨1, _⟩ => rfl

/-- What the body leaves in the output buffer, at (r, q), from the ten blocks it was handed. -/
theorem out_apply (x0 x1 x2 : Vec Ideal S2000x128 .f32) (x3 : Vec Ideal S2000x3 .f32) (x4 : Vec Ideal S2000x128 .f32)
    (x5 x6 x7 x8 : Vec Ideal S128x128 .bf16) (x9 : Vec Ideal S1x128 .f32) (r : Fin 2000) (q : Fin 128) :
    out0_10 x0 x1 x2 x3 x4 x5 x6 x7 x8 x9 (ix2 r q)
      = max (((((∑ k : Fin 128, (x0 (ix2 r k) * x3 (ix2 r (0 : Fin 3))) * x5 (ix2 k q))
          + ∑ k : Fin 128, (x1 (ix2 r k) * x3 (ix2 r (1 : Fin 3))) * x6 (ix2 k q))
          + ∑ k : Fin 128, (x2 (ix2 r k) * x3 (ix2 r (2 : Fin 3))) * x7 (ix2 k q))
          + ∑ k : Fin 128, x4 (ix2 r k) * x8 (ix2 k q))
          + x9 (ix2 (0 : Fin 1) q)) Cert.Spec.zeroF := by
  unfold out0_10
  rw [View.canon_unit_zero zero_offsets]
  simp only [View.ld_unit_zero (S := S2000x128) zero_offsets, View.ld_unit_zero (S := S2000x3) zero_offsets,
    View.ld_unit_zero (S := S128x128) zero_offsets, View.ld_unit_zero (S := S1x128) zero_offsets]
  exact pay_apply x3 x0 x1 x2 x4 x5 x6 x7 x8 x9 r q

/-! ## Where each window's block sits in its array -/

/-- The row-block windows (the three message-sum arrays, the reciprocal degrees, the features, the result) are at
    block (t, 0) at point t; the grid has 25 points. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_10.index t (0 : Fin 2) = t.val ∧ win0_10.index t (1 : Fin 2) = 0)
    ∧ t.val < 25 :=
  (by decide +kernel : ∀ t : Fin grid0.N, _)

/-- The matrices and the bias row are at block (0, 0) at every point. -/
theorem idx_whole : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Each of the 25 row blocks is some point's. -/
theorem point_of_row : ∀ b : Fin 25, ∃ t : Fin cfg0.N, t.val = b.val :=
  (by decide +kernel : ∀ b : Fin 25, ∃ t : Fin grid0.N, t.val = b.val)

/-! ## Each block the launch hands the body, read off its array -/

theorem read0 (A : S50000x128.Idx → EReal) (t : Fin cfg0.N) (r : Fin 2000) (k : Fin 128) (p : Fin 50000)
    (hp : p.val = t.val * 2000 + r.val) :
    (((cfg0.win 0).blk t).view.read (Elt Ideal) A : S2000x128.Idx → EReal) (ix2 r k) = A (ix2 p k) := by
  obtain ⟨f0, f1, f2, f3, f4, f10, -⟩ := idx_rows t
  obtain ⟨e0, e1⟩ := f0
  show A (((cfg0.win 0).blk t).view.emb (ix2 r k)) = A (ix2 p k)
  refine congrArg A (funext fun a => Fin.ext ?_)
  match a with
  | ⟨0, _⟩ => show win0_0.index t (0 : Fin 2) * 2000 + 1 * r.val = p.val; omega
  | ⟨1, _⟩ => show win0_0.index t (1 : Fin 2) * 128 + 1 * k.val = k.val; omega

theorem read1 (A : S50000x128.Idx → EReal) (t : Fin cfg0.N) (r : Fin 2000) (k : Fin 128) (p : Fin 50000)
    (hp : p.val = t.val * 2000 + r.val) :
    (((cfg0.win 1).blk t).view.read (Elt Ideal) A : S2000x128.Idx → EReal) (ix2 r k) = A (ix2 p k) := by
  obtain ⟨f0, f1, f2, f3, f4, f10, -⟩ := idx_rows t
  obtain ⟨e0, e1⟩ := f1
  show A (((cfg0.win 1).blk t).view.emb (ix2 r k)) = A (ix2 p k)
  refine congrArg A (funext fun a => Fin.ext ?_)
  match a with
  | ⟨0, _⟩ => show win0_1.index t (0 : Fin 2) * 2000 + 1 * r.val = p.val; omega
  | ⟨1, _⟩ => show win0_1.index t (1 : Fin 2) * 128 + 1 * k.val = k.val; omega

theorem read2 (A : S50000x128.Idx → EReal) (t : Fin cfg0.N) (r : Fin 2000) (k : Fin 128) (p : Fin 50000)
    (hp : p.val = t.val * 2000 + r.val) :
    (((cfg0.win 2).blk t).view.read (Elt Ideal) A : S2000x128.Idx → EReal) (ix2 r k) = A (ix2 p k) := by
  obtain ⟨f0, f1, f2, f3, f4, f10, -⟩ := idx_rows t
  obtain ⟨e0, e1⟩ := f2
  show A (((cfg0.win 2).blk t).view.emb (ix2 r k)) = A (ix2 p k)
  refine congrArg A (funext fun a => Fin.ext ?_)
  match a with
  | ⟨0, _⟩ => show win0_2.index t (0 : Fin 2) * 2000 + 1 * r.val = p.val; omega
  | ⟨1, _⟩ => show win0_2.index t (1 : Fin 2) * 128 + 1 * k.val = k.val; omega

theorem read3 (A : S50000x3.Idx → EReal) (t : Fin cfg0.N) (r : Fin 2000) (k : Fin 3) (p : Fin 50000)
    (hp : p.val = t.val * 2000 + r.val) :
    (((cfg0.win 3).blk t).view.read (Elt Ideal) A : S2000x3.Idx → EReal) (ix2 r k) = A (ix2 p k) := by
  obtain ⟨f0, f1, f2, f3, f4, f10, -⟩ := idx_rows t
  obtain ⟨e0, e1⟩ := f3
  show A (((cfg0.win 3).blk t).view.emb (ix2 r k)) = A (ix2 p k)
  refine congrArg A (funext fun a => Fin.ext ?_)
  match a with
  | ⟨0, _⟩ => show win0_3.index t (0 : Fin 2) * 2000 + 1 * r.val = p.val; omega
  | ⟨1, _⟩ => show win0_3.index t (1 : Fin 2) * 3 + 1 * k.val = k.val; omega

theorem read4 (A : S50000x128.Idx → EReal) (t : Fin cfg0.N) (r : Fin 2000) (k : Fin 128) (p : Fin 50000)
    (hp : p.val = t.val * 2000 + r.val) :
    (((cfg0.win 4).blk t).view.read (Elt Ideal) A : S2000x128.Idx → EReal) (ix2 r k) = A (ix2 p k) := by
  obtain ⟨f0, f1, f2, f3, f4, f10, -⟩ := idx_rows t
  obtain ⟨e0, e1⟩ := f4
  show A (((cfg0.win 4).blk t).view.emb (ix2 r k)) = A (ix2 p k)
  refine congrArg A (funext fun a => Fin.ext ?_)
  match a with
  | ⟨0, _⟩ => show win0_4.index t (0 : Fin 2) * 2000 + 1 * r.val = p.val; omega
  | ⟨1, _⟩ => show win0_4.index t (1 : Fin 2) * 128 + 1 * k.val = k.val; omega

theorem read5 (A : S128x128.Idx → EReal) (t : Fin cfg0.N) (r : Fin 128) (k : Fin 128) :
    (((cfg0.win 5).blk t).view.read (Elt Ideal) A : S128x128.Idx → EReal) (ix2 r k) = A (ix2 r k) := by
  obtain ⟨g5, g6, g7, g8, g9⟩ := idx_whole t
  obtain ⟨e0, e1⟩ := g5
  show A (((cfg0.win 5).blk t).view.emb (ix2 r k)) = A (ix2 r k)
  refine congrArg A (funext fun a => Fin.ext ?_)
  match a with
  | ⟨0, _⟩ => show win0_5.index t (0 : Fin 2) * 128 + 1 * r.val = r.val; omega
  | ⟨1, _⟩ => show win0_5.index t (1 : Fin 2) * 128 + 1 * k.val = k.val; omega

theorem read6 (A : S128x128.Idx → EReal) (t : Fin cfg0.N) (r : Fin 128) (k : Fin 128) :
    (((cfg0.win 6).blk t).view.read (Elt Ideal) A : S128x128.Idx → EReal) (ix2 r k) = A (ix2 r k) := by
  obtain ⟨g5, g6, g7, g8, g9⟩ := idx_whole t
  obtain ⟨e0, e1⟩ := g6
  show A (((cfg0.win 6).blk t).view.emb (ix2 r k)) = A (ix2 r k)
  refine congrArg A (funext fun a => Fin.ext ?_)
  match a with
  | ⟨0, _⟩ => show win0_6.index t (0 : Fin 2) * 128 + 1 * r.val = r.val; omega
  | ⟨1, _⟩ => show win0_6.index t (1 : Fin 2) * 128 + 1 * k.val = k.val; omega

theorem read7 (A : S128x128.Idx → EReal) (t : Fin cfg0.N) (r : Fin 128) (k : Fin 128) :
    (((cfg0.win 7).blk t).view.read (Elt Ideal) A : S128x128.Idx → EReal) (ix2 r k) = A (ix2 r k) := by
  obtain ⟨g5, g6, g7, g8, g9⟩ := idx_whole t
  obtain ⟨e0, e1⟩ := g7
  show A (((cfg0.win 7).blk t).view.emb (ix2 r k)) = A (ix2 r k)
  refine congrArg A (funext fun a => Fin.ext ?_)
  match a with
  | ⟨0, _⟩ => show win0_7.index t (0 : Fin 2) * 128 + 1 * r.val = r.val; omega
  | ⟨1, _⟩ => show win0_7.index t (1 : Fin 2) * 128 + 1 * k.val = k.val; omega

theorem read8 (A : S128x128.Idx → EReal) (t : Fin cfg0.N) (r : Fin 128) (k : Fin 128) :
    (((cfg0.win 8).blk t).view.read (Elt Ideal) A : S128x128.Idx → EReal) (ix2 r k) = A (ix2 r k) := by
  obtain ⟨g5, g6, g7, g8, g9⟩ := idx_whole t
  obtain ⟨e0, e1⟩ := g8
  show A (((cfg0.win 8).blk t).view.emb (ix2 r k)) = A (ix2 r k)
  refine congrArg A (funext fun a => Fin.ext ?_)
  match a with
  | ⟨0, _⟩ => show win0_8.index t (0 : Fin 2) * 128 + 1 * r.val = r.val; omega
  | ⟨1, _⟩ => show win0_8.index t (1 : Fin 2) * 128 + 1 * k.val = k.val; omega

theorem read9 (A : S1x128.Idx → EReal) (t : Fin cfg0.N) (r : Fin 1) (k : Fin 128) :
    (((cfg0.win 9).blk t).view.read (Elt Ideal) A : S1x128.Idx → EReal) (ix2 r k) = A (ix2 r k) := by
  obtain ⟨g5, g6, g7, g8, g9⟩ := idx_whole t
  obtain ⟨e0, e1⟩ := g9
  show A (((cfg0.win 9).blk t).view.emb (ix2 r k)) = A (ix2 r k)
  refine congrArg A (funext fun a => Fin.ext ?_)
  match a with
  | ⟨0, _⟩ => show win0_9.index t (0 : Fin 2) * 1 + 1 * r.val = r.val; omega
  | ⟨1, _⟩ => show win0_9.index t (1 : Fin 2) * 128 + 1 * k.val = k.val; omega

/-! ## The stored block is the fused form on the point's rows -/

/-- Over any ten arrays: the body's stored block at point t, from the ten blocks of those arrays at t, is block t of the
    fused form of the arrays. -/
theorem block_eq (A0 A1 A2 : S50000x128.Idx → EReal) (INV : S50000x3.Idx → EReal) (X : S50000x128.Idx → EReal)
    (W0 W1 W2 WL : S128x128.Idx → EReal) (B : S1x128.Idx → EReal) (t : Fin cfg0.N) :
    (cfg0.win 10).cut (grid0.coords t)
        (out0_10 (((cfg0.win 0).blk t).view.read (Elt Ideal) A0) (((cfg0.win 1).blk t).view.read (Elt Ideal) A1)
          (((cfg0.win 2).blk t).view.read (Elt Ideal) A2) (((cfg0.win 3).blk t).view.read (Elt Ideal) INV)
          (((cfg0.win 4).blk t).view.read (Elt Ideal) X) (((cfg0.win 5).blk t).view.read (Elt Ideal) W0)
          (((cfg0.win 6).blk t).view.read (Elt Ideal) W1) (((cfg0.win 7).blk t).view.read (Elt Ideal) W2)
          (((cfg0.win 8).blk t).view.read (Elt Ideal) WL) (((cfg0.win 9).blk t).view.read (Elt Ideal) B))
      = ((cfg0.win 10).blk t).view.read (Elt Ideal)
          (fun j : S50000x128.Idx => Cert.Spec.Gker A0 A1 A2 INV X W0 W1 W2 WL B (j 0) (j 1)) := by
  obtain ⟨-, -, -, -, -, ⟨e0, e1⟩, ht⟩ := idx_rows t
  refine funext fun (j : S2000x128.Idx) => ?_
  obtain ⟨r, q, rfl⟩ : ∃ (r : Fin 2000) (q : Fin 128), j = ix2 r q := ⟨j 0, j 1, eq_ix2 j⟩
  have hr : r.val < 2000 := r.isLt
  have hp : t.val * 2000 + r.val < 50000 := by omega
  have hx : (cfg0.win 10).xinj (grid0.coords t) (ix2 r q) = ix2 r q :=
    funext fun a => Fin.ext (by match a with | ⟨0, _⟩ => rfl | ⟨1, _⟩ => rfl)
  have hemb : ((cfg0.win 10).blk t).view.emb (ix2 r q) = ix2 (⟨t.val * 2000 + r.val, hp⟩ : Fin 50000) q :=
    funext fun a => Fin.ext (by
      match a with
      | ⟨0, _⟩ => show win0_10.index t (0 : Fin 2) * 2000 + 1 * r.val = t.val * 2000 + r.val; omega
      | ⟨1, _⟩ => show win0_10.index t (1 : Fin 2) * 128 + 1 * q.val = q.val; omega)
  show out0_10 (F := Ideal) _ _ _ _ _ _ _ _ _ _ ((cfg0.win 10).xinj (grid0.coords t) (ix2 r q))
      = (fun j : S50000x128.Idx => Cert.Spec.Gker A0 A1 A2 INV X W0 W1 W2 WL B (j 0) (j 1)) (((cfg0.win 10).blk t).view.emb (ix2 r q))
  rw [hx, hemb]
  refine (out_apply _ _ _ _ _ _ _ _ _ _ r q).trans ?_
  show _ = Cert.Spec.Gker A0 A1 A2 INV X W0 W1 W2 WL B (⟨t.val * 2000 + r.val, hp⟩ : Fin 50000) q
  unfold Cert.Spec.Gker
  simp only [read0 A0 t r _ ⟨t.val * 2000 + r.val, hp⟩ rfl, read1 A1 t r _ ⟨t.val * 2000 + r.val, hp⟩ rfl,
    read2 A2 t r _ ⟨t.val * 2000 + r.val, hp⟩ rfl, read3 INV t r _ ⟨t.val * 2000 + r.val, hp⟩ rfl,
    read4 X t r _ ⟨t.val * 2000 + r.val, hp⟩ rfl, read5 W0 t, read6 W1 t, read7 W2 t, read8 WL t, read9 B t]

/-- What point t writes back is block t of the fused form of the arrays the launch finds. -/
theorem flushed_eq (c : Dev nD) (t : Fin cfg0.N) :
    (dats (F := Ideal) m 0 c).flushed 10 t = ((cfg0.win 10).blk t).view.read (Elt Ideal) (Garr m c) := by
  show (cfg0.win 10).cut (grid0.coords t) ((dats (F := Ideal) m 0 c).after 10 t) = _
  rw [after0_10]
  exact block_eq (V m c main_v25) (V m c main_v27) (V m c main_v29) (V m c main_v40) (V m c main_arg0)
    (V m c main_v41) (V m c main_v42) (V m c main_v43) (V m c main_v44) (V m c main_v45) t

/-! ## The 25 blocks cover the 50000 rows -/

/-- An index of the result array is in point t's block iff each coordinate is in the block's range on its axis. -/
theorem mem_blk (t : Fin cfg0.N) (i : S50000x128.Idx) :
    i ∈ ((cfg0.win 10).blk t).view.set ↔ ∀ a : Fin 2, win0_10.index t a * S2000x128.size a ≤ (i a).val
      ∧ (i a).val < win0_10.index t a * S2000x128.size a + S2000x128.size a := by
  show i ∈ ((View.whole main_v46).slice (win0_10.rect t)).set ↔ _
  rw [View.set_slice_whole, Rect.mem_set_unit]
  exact Iff.rfl

/-- Row p is in the block of point p / 2000. -/
theorem covered (i : S50000x128.Idx) :
    ∃ t : Fin cfg0.N, (cfg0.win 10).flush t = true ∧ i ∈ ((cfg0.win 10).blk t).view.set := by
  have hi0 : (i 0).val < 50000 := (i 0).isLt
  have hi1 : (i 1).val < 128 := (i 1).isLt
  obtain ⟨t, ht⟩ := point_of_row ⟨(i 0).val / 2000, by omega⟩
  have ht' : t.val = (i 0).val / 2000 := ht
  obtain ⟨-, -, -, -, -, ⟨e0, e1⟩, -⟩ := idx_rows t
  refine ⟨t, flush0_10 t, ?_⟩
  rw [mem_blk]
  intro a
  match a with
  | ⟨0, _⟩ =>
    show win0_10.index t (0 : Fin 2) * 2000 ≤ (i 0).val ∧ (i 0).val < win0_10.index t (0 : Fin 2) * 2000 + 2000
    omega
  | ⟨1, _⟩ =>
    show win0_10.index t (1 : Fin 2) * 128 ≤ (i 1).val ∧ (i 1).val < win0_10.index t (1 : Fin 2) * 128 + 128
    omega

/-- The result array after the launch is that function. -/
theorem final10 (c : Dev nD) : (dats (F := Ideal) m 0 c).arrAt 10 cfg0.N = Garr m c :=
  (dats (F := Ideal) m 0 c).arrAt_eq_of_cover 10 (Garr m c) (fun t _ => flushed_eq m c t) covered

/-- The fused program's run at the exact instance, its result named. -/
theorem kernel_run : θ_run (defs (F := Ideal)) (onTc (τ := τ) (main (F := Ideal))) ⟨m, fun _ => 0, ρ⟩ (fun r => ∀ c : Dev nD,
      r.2.mem ((c.tc : Thread nD τ).loc main_v46) = Garr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 10).trans (final10 m c),
      ((h c).1 4).trans ((((dats (F := Ideal) m) 0 c).arrAt_in 4 rfl _).trans ((A_eq m c 4).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) (run_main m ρ)

end Cert.KernelIdeal.Blocks

end
-- ==== Proof.LibScatter.lean ====
/-
  The host's scatter read at one index.

  A scatter whose body adds in a commutative monoid leaves, at each operand index, the operand's element plus the sum of
  the updates that land there, whatever the order of the fold (general lemma, any dimension numbers). For the
  two families of dimension numbers of a histogram (operand [N], indices [K,1], updates [K]) and of a row
  scatter-add (operand [R,C], indices [K,1], updates [K,C]) the landing index is computed in closed form: update
  e lands in row "the e-th index read signed", and is dropped when that is outside the operand.
-/
import Mathlib.Data.BitVec
import Mathlib.Algebra.BigOperators.Fin
import Idealize.ShloMosaic.Lib.ValueIdxRank1

open scoped BigOperators

namespace Cert.LibScatter

open Idealize.ShloMosaic Idealize.ShloMosaic.ValueIdx

/-! ## Any scatter whose body adds in a commutative monoid -/

section General
variable {α : Type} [AddCommMonoid α] {s si u : Shape} {w : Nat}

/-- The scatter's fold over ANY list of update positions, read at operand index i: the start value there plus the
    sum, over the list, of the updates whose landing index is i. -/
theorem foldl_add_apply (d : ScatterDims s si u) (idx : IVec si w) (upd : u.Idx → α) (i : s.Idx) :
    ∀ (l : List (Fin u.numel)) (x : s.Idx → α),
      (l.foldl (fun r n =>
          match d.resultIdx? (u.rowMajor.symm n) idx with
          | some k => fun i' => if i' = k then r k + upd (u.rowMajor.symm n) else r i'
          | none => r) x) i
        = x i + (l.map fun n => if d.resultIdx? (u.rowMajor.symm n) idx = some i then upd (u.rowMajor.symm n) else 0).sum := by
  intro l
  induction l with
  | nil => intro x; simp
  | cons n l ih =>
    intro x
    rw [List.foldl_cons, ih, List.map_cons, List.sum_cons, ← add_assoc]
    congr 1
    cases hk : d.resultIdx? (u.rowMajor.symm n) idx with
    | none => simp
    | some k =>
      by_cases hik : i = k
      · subst hik; simp
      · have : ¬ (some k = some i) := fun h => hik (Option.some.inj h).symm
        simp [hik, this]

/-- A scatter with an adding body, read at operand index i: the operand's element plus the sum of all updates
    whose landing index is i. -/
theorem scatter_add_apply (d : ScatterDims s si u) (x : s.Idx → α) (idx : IVec si w) (upd : u.Idx → α) (i : s.Idx) :
    Host.scatter d (fun a b => a + b) x idx upd i
      = x i + ∑ j : u.Idx, if d.resultIdx? j idx = some i then upd j else 0 := by
  unfold Host.scatter
  refine (foldl_add_apply d idx upd i (List.finRange u.numel) x).trans ?_
  rw [← Fin.sum_univ_def]
  congr 1
  exact Equiv.sum_comp u.rowMajor.symm (fun j => if d.resultIdx? j idx = some i then upd j else 0)

end General

/-! ## Row scatter: operand [R,C], indices [K,1], updates [K,C] -/

section Row

/-- The dimension numbers of a row scatter (every update row added to the operand row its index names): the updates' axis 1 is the window, it goes to
    the operand's axis 1; the operand's axis 0 is indexed by the one component of each index vector. -/
abbrev rowDims (R K C : Nat) (wf : ScatterDims.WF ⟨2, ![R, C]⟩ ⟨2, ![K, 1]⟩ ⟨2, ![K, C]⟩ [1] [0] [0] 1) :
    ScatterDims ⟨2, ![R, C]⟩ ⟨2, ![K, 1]⟩ ⟨2, ![K, C]⟩ where
  updateWindowDims := [1]
  insertedWindowDims := [0]
  scatterDimsToOperandDims := [0]
  indexVectorDim := 1
  wf := wf

variable {R K C w : Nat} (wf : ScatterDims.WF ⟨2, ![R, C]⟩ ⟨2, ![K, 1]⟩ ⟨2, ![K, C]⟩ [1] [0] [0] 1)

/-- On the operand's row axis the window starts at the update's row's index, read signed. -/
theorem rowDims_start0 (j : (⟨2, ![K, C]⟩ : Shape).Idx) (idx : IVec ⟨2, ![K, 1]⟩ w) :
    (rowDims R K C wf).start j idx 0 = (idx (ix2 (j 0) 0)).toInt := by
  unfold ScatterDims.start
  rw [dif_pos (show (0 : Fin 2) ∈ (rowDims R K C wf).scatterDimsToOperandDims from List.mem_singleton.mpr rfl)]
  have hsi : (rowDims R K C wf).siIdx j ⟨List.idxOf (0 : Fin 2) (rowDims R K C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the operand's column axis the window starts at 0. -/
theorem rowDims_start1 (j : (⟨2, ![K, C]⟩ : Shape).Idx) (idx : IVec ⟨2, ![K, 1]⟩ w) :
    (rowDims R K C wf).start j idx 1 = 0 := by
  unfold ScatterDims.start
  rw [dif_neg (show (1 : Fin 2) ∉ (rowDims R K C wf).scatterDimsToOperandDims from
    fun h => Nat.one_ne_zero (congrArg Fin.val (List.mem_singleton.mp h)))]

/-- The operand's axes that are not inserted: the column axis alone. -/
theorem rowDims_sKept : (rowDims R K C wf).sKept = [1] := rfl

/-- The row axis is inserted: no window coordinate. -/
theorem rowDims_window0 (j : (⟨2, ![K, C]⟩ : Shape).Idx) : (rowDims R K C wf).window j 0 = 0 := by
  unfold ScatterDims.window
  rw [dif_neg (show (0 : Fin 2) ∉ (rowDims R K C wf).sKept from
    fun h => Nat.one_ne_zero (congrArg Fin.val (List.mem_singleton.mp (rowDims_sKept wf ▸ h))).symm)]

/-- The column axis carries the update's column. -/
theorem rowDims_window1 (j : (⟨2, ![K, C]⟩ : Shape).Idx) : (rowDims R K C wf).window j 1 = (j 1).val := by
  unfold ScatterDims.window
  rw [dif_pos (show (1 : Fin 2) ∈ (rowDims R K C wf).sKept from rowDims_sKept wf ▸ List.mem_singleton.mpr rfl)]
  rfl

/-- WHERE AN UPDATE LANDS: update (e, c) lands at (row, c), row the e-th index read signed, when that row is in
    the operand; it is dropped otherwise. -/
theorem rowDims_resultIdx? (e : Fin K) (c : Fin C) (idx : IVec ⟨2, ![K, 1]⟩ w) :
    (rowDims R K C wf).resultIdx? (ix2 e c) idx
      = if h : 0 ≤ (idx (ix2 e 0)).toInt ∧ (idx (ix2 e 0)).toInt < (R : ℤ) then
          some (ix2 ⟨(idx (ix2 e 0)).toInt.toNat, by omega⟩ c)
        else none := by
  have h0 : (rowDims R K C wf).start (ix2 e c) idx 0 + ((rowDims R K C wf).window (ix2 e c) 0 : ℤ)
      = (idx (ix2 e 0)).toInt := by
    rw [rowDims_start0, rowDims_window0]; simp; rfl
  have h1 : (rowDims R K C wf).start (ix2 e c) idx 1 + ((rowDims R K C wf).window (ix2 e c) 1 : ℤ) = (c.val : ℤ) := by
    rw [rowDims_start1, rowDims_window1]; simp; rfl
  unfold ScatterDims.resultIdx?
  by_cases h : 0 ≤ (idx (ix2 e 0)).toInt ∧ (idx (ix2 e 0)).toInt < (R : ℤ)
  · have hall : ∀ a : Fin 2, 0 ≤ (rowDims R K C wf).start (ix2 e c) idx a + ((rowDims R K C wf).window (ix2 e c) a : ℤ)
        ∧ (rowDims R K C wf).start (ix2 e c) idx a + ((rowDims R K C wf).window (ix2 e c) a : ℤ)
          < ((⟨2, ![R, C]⟩ : Shape).size a : ℤ) := by
      intro a
      match a with
      | ⟨0, _⟩ =>
        show 0 ≤ (rowDims R K C wf).start (ix2 e c) idx 0 + ((rowDims R K C wf).window (ix2 e c) 0 : ℤ)
          ∧ (rowDims R K C wf).start (ix2 e c) idx 0 + ((rowDims R K C wf).window (ix2 e c) 0 : ℤ) < (R : ℤ)
        rw [h0]; exact h
      | ⟨1, _⟩ =>
        show 0 ≤ (rowDims R K C wf).start (ix2 e c) idx 1 + ((rowDims R K C wf).window (ix2 e c) 1 : ℤ)
          ∧ (rowDims R K C wf).start (ix2 e c) idx 1 + ((rowDims R K C wf).window (ix2 e c) 1 : ℤ) < (C : ℤ)
        rw [h1]; exact ⟨Int.natCast_nonneg _, Int.ofNat_lt.mpr c.isLt⟩
    rw [dif_pos hall, dif_pos h]
    congr 1
    funext a
    refine Fin.ext ?_
    match a with
    | ⟨0, _⟩ => show ((rowDims R K C wf).start (ix2 e c) idx 0 + ((rowDims R K C wf).window (ix2 e c) 0 : ℤ)).toNat = _
                rw [h0]
    | ⟨1, _⟩ => show ((rowDims R K C wf).start (ix2 e c) idx 1 + ((rowDims R K C wf).window (ix2 e c) 1 : ℤ)).toNat = _
                rw [h1]; rfl
  · rw [dif_neg h, dif_neg]
    intro hall
    have := hall 0
    rw [h0] at this
    exact h this

/-- The form sums use: update (e, c) lands at (i, c') exactly when the e-th index reads i and the columns agree. -/
theorem rowDims_resultIdx?_eq_some_iff (e : Fin K) (c c' : Fin C) (i : Fin R) (idx : IVec ⟨2, ![K, 1]⟩ w) :
    (rowDims R K C wf).resultIdx? (ix2 e c) idx = some (ix2 i c')
      ↔ (idx (ix2 e 0)).toInt = (i.val : ℤ) ∧ c = c' := by
  rw [rowDims_resultIdx?]
  by_cases h : 0 ≤ (idx (ix2 e 0)).toInt ∧ (idx (ix2 e 0)).toInt < (R : ℤ)
  · rw [dif_pos h]
    constructor
    · intro heq
      have heq := Option.some.inj heq
      have e0 : (idx (ix2 e 0)).toInt.toNat = i.val := congrArg Fin.val (congrFun heq 0)
      have e1 : c = c' := congrFun heq 1
      exact ⟨by omega, e1⟩
    · rintro ⟨ht, rfl⟩
      congr 2
      exact Fin.ext (by show (idx (ix2 e 0)).toInt.toNat = i.val; omega)
  · rw [dif_neg h]
    constructor
    · intro heq; cases heq
    · rintro ⟨ht, -⟩
      exact absurd ⟨by omega, by have := i.isLt; omega⟩ h

end Row

/-! ## Histogram: operand [N], indices [K,1], updates [K] -/

section Hist

/-- The dimension numbers of a histogram (every update added to the operand element its index names): the updates
    have no window axis; the operand's one axis is inserted and indexed by the one component of each index vector. -/
abbrev histDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

variable {N K w : Nat} (wf : ScatterDims.WF ⟨1, ![N]⟩ ⟨2, ![K, 1]⟩ ⟨1, ![K]⟩ [] [0] [0] 1)

/-- The window starts at the update's index, read signed. -/
theorem histDims_start0 (j : (⟨1, ![K]⟩ : Shape).Idx) (idx : IVec ⟨2, ![K, 1]⟩ w) :
    (histDims N K wf).start j idx 0 = (idx (ix2 (j 0) 0)).toInt := by
  unfold ScatterDims.start
  rw [dif_pos (show (0 : Fin 1) ∈ (histDims N K wf).scatterDimsToOperandDims from List.mem_singleton.mpr rfl)]
  have hsi : (histDims N K wf).siIdx j ⟨List.idxOf (0 : Fin 1) (histDims N K wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no axis is kept, … -/
theorem histDims_sKept : (histDims N K wf).sKept = [] := rfl

/-- … so there is no window coordinate. -/
theorem histDims_window0 (j : (⟨1, ![K]⟩ : Shape).Idx) : (histDims N K wf).window j 0 = 0 := by
  unfold ScatterDims.window
  rw [dif_neg (show (0 : Fin 1) ∉ (histDims N K wf).sKept from fun h => List.not_mem_nil (histDims_sKept wf ▸ h))]

/-- WHERE AN UPDATE LANDS: update e lands at the e-th index read signed, when that is in the operand; it is
    dropped otherwise. -/
theorem histDims_resultIdx? (e : Fin K) (idx : IVec ⟨2, ![K, 1]⟩ w) :
    (histDims N K wf).resultIdx? (ix1 e) idx
      = if h : 0 ≤ (idx (ix2 e 0)).toInt ∧ (idx (ix2 e 0)).toInt < (N : ℤ) then
          some (ix1 ⟨(idx (ix2 e 0)).toInt.toNat, by omega⟩)
        else none := by
  have h0 : (histDims N K wf).start (ix1 e) idx 0 + ((histDims N K wf).window (ix1 e) 0 : ℤ)
      = (idx (ix2 e 0)).toInt := by
    rw [histDims_start0, histDims_window0]; simp; rfl
  unfold ScatterDims.resultIdx?
  by_cases h : 0 ≤ (idx (ix2 e 0)).toInt ∧ (idx (ix2 e 0)).toInt < (N : ℤ)
  · have hall : ∀ a : Fin 1, 0 ≤ (histDims N K wf).start (ix1 e) idx a + ((histDims N K wf).window (ix1 e) a : ℤ)
        ∧ (histDims N K wf).start (ix1 e) idx a + ((histDims N K wf).window (ix1 e) a : ℤ)
          < ((⟨1, ![N]⟩ : Shape).size a : ℤ) := by
      intro a
      match a with
      | ⟨0, _⟩ =>
        show 0 ≤ (histDims N K wf).start (ix1 e) idx 0 + ((histDims N K wf).window (ix1 e) 0 : ℤ)
          ∧ (histDims N K wf).start (ix1 e) idx 0 + ((histDims N K wf).window (ix1 e) 0 : ℤ) < (N : ℤ)
        rw [h0]; exact h
    rw [dif_pos hall, dif_pos h]
    congr 1
    funext a
    refine Fin.ext ?_
    match a with
    | ⟨0, _⟩ => show ((histDims N K wf).start (ix1 e) idx 0 + ((histDims N K wf).window (ix1 e) 0 : ℤ)).toNat = _
                rw [h0]
  · rw [dif_neg h, dif_neg]
    intro hall
    have := hall 0
    rw [h0] at this
    exact h this

/-- The form sums use: update e lands at v exactly when the e-th index reads v. -/
theorem histDims_resultIdx?_eq_some_iff (e : Fin K) (v : Fin N) (idx : IVec ⟨2, ![K, 1]⟩ w) :
    (histDims N K wf).resultIdx? (ix1 e) idx = some (ix1 v) ↔ (idx (ix2 e 0)).toInt = (v.val : ℤ) := by
  rw [histDims_resultIdx?]
  by_cases h : 0 ≤ (idx (ix2 e 0)).toInt ∧ (idx (ix2 e 0)).toInt < (N : ℤ)
  · rw [dif_pos h]
    constructor
    · intro heq
      have heq := Option.some.inj heq
      have e0 : (idx (ix2 e 0)).toInt.toNat = v.val := congrArg Fin.val (congrFun heq 0)
      omega
    · intro ht
      congr 2
      exact Fin.ext (by show (idx (ix2 e 0)).toInt.toNat = v.val; omega)
  · rw [dif_neg h]
    constructor
    · intro heq; cases heq
    · intro ht
      exact absurd ⟨by omega, by have := v.isLt; omega⟩ h

end Hist

/-! ## The two scatters read at an index, as sums over the update rows -/

section Sums

/-- THE ROW SCATTER-ADD AT (i, c), exact arithmetic: the operand's element plus the sum, over the update rows whose
    index reads i, of the row's element in column c. -/
theorem rowDims_scatterAdd_apply {R K C w : Nat} {φ : FTy}
    (wf : ScatterDims.WF ⟨2, ![R, C]⟩ ⟨2, ![K, 1]⟩ ⟨2, ![K, C]⟩ [1] [0] [0] 1)
    (x : FVec Ideal ⟨2, ![R, C]⟩ φ) (idx : IVec ⟨2, ![K, 1]⟩ w) (upd : FVec Ideal ⟨2, ![K, C]⟩ φ) (i : Fin R) (c : Fin C) :
    Host.scatterAdd (rowDims R K C wf) x idx upd (ix2 i c)
      = x (ix2 i c) + ∑ e : Fin K, if (idx (ix2 e 0)).toInt = (i.val : ℤ) then upd (ix2 e c) else 0 := by
  show x (ix2 i c) + ∑ j ∈ Finset.univ.filter (fun j => (rowDims R K C wf).resultIdx? j idx = some (ix2 i c)), upd j = _
  congr 1
  rw [Finset.sum_filter, sum_idx2]
  refine Finset.sum_congr rfl fun e _ => ?_
  simp only [rowDims_resultIdx?_eq_some_iff]
  by_cases ht : (idx (ix2 e 0)).toInt = (i.val : ℤ)
  · simp [ht]
  · simp [ht]

/-- A sum of 32-bit words, each present or absent, is the word of the sum of their values. -/
theorem sum_ite_word {ι : Type} (S : Finset ι) (p : ι → Prop) [DecidablePred p] (f : ι → BitVec 32) :
    (∑ e ∈ S, if p e then f e else 0) = BitVec.ofNat 32 (∑ e ∈ S, if p e then (f e).toNat else 0) := by
  rw [← BitVec.natCast_eq_ofNat, Nat.cast_sum]
  refine Finset.sum_congr rfl fun e _ => ?_
  split_ifs
  · rw [BitVec.natCast_eq_ofNat, BitVec.ofNat_toNat, BitVec.setWidth_eq]
  · simp

/-- THE HISTOGRAM AT v, 32-bit words added with wrap-around: the operand's element plus the word of the sum, over the
    updates whose index reads v, of the update's value. -/
theorem histDims_scatter_apply {N K w : Nat}
    (wf : ScatterDims.WF ⟨1, ![N]⟩ ⟨2, ![K, 1]⟩ ⟨1, ![K]⟩ [] [0] [0] 1)
    (x : IVec ⟨1, ![N]⟩ 32) (idx : IVec ⟨2, ![K, 1]⟩ w) (upd : IVec ⟨1, ![K]⟩ 32) (v : Fin N) :
    Host.scatter (histDims N K wf) IntOp.addi x idx upd (ix1 v)
      = x (ix1 v) + BitVec.ofNat 32 (∑ e : Fin K, if (idx (ix2 e 0)).toInt = (v.val : ℤ) then (upd (ix1 e)).toNat else 0) := by
  have hadd : (IntOp.addi : BitVec 32 → BitVec 32 → BitVec 32) = fun a b => a + b := rfl
  rw [hadd, scatter_add_apply, ← sum_ite_word]
  congr 1
  rw [← Equiv.sum_comp (idxEquiv1 (n := K)).symm]
  refine Finset.sum_congr rfl fun e _ => ?_
  show (if (histDims N K wf).resultIdx? (ix1 e) idx = some (ix1 v) then upd (ix1 e) else 0) = _
  simp only [histDims_resultIdx?_eq_some_iff]

end Sums

end Cert.LibScatter
-- ==== Proof.LibGraphOps.lean ====
/-
  Three host operations of graph code read at an index, for any extents.

  * A histogram of float updates (operand [N], indices [K,1], updates [K], an adding body), at exact arithmetic: the
    operand's element plus the sum of the updates whose index, read signed, names it.
  * A take `a[idx]` of a vector [N] by a column of indices [K,1] (a `stablehlo.gather` collapsing the one axis): entry
    `e` is the operand at the index `idx[e,0]`, read signed and clamped into [0, N − 1].
  * Two vectors joined end to end, read at a position: the first below its length, the second after it.
-/
import proofs.«408782_j40278203301916_3_alg».proof.Proof.LibScatter
import Idealize.ShloMosaic.Lib.Pipeline.Value
import Idealize.ShloMosaic.Lib.ValueIdx
import Idealize.ShloMosaic.Lib.ValueIdxRank1

noncomputable section

open scoped BigOperators

namespace Cert.LibGraphOps

open Idealize.ShloMosaic Idealize.ShloMosaic.ValueIdx Cert.LibScatter

/-- THE FLOAT HISTOGRAM AT v, exact arithmetic: the operand's element plus the sum, over the updates whose index
    reads v, of the update. -/
theorem histDims_scatterAdd_apply {N K w : Nat} {φ : FTy}
    (wf : ScatterDims.WF ⟨1, ![N]⟩ ⟨2, ![K, 1]⟩ ⟨1, ![K]⟩ [] [0] [0] 1)
    (x : FVec Ideal ⟨1, ![N]⟩ φ) (idx : IVec ⟨2, ![K, 1]⟩ w) (upd : FVec Ideal ⟨1, ![K]⟩ φ) (v : Fin N) :
    Host.scatterAdd (histDims N K wf) x idx upd (ix1 v)
      = x (ix1 v) + ∑ e : Fin K, if (idx (ix2 e (0 : Fin 1))).toInt = (v.val : ℤ) then upd (ix1 e) else 0 := by
  show x (ix1 v) + ∑ j ∈ Finset.univ.filter (fun j => (histDims N K wf).resultIdx? j idx = some (ix1 v)), upd j = _
  congr 1
  rw [Finset.sum_filter, ← Equiv.sum_comp (idxEquiv1 (n := K)).symm]
  refine Finset.sum_congr rfl fun e _ => ?_
  show (if (histDims N K wf).resultIdx? (ix1 e) idx = some (ix1 v) then upd (ix1 e) else 0) = _
  simp only [histDims_resultIdx?_eq_some_iff]

variable {α : Type}

/-- The dimension numbers of a take of a vector `[N]` by a column of indices `[K, 1]`. -/
abbrev take1Dims (N K : Nat) (wf : GatherDims.WF ⟨1, ![N]⟩ ⟨2, ![K, 1]⟩ ⟨1, ![K]⟩ [] [0] [] [0] [] 1 ![1]) :
    GatherDims ⟨1, ![N]⟩ ⟨2, ![K, 1]⟩ ⟨1, ![K]⟩ where
  offsetDims := []
  collapsedSliceDims := [0]
  operandBatchingDims := []
  startIndicesBatchingDims := []
  startIndexMap := [0]
  indexVectorDim := 1
  sliceSizes := ![1]
  wf := wf

/-- THE TAKE READ AT `e`: the operand at the index `idx[e, 0]`, read signed and clamped into `[0, N − 1]`. -/
theorem gather_take1_apply {N K w : Nat} (hN : 0 < N)
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (e : Fin K) :
    Host.gather (take1Dims N K wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (take1Dims N K wf).start (ix1 e) idx 0 + (take1Dims N K wf).batchCoord (ix1 e) 0
    + (take1Dims N K wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N K wf).startIndexMap from List.mem_singleton.mpr rfl)]
  have hsi : (take1Dims N K wf).siIdx (ix1 e) ⟨List.idxOf (0 : Fin 1) (take1Dims N K wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- TWO VECTORS JOINED END TO END, read at position `e`: the first vector below its length `a`, the second, at the
    position less `a`, from there on. -/
theorem concatenate_pair1_apply {a b c : Nat} (hc : a + b = c)
    (x₁ : (⟨1, ![a]⟩ : Shape).Idx → α) (x₂ : (⟨1, ![b]⟩ : Shape).Idx → α)
    (h : Shape.Concatenates [(⟨1, ![a]⟩ : Shape), (⟨1, ![b]⟩ : Shape)] (⟨1, ![c]⟩ : Shape) (0 : Fin 1)) (e : Fin c) :
    concatenate (⟨1, ![c]⟩ : Shape) (0 : Fin 1) [⟨(⟨1, ![a]⟩ : Shape), x₁⟩, ⟨(⟨1, ![b]⟩ : Shape), x₂⟩] h (ix1 e)
      = if hlt : e.val < a then x₁ (ix1 ⟨e.val, hlt⟩) else x₂ (ix1 ⟨e.val - a, by have := e.isLt; omega⟩) := by
  by_cases hlt : e.val < a
  · rw [dif_pos hlt]
    exact concatenate_pair_apply_left (0 : Fin 1) x₁ x₂ h (ix1 e) rfl (ix1 ⟨e.val, hlt⟩) (fun b => by
      match b with
      | ⟨0, _⟩ => rfl)
  · rw [dif_neg hlt]
    exact concatenate_pair_apply_right (0 : Fin 1) x₁ x₂ h (ix1 e) rfl rfl (ix1 ⟨e.val - a, by have := e.isLt; omega⟩)
      (fun b hb => by
        match b with
        | ⟨0, _⟩ => exact absurd rfl hb)
      (by show (e.val - a) + a = e.val; omega)

end Cert.LibGraphOps

end
-- ==== Proof.LibTakeRows.lean ====
/-
  A row take read at an index.  `x[idx]` of a matrix `x : [N, W]` at a vector of row numbers lowers to a
  `stablehlo.gather` whose start indices are laid out as a column `[E, 1]`: offset axis 1, collapsed axis 0,
  start index map `[0]`, index vector axis 1, slices of one whole row.  Result element `(e, k)` is the
  operand at column `k` of the row `idx[e, 0]`, read as a signed integer and clamped into `[0, N − 1]`.
-/
import Idealize.ShloMosaic.Lib.ValueIdx

noncomputable section

namespace Cert.LibTakeRows

open Idealize.ShloMosaic Idealize.ShloMosaic.ValueIdx

variable {α : Type}

/-- The dimension numbers of a row take, for an operand `[N, W]`, start indices `[E, 1]` and a result `[E, W]`;
    their conditions `wf` are decided on a program's literal shapes. -/
abbrev rowDims (N W E : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- THE ROW TAKE READ AT `(e, k)`: column `k` of the row the start index `idx[e, 0]` names, read signed and
    clamped into `[0, N − 1]`. -/
theorem gather_rows_apply {N W E w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (rowDims N W E wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    -- axis 0 is collapsed and named by the start index map: the clamped start index, no batch or offset part
    show (rowDims N W E wf).start (ix2 e k) idx 0 + (rowDims N W E wf).batchCoord (ix2 e k) 0
      + (rowDims N W E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N W E wf).startIndexMap from List.mem_singleton.mpr rfl)]
    have hsi : (rowDims N W E wf).siIdx (ix2 e k) ⟨List.idxOf (0 : Fin 2) (rowDims N W E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1 is kept whole: start 0 (not in the start index map), no batch part, offset the result's column
    show (rowDims N W E wf).start (ix2 e k) idx 1 + (rowDims N W E wf).batchCoord (ix2 e k) 1
      + (rowDims N W E wf).offCoord (ix2 e k) 1 = _
    rw [GatherDims.batchCoord_eq_zero _ _ _ List.not_mem_nil]
    unfold GatherDims.start
    have h10 : ¬ (1 : Fin 2) = 0 := by decide
    rw [dif_neg (show (1 : Fin 2) ∉ (rowDims N W E wf).startIndexMap from fun h => h10 (List.mem_singleton.mp h))]
    have hk : (1 : Fin 2) ∈ (rowDims N W E wf).sKept :=
      (GatherDims.mem_sKept _ _).mpr ⟨fun h => h10 (List.mem_singleton.mp h), List.not_mem_nil⟩
    unfold GatherDims.offCoord
    rw [dif_pos hk]
    simp only [Nat.zero_add, Nat.add_zero]
    rfl

end Cert.LibTakeRows

end
-- ==== Proof.KIHostVals.lean ====
/-
  The three message-sum arrays the fused side hands its kernel, read at an index.

  From the final contents of the straight line of host operations, one operation at a time: the three arrays are the
  three 50000-row slabs of ONE scatter-add, over 150000 segments, of the gathered feature rows. The source words of the
  three relations are laid end to end; a negative word is moved up once by the node count and the result, read signed
  and clamped, names the feature row that is gathered. The destination words are laid end to end as well, the second
  relation's moved up by one node count and the third's by two, and name the segment a gathered row is added to. Slab
  r, row p of the scatter-add is segment r·50000 + p.
-/
import proofs.«408782_j40278203301916_3_alg».proof.Proof.KIHostV
import proofs.«408782_j40278203301916_3_alg».proof.Proof.Spec
import proofs.«408782_j40278203301916_3_alg».proof.Proof.LibScatter
import proofs.«408782_j40278203301916_3_alg».proof.Proof.LibGraphOps
import proofs.«408782_j40278203301916_3_alg».proof.Proof.LibTakeRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HostVals

open Idealize.ShloMosaic Idealize.ShloMosaic.TcCoe Idealize.ShloMosaic.StableHlo Idealize.ShloMosaic.ValueIdx
open Idealize.SL Idealize.SL.Sem
open Cert.KernelIdeal Cert.KernelIdeal.Gen Cert.KernelIdeal.Hand Cert.LibStretch Cert.LibSsa

variable (m : (ℓ : Loc nD τ sig) → Buf (Elt Ideal) ℓ) (c : Dev nD)

/-- The features as launched. -/
abbrev xA : S50000x128.Idx → EReal := m ((c : Thread nD τ).loc main_arg0)
/-- The six index vectors as launched, as functions of the edge number. -/
abbrev s0 (e : Fin 500000) : BitVec 32 := (m ((c : Thread nD τ).loc main_arg1) : S500000.Idx → BitVec 32) (ix1 e)
abbrev d0 (e : Fin 500000) : BitVec 32 := (m ((c : Thread nD τ).loc main_arg2) : S500000.Idx → BitVec 32) (ix1 e)
abbrev s1 (e : Fin 500000) : BitVec 32 := (m ((c : Thread nD τ).loc main_arg3) : S500000.Idx → BitVec 32) (ix1 e)
abbrev d1 (e : Fin 500000) : BitVec 32 := (m ((c : Thread nD τ).loc main_arg4) : S500000.Idx → BitVec 32) (ix1 e)
abbrev s2 (e : Fin 500000) : BitVec 32 := (m ((c : Thread nD τ).loc main_arg5) : S500000.Idx → BitVec 32) (ix1 e)
abbrev d2 (e : Fin 500000) : BitVec 32 := (m ((c : Thread nD τ).loc main_arg6) : S500000.Idx → BitVec 32) (ix1 e)

/-! ## The line, one operation at a time

Every buffer's contents after the whole line is the function of its operation applied to the contents, after the whole
line, of the operation's operands: the line is in single-assignment form. Operation k writes the buffer numbered 12 + k. -/

namespace Line

/-- The launch's starting contents of core c. -/
abbrev W0 : Valuation τ sig (Elt Ideal) := fun b => m (c, b)

/-- The final contents of a buffer. -/
abbrev A (r : Ref sig .tc) := after (allOps (F := Ideal)) (W0 m c) (Proc.devRef .tc r)

/-- A buffer numbered below 12 + k is not among the buffers written from position k on. -/
theorem nw (k : Nat) (r : Ref sig .tc) (hr : r.idx.val < 12 + k) : r ∉ (ys : List (Ref sig .tc)).drop k :=
  not_mem_drop_of_idx_lt ys_idx k r hr

/-! ### The one-step equations of the operations the three arrays depend on -/

/-- Operation 0: the three relations' source words laid end to end. -/
theorem E0 :
    A m c main_v0
      = concatenate S1500000 0 [⟨S500000, (A m c main_arg1)⟩, ⟨S500000, (A m c main_arg3)⟩, ⟨S500000, (A m c main_arg5)⟩] concatenates_S500000_S500000_S500000_S1500000_d0 :=
  at_nary3 (x := main_arg1) (a := main_arg3) (b := main_arg5) (y := main_v0) writesAre 0 (W0 m c)
    (fun u => concatenate S1500000 0 [⟨S500000, u 0⟩, ⟨S500000, u 1⟩, ⟨S500000, u 2⟩] concatenates_S500000_S500000_S500000_S1500000_d0)
    _ _ rfl (nw 1 main_v0 (by decide)) (nw 0 main_arg1 (by decide)) (nw 0 main_arg3 (by decide)) (nw 0 main_arg5 (by decide))

/-- Operation 1: the word 50000. -/
theorem E1 :
    A m c main_c = (constantI S_ 32 50000#32) :=
  at_nullary (y := main_c) writesAre 1 (W0 m c) (constantI S_ 32 50000#32) _ rfl (nw 2 main_c (by decide))

/-- Operation 2: … at every position of a relation's list. -/
theorem E2 :
    A m c main_v1
      = (broadcastInDim S500000 ![] bcast_S_S500000 : (⟨S_, .i32⟩ : BufTy).Contents (Elt Ideal) →
          (⟨S500000, .i32⟩ : BufTy).Contents (Elt Ideal))
          (A m c main_c) :=
  at_unary (x := main_c) (y := main_v1) writesAre 2 (W0 m c)
    (broadcastInDim S500000 ![] bcast_S_S500000 : (⟨S_, .i32⟩ : BufTy).Contents (Elt Ideal) →
        (⟨S500000, .i32⟩ : BufTy).Contents (Elt Ideal))
    _ _ rfl (nw 3 main_v1 (by decide)) (nw 2 main_c (by decide))

/-- Operation 3: the second relation's destination words moved up by 50000. -/
theorem E3 :
    A m c main_v2
      = (addi : (⟨S500000, .i32⟩ : BufTy).Contents (Elt Ideal) → (⟨S500000, .i32⟩ : BufTy).Contents (Elt Ideal) →
          (⟨S500000, .i32⟩ : BufTy).Contents (Elt Ideal))
          (A m c main_arg4) (A m c main_v1) :=
  at_binary (a := main_arg4) (b := main_v1) (y := main_v2) writesAre 3 (W0 m c)
    (addi : (⟨S500000, .i32⟩ : BufTy).Contents (Elt Ideal) → (⟨S500000, .i32⟩ : BufTy).Contents (Elt Ideal) →
        (⟨S500000, .i32⟩ : BufTy).Contents (Elt Ideal))
    _ _ _ rfl (nw 4 main_v2 (by decide)) (nw 3 main_arg4 (by decide)) (nw 3 main_v1 (by decide))

/-- Operation 4: the word 100000. -/
theorem E4 :
    A m c main_c_0 = (constantI S_ 32 100000#32) :=
  at_nullary (y := main_c_0) writesAre 4 (W0 m c) (constantI S_ 32 100000#32) _ rfl (nw 5 main_c_0 (by decide))

/-- Operation 5: … at every position of a relation's list. -/
theorem E5 :
    A m c main_v3
      = (broadcastInDim S500000 ![] bcast_S_S500000 : (⟨S_, .i32⟩ : BufTy).Contents (Elt Ideal) →
          (⟨S500000, .i32⟩ : BufTy).Contents (Elt Ideal))
          (A m c main_c_0) :=
  at_unary (x := main_c_0) (y := main_v3) writesAre 5 (W0 m c)
    (broadcastInDim S500000 ![] bcast_S_S500000 : (⟨S_, .i32⟩ : BufTy).Contents (Elt Ideal) →
        (⟨S500000, .i32⟩ : BufTy).Contents (Elt Ideal))
    _ _ rfl (nw 6 main_v3 (by decide)) (nw 5 main_c_0 (by decide))

/-- Operation 6: the third relation's destination words moved up by 100000. -/
theorem E6 :
    A m c main_v4
      = (addi : (⟨S500000, .i32⟩ : BufTy).Contents (Elt Ideal) → (⟨S500000, .i32⟩ : BufTy).Contents (Elt Ideal) →
          (⟨S500000, .i32⟩ : BufTy).Contents (Elt Ideal))
          (A m c main_arg6) (A m c main_v3) :=
  at_binary (a := main_arg6) (b := main_v3) (y := main_v4) writesAre 6 (W0 m c)
    (addi : (⟨S500000, .i32⟩ : BufTy).Contents (Elt Ideal) → (⟨S500000, .i32⟩ : BufTy).Contents (Elt Ideal) →
        (⟨S500000, .i32⟩ : BufTy).Contents (Elt Ideal))
    _ _ _ rfl (nw 7 main_v4 (by decide)) (nw 6 main_arg6 (by decide)) (nw 6 main_v3 (by decide))

/-- Operation 7: the destination words laid end to end. -/
theorem E7 :
    A m c main_v5
      = concatenate S1500000 0 [⟨S500000, (A m c main_arg2)⟩, ⟨S500000, (A m c main_v2)⟩, ⟨S500000, (A m c main_v4)⟩] concatenates_S500000_S500000_S500000_S1500000_d0 :=
  at_nary3 (x := main_arg2) (a := main_v2) (b := main_v4) (y := main_v5) writesAre 7 (W0 m c)
    (fun u => concatenate S1500000 0 [⟨S500000, u 0⟩, ⟨S500000, u 1⟩, ⟨S500000, u 2⟩] concatenates_S500000_S500000_S500000_S1500000_d0)
    _ _ rfl (nw 8 main_v5 (by decide)) (nw 7 main_arg2 (by decide)) (nw 7 main_v2 (by decide)) (nw 7 main_v4 (by decide))

/-- Operation 8: the word 0. -/
theorem E8 :
    A m c main_c_1 = (constantI S_ 32 0#32) :=
  at_nullary (y := main_c_1) writesAre 8 (W0 m c) (constantI S_ 32 0#32) _ rfl (nw 9 main_c_1 (by decide))

/-- Operation 9: … at every position of the joined list. -/
theorem E9 :
    A m c main_v6
      = (broadcastInDim S1500000 ![] bcast_S_S1500000 : (⟨S_, .i32⟩ : BufTy).Contents (Elt Ideal) →
          (⟨S1500000, .i32⟩ : BufTy).Contents (Elt Ideal))
          (A m c main_c_1) :=
  at_unary (x := main_c_1) (y := main_v6) writesAre 9 (W0 m c)
    (broadcastInDim S1500000 ![] bcast_S_S1500000 : (⟨S_, .i32⟩ : BufTy).Contents (Elt Ideal) →
        (⟨S1500000, .i32⟩ : BufTy).Contents (Elt Ideal))
    _ _ rfl (nw 10 main_v6 (by decide)) (nw 9 main_c_1 (by decide))

/-- Operation 10: which source words are negative. -/
theorem E10 :
    A m c main_v7
      = (cmpi .slt : (⟨S1500000, .i32⟩ : BufTy).Contents (Elt Ideal) →
          (⟨S1500000, .i32⟩ : BufTy).Contents (Elt Ideal) → (⟨S1500000, .i1⟩ : BufTy).Contents (Elt Ideal))
          (A m c main_v0) (A m c main_v6) :=
  at_binary (a := main_v0) (b := main_v6) (y := main_v7) writesAre 10 (W0 m c)
    (cmpi .slt : (⟨S1500000, .i32⟩ : BufTy).Contents (Elt Ideal) → (⟨S1500000, .i32⟩ : BufTy).Contents (Elt Ideal) →
        (⟨S1500000, .i1⟩ : BufTy).Contents (Elt Ideal))
    _ _ _ rfl (nw 11 main_v7 (by decide)) (nw 10 main_v0 (by decide)) (nw 10 main_v6 (by decide))

/-- Operation 11: the word 50000. -/
theorem E11 :
    A m c main_c_2 = (constantI S_ 32 50000#32) :=
  at_nullary (y := main_c_2) writesAre 11 (W0 m c) (constantI S_ 32 50000#32) _ rfl (nw 12 main_c_2 (by decide))

/-- Operation 12: … at every position of the joined list. -/
theorem E12 :
    A m c main_v8
      = (broadcastInDim S1500000 ![] bcast_S_S1500000 : (⟨S_, .i32⟩ : BufTy).Contents (Elt Ideal) →
          (⟨S1500000, .i32⟩ : BufTy).Contents (Elt Ideal))
          (A m c main_c_2) :=
  at_unary (x := main_c_2) (y := main_v8) writesAre 12 (W0 m c)
    (broadcastInDim S1500000 ![] bcast_S_S1500000 : (⟨S_, .i32⟩ : BufTy).Contents (Elt Ideal) →
        (⟨S1500000, .i32⟩ : BufTy).Contents (Elt Ideal))
    _ _ rfl (nw 13 main_v8 (by decide)) (nw 12 main_c_2 (by decide))

/-- Operation 13: every source word moved up by 50000. -/
theorem E13 :
    A m c main_v9
      = (addi : (⟨S1500000, .i32⟩ : BufTy).Contents (Elt Ideal) → (⟨S1500000, .i32⟩ : BufTy).Contents (Elt Ideal) →
          (⟨S1500000, .i32⟩ : BufTy).Contents (Elt Ideal))
          (A m c main_v0) (A m c main_v8) :=
  at_binary (a := main_v0) (b := main_v8) (y := main_v9) writesAre 13 (W0 m c)
    (addi : (⟨S1500000, .i32⟩ : BufTy).Contents (Elt Ideal) → (⟨S1500000, .i32⟩ : BufTy).Contents (Elt Ideal) →
        (⟨S1500000, .i32⟩ : BufTy).Contents (Elt Ideal))
    _ _ _ rfl (nw 14 main_v9 (by decide)) (nw 13 main_v0 (by decide)) (nw 13 main_v8 (by decide))

/-- Operation 14: the source word, moved up where it is negative. -/
theorem E14 :
    A m c main_v10
      = (select : (⟨S1500000, .i1⟩ : BufTy).Contents (Elt Ideal) → (⟨S1500000, .i32⟩ : BufTy).Contents (Elt Ideal) →
          (⟨S1500000, .i32⟩ : BufTy).Contents (Elt Ideal) → (⟨S1500000, .i32⟩ : BufTy).Contents (Elt Ideal))
          (A m c main_v7) (A m c main_v9) (A m c main_v0) :=
  at_ternary (c := main_v7) (a := main_v9) (b := main_v0) (y := main_v10) writesAre 14 (W0 m c)
    (select : (⟨S1500000, .i1⟩ : BufTy).Contents (Elt Ideal) → (⟨S1500000, .i32⟩ : BufTy).Contents (Elt Ideal) →
        (⟨S1500000, .i32⟩ : BufTy).Contents (Elt Ideal) → (⟨S1500000, .i32⟩ : BufTy).Contents (Elt Ideal))
    _ _ _ _ rfl (nw 15 main_v10 (by decide)) (nw 14 main_v7 (by decide)) (nw 14 main_v9 (by decide)) (nw 14 main_v0 (by decide))

/-- Operation 15: … as one column. -/
theorem E15 :
    A m c main_v11
      = (broadcastInDim S1500000x1 ![0] bcast_S1500000_S1500000x1_0 : (⟨S1500000, .i32⟩ : BufTy).Contents (Elt Ideal) →
          (⟨S1500000x1, .i32⟩ : BufTy).Contents (Elt Ideal))
          (A m c main_v10) :=
  at_unary (x := main_v10) (y := main_v11) writesAre 15 (W0 m c)
    (broadcastInDim S1500000x1 ![0] bcast_S1500000_S1500000x1_0 : (⟨S1500000, .i32⟩ : BufTy).Contents (Elt Ideal) →
        (⟨S1500000x1, .i32⟩ : BufTy).Contents (Elt Ideal))
    _ _ rfl (nw 16 main_v11 (by decide)) (nw 15 main_v10 (by decide))

/-- Operation 16: the feature rows the source words name. -/
theorem E16 :
    A m c main_v12
      = ((fun x i => Host.gather gather_S50000x128_S1500000x1_S1500000x128_1_0_n_n_0_1_1128 x i) : (⟨S50000x128, .f32⟩ : BufTy).Contents (Elt Ideal) →
          (⟨S1500000x1, .i32⟩ : BufTy).Contents (Elt Ideal) → (⟨S1500000x128, .f32⟩ : BufTy).Contents (Elt Ideal))
          (A m c main_arg0) (A m c main_v11) :=
  at_binary (a := main_arg0) (b := main_v11) (y := main_v12) writesAre 16 (W0 m c)
    ((fun x i => Host.gather gather_S50000x128_S1500000x1_S1500000x128_1_0_n_n_0_1_1128 x i) : (⟨S50000x128, .f32⟩ : BufTy).Contents (Elt Ideal) →
        (⟨S1500000x1, .i32⟩ : BufTy).Contents (Elt Ideal) → (⟨S1500000x128, .f32⟩ : BufTy).Contents (Elt Ideal))
    _ _ _ rfl (nw 17 main_v12 (by decide)) (nw 16 main_arg0 (by decide)) (nw 16 main_v11 (by decide))

/-- Operation 17: the float zero. -/
theorem E17 :
    A m c main_cst = (constant (F := Ideal) S_ .f32 0x00000000#32) :=
  at_nullary (y := main_cst) writesAre 17 (W0 m c) (constant (F := Ideal) S_ .f32 0x00000000#32) _ rfl (nw 18 main_cst (by decide))

/-- Operation 18: … at every segment and column. -/
theorem E18 :
    A m c main_v13
      = (broadcastInDim S150000x128 ![] bcast_S_S150000x128 : (⟨S_, .f32⟩ : BufTy).Contents (Elt Ideal) →
          (⟨S150000x128, .f32⟩ : BufTy).Contents (Elt Ideal))
          (A m c main_cst) :=
  at_unary (x := main_cst) (y := main_v13) writesAre 18 (W0 m c)
    (broadcastInDim S150000x128 ![] bcast_S_S150000x128 : (⟨S_, .f32⟩ : BufTy).Contents (Elt Ideal) →
        (⟨S150000x128, .f32⟩ : BufTy).Contents (Elt Ideal))
    _ _ rfl (nw 19 main_v13 (by decide)) (nw 18 main_cst (by decide))

/-- Operation 19: the destination words as one column. -/
theorem E19 :
    A m c main_v14
      = (broadcastInDim S1500000x1 ![0] bcast_S1500000_S1500000x1_0 : (⟨S1500000, .i32⟩ : BufTy).Contents (Elt Ideal) →
          (⟨S1500000x1, .i32⟩ : BufTy).Contents (Elt Ideal))
          (A m c main_v5) :=
  at_unary (x := main_v5) (y := main_v14) writesAre 19 (W0 m c)
    (broadcastInDim S1500000x1 ![0] bcast_S1500000_S1500000x1_0 : (⟨S1500000, .i32⟩ : BufTy).Contents (Elt Ideal) →
        (⟨S1500000x1, .i32⟩ : BufTy).Contents (Elt Ideal))
    _ _ rfl (nw 20 main_v14 (by decide)) (nw 19 main_v5 (by decide))

/-- Operation 20: the gathered rows added into the segments their destination words name. -/
theorem E20 :
    A m c main_v15
      = ((fun x i u => Host.scatterAdd (F := Ideal) (φ := .f32) scatter_S150000x128_S1500000x1_S1500000x128_1_0_0_1 x i u) : (⟨S150000x128, .f32⟩ : BufTy).Contents (Elt Ideal) →
          (⟨S1500000x1, .i32⟩ : BufTy).Contents (Elt Ideal) → (⟨S1500000x128, .f32⟩ : BufTy).Contents (Elt Ideal) →
          (⟨S150000x128, .f32⟩ : BufTy).Contents (Elt Ideal))
          (A m c main_v13) (A m c main_v14) (A m c main_v12) :=
  at_ternary (c := main_v13) (a := main_v14) (b := main_v12) (y := main_v15) writesAre 20 (W0 m c)
    ((fun x i u => Host.scatterAdd (F := Ideal) (φ := .f32) scatter_S150000x128_S1500000x1_S1500000x128_1_0_0_1 x i u) : (⟨S150000x128, .f32⟩ : BufTy).Contents (Elt Ideal) →
        (⟨S1500000x1, .i32⟩ : BufTy).Contents (Elt Ideal) → (⟨S1500000x128, .f32⟩ : BufTy).Contents (Elt Ideal) →
        (⟨S150000x128, .f32⟩ : BufTy).Contents (Elt Ideal))
    _ _ _ _ rfl (nw 21 main_v15 (by decide)) (nw 20 main_v13 (by decide)) (nw 20 main_v14 (by decide)) (nw 20 main_v12 (by decide))

/-- Operation 34: the 150000 segments as three slabs of 50000. -/
theorem E34 :
    A m c main_v23 = shapeCast S3x50000x128 (A m c main_v15) shapeCasts_S150000x128_S3x50000x128 :=
  at_reshape (x := main_v15) (y := main_v23) writesAre 34 (W0 m c) rfl shapeCasts_S150000x128_S3x50000x128 _ _ rfl
    (nw 35 main_v23 (by decide)) (nw 34 main_v15 (by decide))

/-- Operation 35: slab 0. -/
theorem E35 :
    A m c main_v24
      = extractStridedSlice S1x50000x128 ![0, 0, 0] (A m c main_v23) slices_S3x50000x128_S1x50000x128_0_0_0 :=
  at_unary (x := main_v23) (y := main_v24) writesAre 35 (W0 m c) _ _ _ rfl (nw 36 main_v24 (by decide)) (nw 35 main_v23 (by decide))

/-- Operation 36: … as a matrix. -/
theorem E36 :
    A m c main_v25 = shapeCast S50000x128 (A m c main_v24) shapeCasts_S1x50000x128_S50000x128 :=
  at_reshape (x := main_v24) (y := main_v25) writesAre 36 (W0 m c) rfl shapeCasts_S1x50000x128_S50000x128 _ _ rfl
    (nw 37 main_v25 (by decide)) (nw 36 main_v24 (by decide))

/-- Operation 37: slab 1. -/
theorem E37 :
    A m c main_v26
      = extractStridedSlice S1x50000x128 ![1, 0, 0] (A m c main_v23) slices_S3x50000x128_S1x50000x128_1_0_0 :=
  at_unary (x := main_v23) (y := main_v26) writesAre 37 (W0 m c) _ _ _ rfl (nw 38 main_v26 (by decide)) (nw 37 main_v23 (by decide))

/-- Operation 38: … as a matrix. -/
theorem E38 :
    A m c main_v27 = shapeCast S50000x128 (A m c main_v26) shapeCasts_S1x50000x128_S50000x128 :=
  at_reshape (x := main_v26) (y := main_v27) writesAre 38 (W0 m c) rfl shapeCasts_S1x50000x128_S50000x128 _ _ rfl
    (nw 39 main_v27 (by decide)) (nw 38 main_v26 (by decide))

/-- Operation 39: slab 2. -/
theorem E39 :
    A m c main_v28
      = extractStridedSlice S1x50000x128 ![2, 0, 0] (A m c main_v23) slices_S3x50000x128_S1x50000x128_2_0_0 :=
  at_unary (x := main_v23) (y := main_v28) writesAre 39 (W0 m c) _ _ _ rfl (nw 40 main_v28 (by decide)) (nw 39 main_v23 (by decide))

/-- Operation 40: … as a matrix. -/
theorem E40 :
    A m c main_v29 = shapeCast S50000x128 (A m c main_v28) shapeCasts_S1x50000x128_S50000x128 :=
  at_reshape (x := main_v28) (y := main_v29) writesAre 40 (W0 m c) rfl shapeCasts_S1x50000x128_S50000x128 _ _ rfl
    (nw 41 main_v29 (by decide)) (nw 40 main_v28 (by decide))

section Layout
variable {α : Type}

/-- Three vectors of 500000 joined end to end, read below 500000: the first. -/
theorem concat3_first (x0 x1 x2 : S500000.Idx → α)
    (h : Shape.Concatenates [S500000, S500000, S500000] S1500000 0) (e : Fin 1500000) (h1 : e.val < 500000) :
    concatenate S1500000 0 [⟨S500000, x0⟩, ⟨S500000, x1⟩, ⟨S500000, x2⟩] h (ix1 e) = x0 (ix1 ⟨e.val, h1⟩) :=
  concatenate_apply_piece (t := S1500000) (0 : Fin 1) [⟨S500000, x0⟩, ⟨S500000, x1⟩, ⟨S500000, x2⟩] h (ix1 e) 0
    (Nat.lt_of_sub_eq_succ rfl) S500000 x0 rfl rfl 0 rfl (ix1 ⟨e.val, h1⟩)
    (fun b hb => absurd (Subsingleton.elim _ _) hb) (by show 0 + e.val = e.val; omega)

/-- … from 500000 to below 1000000: the second, at the position less 500000. The extents before the piece are summed
    over the list of the pieces' shapes alone, a closed term. -/
theorem concat3_second (x0 x1 x2 : S500000.Idx → α)
    (h : Shape.Concatenates [S500000, S500000, S500000] S1500000 0) (e : Fin 1500000) (h1 : ¬ e.val < 500000)
    (h2 : e.val < 1000000) :
    concatenate S1500000 0 [⟨S500000, x0⟩, ⟨S500000, x1⟩, ⟨S500000, x2⟩] h (ix1 e)
      = x1 (ix1 ⟨e.val - 500000, by omega⟩) :=
  concatenate_apply_piece (t := S1500000) (0 : Fin 1) [⟨S500000, x0⟩, ⟨S500000, x1⟩, ⟨S500000, x2⟩] h (ix1 e) 1
    (Nat.lt_of_sub_eq_succ rfl) S500000 x1 rfl rfl 500000
    (show (([S500000] : List Shape).map fun s =>
      if h : s.rank = S1500000.rank then s.size ((0 : Fin 1).cast h.symm) else 0).sum = 500000 from rfl)
    (ix1 ⟨e.val - 500000, by omega⟩) (fun b hb => absurd (Subsingleton.elim _ _) hb)
    (by show 500000 + (e.val - 500000) = e.val; omega)

/-- … from 1000000 on: the third, at the position less 1000000. -/
theorem concat3_third (x0 x1 x2 : S500000.Idx → α)
    (h : Shape.Concatenates [S500000, S500000, S500000] S1500000 0) (e : Fin 1500000) (h2 : ¬ e.val < 1000000) :
    concatenate S1500000 0 [⟨S500000, x0⟩, ⟨S500000, x1⟩, ⟨S500000, x2⟩] h (ix1 e)
      = x2 (ix1 ⟨e.val - 1000000, by have := e.isLt; omega⟩) :=
  concatenate_apply_piece (t := S1500000) (0 : Fin 1) [⟨S500000, x0⟩, ⟨S500000, x1⟩, ⟨S500000, x2⟩] h (ix1 e) 2
    (Nat.lt_of_sub_eq_succ rfl) S500000 x2 rfl rfl 1000000
    (show (([S500000, S500000] : List Shape).map fun s =>
      if h : s.rank = S1500000.rank then s.size ((0 : Fin 1).cast h.symm) else 0).sum = 1000000 from rfl)
    (ix1 ⟨e.val - 1000000, by have := e.isLt; omega⟩) (fun b hb => absurd (Subsingleton.elim _ _) hb)
    (by show 1000000 + (e.val - 1000000) = e.val; omega)

/-- Three vectors of 500000 joined end to end, read at a position. -/
theorem concat3_apply (x0 x1 x2 : S500000.Idx → α)
    (h : Shape.Concatenates [S500000, S500000, S500000] S1500000 0) (e : Fin 1500000) :
    concatenate S1500000 0 [⟨S500000, x0⟩, ⟨S500000, x1⟩, ⟨S500000, x2⟩] h (ix1 e)
      = if h1 : e.val < 500000 then x0 (ix1 ⟨e.val, h1⟩)
        else if h2 : e.val < 1000000 then x1 (ix1 ⟨e.val - 500000, by omega⟩)
        else x2 (ix1 ⟨e.val - 1000000, by have := e.isLt; omega⟩) := by
  by_cases h1 : e.val < 500000
  · rw [dif_pos h1]
    exact concat3_first x0 x1 x2 h e h1
  · rw [dif_neg h1]
    by_cases h2 : e.val < 1000000
    · rw [dif_pos h2]
      exact concat3_second x0 x1 x2 h e h1 h2
    · rw [dif_neg h2]
      exact concat3_third x0 x1 x2 h e h2

/-- A vector viewed as a one-column matrix, read at (e, 0). -/
theorem col_apply {n : Nat} (hn : n ≠ 1) (x : (⟨1, ![n]⟩ : Shape).Idx → α)
    (h : (⟨1, ![n]⟩ : Shape).BroadcastsInDim (⟨2, ![n, 1]⟩ : Shape) (![0] : Fin 1 → Fin 2)) (e : Fin n) :
    broadcastInDim (⟨2, ![n, 1]⟩ : Shape) (![0] : Fin 1 → Fin 2) h x (ix2 e (0 : Fin 1)) = x (ix1 e) :=
  broadcastInDim_apply _ h x (ix2 e (0 : Fin 1)) (ix1 e) fun a => by
    match a with
    | ⟨0, _⟩ => exact (if_neg hn).symm

/-- The array of 150000 rows cut into three slabs of 50000: slab o, row p is row o·50000 + p. -/
theorem slab_apply (X : S150000x128.Idx → α) (o : Nat) (ho : o < 3)
    (h1 : S150000x128.ShapeCasts S3x50000x128) (hs : S3x50000x128.Slices ![o, 0, 0] S1x50000x128)
    (h2 : S1x50000x128.ShapeCasts S50000x128) (p : Fin 50000) (k : Fin 128)
    (i : Fin 150000) (hi : i.val = o * 50000 + p.val) :
    shapeCast S50000x128 (extractStridedSlice S1x50000x128 ![o, 0, 0] (shapeCast S3x50000x128 X h1) hs) h2 (ix2 p k)
      = X (ix2 i k) := by
  refine (shapeCast_apply _ h2 (ix2 p k) (ix3 (0 : Fin 1) p k) ?_).trans ?_
  · rw [Shape.rowMajor_val_three, Shape.rowMajor_val_two]
    show ((0 : ℕ) * 50000 + p.val) * 128 + k.val = p.val * 128 + k.val
    omega
  refine (extractStridedSlice_apply _ _ hs (ix3 (0 : Fin 1) p k) (ix3 (⟨o, ho⟩ : Fin 3) p k) ?_).trans ?_
  · intro a
    match a with
    | ⟨0, _⟩ => show o = o + 0; omega
    | ⟨1, _⟩ => show p.val = 0 + p.val; omega
    | ⟨2, _⟩ => show k.val = 0 + k.val; omega
  refine shapeCast_apply X h1 (ix3 (⟨o, ho⟩ : Fin 3) p k) (ix2 i k) ?_
  rw [Shape.rowMajor_val_two, Shape.rowMajor_val_three]
  show i.val * 128 + k.val = (o * 50000 + p.val) * 128 + k.val
  rw [hi]

end Layout

/-! ## The line's buffers, read at an index -/

/-- An argument buffer is written by no operation of the line. -/
theorem A_arg (r : Ref sig .tc) (hr : r.idx.val < 12) : A m c r = m ((c : Thread nD τ).loc r) := V_arg m c r hr

/-- The source words laid end to end. -/
theorem v0_apply (e : Fin 1500000) :
    (A m c main_v0 : S1500000.Idx → BitVec 32) (ix1 e) = Cert.Spec.srcAll (s0 m c) (s1 m c) (s2 m c) e := by
  rw [E0, A_arg m c main_arg1 (by decide), A_arg m c main_arg3 (by decide), A_arg m c main_arg5 (by decide)]
  exact concat3_apply _ _ _ _ e

/-- The second relation's destination words, moved up by one node count. -/
theorem v2_apply (i : S500000.Idx) :
    (A m c main_v2 : S500000.Idx → BitVec 32) i
      = IntOp.addi ((m ((c : Thread nD τ).loc main_arg4) : S500000.Idx → BitVec 32) i) 50000#32 := by
  rw [E3, E2, E1, A_arg m c main_arg4 (by decide)]
  rfl

/-- The third relation's destination words, moved up by two node counts. -/
theorem v4_apply (i : S500000.Idx) :
    (A m c main_v4 : S500000.Idx → BitVec 32) i
      = IntOp.addi ((m ((c : Thread nD τ).loc main_arg6) : S500000.Idx → BitVec 32) i) 100000#32 := by
  rw [E6, E5, E4, A_arg m c main_arg6 (by decide)]
  rfl

/-- The destination words laid end to end, each relation's moved to its own range of segments. -/
theorem v5_apply (e : Fin 1500000) :
    (A m c main_v5 : S1500000.Idx → BitVec 32) (ix1 e) = Cert.Spec.dstAll (d0 m c) (d1 m c) (d2 m c) e := by
  rw [E7, A_arg m c main_arg2 (by decide), concat3_apply]
  unfold Cert.Spec.dstAll
  by_cases h1 : e.val < 500000
  · rw [dif_pos h1, dif_pos h1]
  · rw [dif_neg h1, dif_neg h1]
    by_cases h2 : e.val < 1000000
    · rw [dif_pos h2, dif_pos h2]
      exact v2_apply m c _
    · rw [dif_neg h2, dif_neg h2]
      exact v4_apply m c _

/-- The source word with a negative value moved up once by the node count. -/
theorem v10_apply (e : Fin 1500000) :
    (A m c main_v10 : S1500000.Idx → BitVec 32) (ix1 e)
      = Scalar.select (IntOp.cmpi .slt (Cert.Spec.srcAll (s0 m c) (s1 m c) (s2 m c) e) 0#32)
          (IntOp.addi (Cert.Spec.srcAll (s0 m c) (s1 m c) (s2 m c) e) 50000#32)
          (Cert.Spec.srcAll (s0 m c) (s1 m c) (s2 m c) e) := by
  rw [E14, E10, E13, E9, E8, E12, E11]
  show Scalar.select (IntOp.cmpi .slt ((A m c main_v0 : S1500000.Idx → BitVec 32) (ix1 e)) 0#32)
      (IntOp.addi ((A m c main_v0 : S1500000.Idx → BitVec 32) (ix1 e)) 50000#32)
      ((A m c main_v0 : S1500000.Idx → BitVec 32) (ix1 e)) = _
  rw [v0_apply]

/-- The gather's start indices, one column. -/
theorem v11_apply (e : Fin 1500000) :
    (A m c main_v11 : S1500000x1.Idx → BitVec 32) (ix2 e (0 : Fin 1))
      = (A m c main_v10 : S1500000.Idx → BitVec 32) (ix1 e) := by
  rw [E15]
  exact col_apply (by decide) _ _ e

/-- The scatter's indices, one column. -/
theorem v14_apply (e : Fin 1500000) :
    (A m c main_v14 : S1500000x1.Idx → BitVec 32) (ix2 e (0 : Fin 1))
      = (A m c main_v5 : S1500000.Idx → BitVec 32) (ix1 e) := by
  rw [E19]
  exact col_apply (by decide) _ _ e

/-- The scatter's operand is the float zero everywhere. -/
theorem v13_apply (j : S150000x128.Idx) : (A m c main_v13 : S150000x128.Idx → EReal) j = Cert.Spec.zeroF := by
  rw [E18, E17]
  rfl

/-- The gathered rows: edge e's row is the feature row its source word names. -/
theorem v12_apply (e : Fin 1500000) (k : Fin 128) :
    (A m c main_v12 : S1500000x128.Idx → EReal) (ix2 e k)
      = xA m c (ix2 (Cert.Spec.rowOf (Cert.Spec.srcAll (s0 m c) (s1 m c) (s2 m c) e)) k) := by
  rw [E16, A_arg m c main_arg0 (by decide)]
  refine (Cert.LibTakeRows.gather_rows_apply (N := 50000) (W := 128) (E := 1500000) (by decide)
    gather_S50000x128_S1500000x1_S1500000x128_1_0_n_n_0_1_1128_wf _ (A m c main_v11) e k).trans ?_
  refine congrArg (fun r : Fin 50000 => xA m c (ix2 r k)) (Fin.ext ?_)
  show min ((A m c main_v11 : S1500000x1.Idx → BitVec 32) (ix2 e (0 : Fin 1))).toInt.toNat (50000 - 1) = _
  rw [v11_apply, v10_apply]
  rfl

/-- THE ONE SCATTER-ADD at segment i, column k: the message sum of segment i over all three relations' edges. -/
theorem v15_apply (i : Fin 150000) (k : Fin 128) :
    (A m c main_v15 : S150000x128.Idx → EReal) (ix2 i k)
      = Cert.Spec.agg (xA m c) (Cert.Spec.srcAll (s0 m c) (s1 m c) (s2 m c)) (Cert.Spec.dstAll (d0 m c) (d1 m c) (d2 m c)) (i.val : ℤ) k := by
  rw [E20]
  refine (Cert.LibScatter.rowDims_scatterAdd_apply (R := 150000) (K := 1500000) (C := 128)
    scatter_S150000x128_S1500000x1_S1500000x128_1_0_0_1_wf (A m c main_v13) (A m c main_v14) (A m c main_v12) i k).trans ?_
  unfold Cert.Spec.agg
  rw [v13_apply]
  refine congrArg (fun t => Cert.Spec.zeroF + t) (Finset.sum_congr rfl fun e _ => ?_)
  rw [v14_apply, v5_apply, v12_apply]

/-- The three slabs of the scatter-add. -/
theorem v25_slab (p : Fin 50000) (k : Fin 128) (i : Fin 150000) (hi : i.val = 0 * 50000 + p.val) :
    (A m c main_v25 : S50000x128.Idx → EReal) (ix2 p k) = (A m c main_v15 : S150000x128.Idx → EReal) (ix2 i k) := by
  rw [E36, E35, E34]
  exact slab_apply _ 0 (by omega) _ _ _ p k i hi
theorem v27_slab (p : Fin 50000) (k : Fin 128) (i : Fin 150000) (hi : i.val = 1 * 50000 + p.val) :
    (A m c main_v27 : S50000x128.Idx → EReal) (ix2 p k) = (A m c main_v15 : S150000x128.Idx → EReal) (ix2 i k) := by
  rw [E38, E37, E34]
  exact slab_apply _ 1 (by omega) _ _ _ p k i hi
theorem v29_slab (p : Fin 50000) (k : Fin 128) (i : Fin 150000) (hi : i.val = 2 * 50000 + p.val) :
    (A m c main_v29 : S50000x128.Idx → EReal) (ix2 p k) = (A m c main_v15 : S150000x128.Idx → EReal) (ix2 i k) := by
  rw [E40, E39, E34]
  exact slab_apply _ 2 (by omega) _ _ _ p k i hi

end Line

open Line

/-- Relation 0's message sums: segment p of the one scatter-add. -/
theorem V_v25_apply (p : Fin 50000) (k : Fin 128) :
    (V m c main_v25 : S50000x128.Idx → EReal) (ix2 p k)
      = Cert.Spec.agg (xA m c) (Cert.Spec.srcAll (s0 m c) (s1 m c) (s2 m c)) (Cert.Spec.dstAll (d0 m c) (d1 m c) (d2 m c)) ((p.val : ℕ) : ℤ) k :=
  (v25_slab m c p k ⟨p.val, by omega⟩ (by show p.val = 0 * 50000 + p.val; omega)).trans
    (v15_apply m c ⟨p.val, by omega⟩ k)

/-- Relation 1's message sums: segment 50000 + p. -/
theorem V_v27_apply (p : Fin 50000) (k : Fin 128) :
    (V m c main_v27 : S50000x128.Idx → EReal) (ix2 p k)
      = Cert.Spec.agg (xA m c) (Cert.Spec.srcAll (s0 m c) (s1 m c) (s2 m c)) (Cert.Spec.dstAll (d0 m c) (d1 m c) (d2 m c)) ((50000 + p.val : ℕ) : ℤ) k :=
  (v27_slab m c p k ⟨50000 + p.val, by omega⟩ (by show 50000 + p.val = 1 * 50000 + p.val; omega)).trans
    (v15_apply m c ⟨50000 + p.val, by omega⟩ k)

/-- Relation 2's message sums: segment 100000 + p. -/
theorem V_v29_apply (p : Fin 50000) (k : Fin 128) :
    (V m c main_v29 : S50000x128.Idx → EReal) (ix2 p k)
      = Cert.Spec.agg (xA m c) (Cert.Spec.srcAll (s0 m c) (s1 m c) (s2 m c)) (Cert.Spec.dstAll (d0 m c) (d1 m c) (d2 m c)) ((100000 + p.val : ℕ) : ℤ) k :=
  (v29_slab m c p k ⟨100000 + p.val, by omega⟩ (by show 100000 + p.val = 2 * 50000 + p.val; omega)).trans
    (v15_apply m c ⟨100000 + p.val, by omega⟩ k)

end Cert.KernelIdeal.HostVals
end
-- ==== Proof.KIHostValsD.lean ====
/-
  The other arrays the fused side hands its kernel, read at an index: the array of reciprocal clipped degrees (column r of
  node p is one over the clipped count of segment r·50000 + p of the long destination list), the four matrices (the
  arguments: a change of float format is the identity on extended reals) and the bias row (the bias vector).

  The count of a segment is a scatter-add of ones by the destination words laid end to end; it is clipped below at one, the
  reciprocal is taken entry by entry, and the vector of 150000 reciprocals is cut into three stretches of 50000 that
  become the three columns of the array.
-/
import proofs.«408782_j40278203301916_3_alg».proof.Proof.KIHostVals

noncomputable section

open scoped BigOperators

namespace Cert.KernelIdeal.HostVals

open Idealize.ShloMosaic Idealize.ShloMosaic.TcCoe Idealize.ShloMosaic.StableHlo Idealize.ShloMosaic.ValueIdx
open Idealize.SL Idealize.SL.Sem
open Cert.KernelIdeal Cert.KernelIdeal.Gen Cert.KernelIdeal.Hand Cert.LibStretch Cert.LibSsa

variable (m : (ℓ : Loc nD τ sig) → Buf (Elt Ideal) ℓ) (c : Dev nD)

namespace Line

/-! ### The one-step equations of the operations the degrees, the matrices and the bias row depend on -/

/-- Operation 21: the float one. -/
theorem E21 : A m c main_cst_3 = (constant (F := Ideal) S_ .f32 0x3F800000#32) :=
  at_nullary (y := main_cst_3) writesAre 21 (W0 m c) (constant (F := Ideal) S_ .f32 0x3F800000#32) _ rfl (nw 22 main_cst_3 (by decide))

/-- Operation 22: … at every edge of the joined list. -/
theorem E22 :
    A m c main_v16
      = (broadcastInDim S1500000 ![] bcast_S_S1500000 : (⟨S_, .f32⟩ : BufTy).Contents (Elt Ideal) → (⟨S1500000, .f32⟩ : BufTy).Contents (Elt Ideal)) (A m c main_cst_3) :=
  at_unary (x := main_cst_3) (y := main_v16) writesAre 22 (W0 m c)
    (broadcastInDim S1500000 ![] bcast_S_S1500000 : (⟨S_, .f32⟩ : BufTy).Contents (Elt Ideal) → (⟨S1500000, .f32⟩ : BufTy).Contents (Elt Ideal))
    _ _ rfl (nw 23 main_v16 (by decide)) (nw 22 main_cst_3 (by decide))

/-- Operation 23: the float zero. -/
theorem E23 : A m c main_cst_4 = (constant (F := Ideal) S_ .f32 0x00000000#32) :=
  at_nullary (y := main_cst_4) writesAre 23 (W0 m c) (constant (F := Ideal) S_ .f32 0x00000000#32) _ rfl (nw 24 main_cst_4 (by decide))

/-- Operation 24: … at every segment. -/
theorem E24 :
    A m c main_v17
      = (broadcastInDim S150000 ![] bcast_S_S150000 : (⟨S_, .f32⟩ : BufTy).Contents (Elt Ideal) → (⟨S150000, .f32⟩ : BufTy).Contents (Elt Ideal)) (A m c main_cst_4) :=
  at_unary (x := main_cst_4) (y := main_v17) writesAre 24 (W0 m c)
    (broadcastInDim S150000 ![] bcast_S_S150000 : (⟨S_, .f32⟩ : BufTy).Contents (Elt Ideal) → (⟨S150000, .f32⟩ : BufTy).Contents (Elt Ideal))
    _ _ rfl (nw 25 main_v17 (by decide)) (nw 24 main_cst_4 (by decide))

/-- Operation 25: the destination words as one column. -/
theorem E25 :
    A m c main_v18
      = (broadcastInDim S1500000x1 ![0] bcast_S1500000_S1500000x1_0 : (⟨S1500000, .i32⟩ : BufTy).Contents (Elt Ideal) → (⟨S1500000x1, .i32⟩ : BufTy).Contents (Elt Ideal)) (A m c main_v5) :=
  at_unary (x := main_v5) (y := main_v18) writesAre 25 (W0 m c)
    (broadcastInDim S1500000x1 ![0] bcast_S1500000_S1500000x1_0 : (⟨S1500000, .i32⟩ : BufTy).Contents (Elt Ideal) → (⟨S1500000x1, .i32⟩ : BufTy).Contents (Elt Ideal))
    _ _ rfl (nw 26 main_v18 (by decide)) (nw 25 main_v5 (by decide))

/-- Operation 26: a one added into the segment every destination word names. -/
theorem E26 :
    A m c main_v19
      = ((fun x i u => Host.scatterAdd (F := Ideal) (φ := .f32) scatter_S150000_S1500000x1_S1500000_n_0_0_1 x i u) :
          (⟨S150000, .f32⟩ : BufTy).Contents (Elt Ideal) → (⟨S1500000x1, .i32⟩ : BufTy).Contents (Elt Ideal) → (⟨S1500000, .f32⟩ : BufTy).Contents (Elt Ideal) → (⟨S150000, .f32⟩ : BufTy).Contents (Elt Ideal))
          (A m c main_v17) (A m c main_v18) (A m c main_v16) :=
  at_ternary (c := main_v17) (a := main_v18) (b := main_v16) (y := main_v19) writesAre 26 (W0 m c)
    ((fun x i u => Host.scatterAdd (F := Ideal) (φ := .f32) scatter_S150000_S1500000x1_S1500000_n_0_0_1 x i u) :
        (⟨S150000, .f32⟩ : BufTy).Contents (Elt Ideal) → (⟨S1500000x1, .i32⟩ : BufTy).Contents (Elt Ideal) → (⟨S1500000, .f32⟩ : BufTy).Contents (Elt Ideal) → (⟨S150000, .f32⟩ : BufTy).Contents (Elt Ideal))
    _ _ _ _ rfl (nw 27 main_v19 (by decide)) (nw 26 main_v17 (by decide)) (nw 26 main_v18 (by decide)) (nw 26 main_v16 (by decide))

/-- Operation 27: the float one (the lower clip). -/
theorem E27 : A m c main_cst_5 = (constant (F := Ideal) S_ .f32 0x3F800000#32) :=
  at_nullary (y := main_cst_5) writesAre 27 (W0 m c) (constant (F := Ideal) S_ .f32 0x3F800000#32) _ rfl (nw 28 main_cst_5 (by decide))

/-- Operation 28: the clip's bound, unchanged. -/
theorem E28 : A m c main_call0_v0 = (id : (⟨S_, .f32⟩ : BufTy).Contents (Elt Ideal) → (⟨S_, .f32⟩ : BufTy).Contents (Elt Ideal)) (A m c main_cst_5) :=
  at_lunary (x := main_cst_5) (y := main_call0_v0) writesAre 28 (W0 m c) _ _ _ _
    (id : (⟨S_, .f32⟩ : BufTy).Contents (Elt Ideal) → (⟨S_, .f32⟩ : BufTy).Contents (Elt Ideal)) rfl (nw 29 main_call0_v0 (by decide)) (nw 28 main_cst_5 (by decide))

/-- Operation 29: … at every segment. -/
theorem E29 :
    A m c main_call0_v1
      = (broadcastInDim S150000 ![] bcast_S_S150000 : (⟨S_, .f32⟩ : BufTy).Contents (Elt Ideal) → (⟨S150000, .f32⟩ : BufTy).Contents (Elt Ideal)) (A m c main_call0_v0) :=
  at_lunary (x := main_call0_v0) (y := main_call0_v1) writesAre 29 (W0 m c) _ _ _ _
    (broadcastInDim S150000 ![] bcast_S_S150000 : (⟨S_, .f32⟩ : BufTy).Contents (Elt Ideal) → (⟨S150000, .f32⟩ : BufTy).Contents (Elt Ideal))
    rfl (nw 30 main_call0_v1 (by decide)) (nw 29 main_call0_v0 (by decide))

/-- Operation 30: the count clipped below at the bound. -/
theorem E30 :
    A m c main_v20
      = (maximumf (F := Ideal) (φ := .f32) : (⟨S150000, .f32⟩ : BufTy).Contents (Elt Ideal) → (⟨S150000, .f32⟩ : BufTy).Contents (Elt Ideal) → (⟨S150000, .f32⟩ : BufTy).Contents (Elt Ideal))
          (A m c main_call0_v1) (A m c main_v19) :=
  at_lbinary (a := main_call0_v1) (b := main_v19) (y := main_v20) writesAre 30 (W0 m c) _ _ _ _ _ _
    (maximumf (F := Ideal) (φ := .f32) : (⟨S150000, .f32⟩ : BufTy).Contents (Elt Ideal) → (⟨S150000, .f32⟩ : BufTy).Contents (Elt Ideal) → (⟨S150000, .f32⟩ : BufTy).Contents (Elt Ideal))
    rfl (nw 31 main_v20 (by decide)) (nw 30 main_call0_v1 (by decide)) (nw 30 main_v19 (by decide))

/-- Operation 31: the float one (the numerator). -/
theorem E31 : A m c main_cst_6 = (constant (F := Ideal) S_ .f32 0x3F800000#32) :=
  at_nullary (y := main_cst_6) writesAre 31 (W0 m c) (constant (F := Ideal) S_ .f32 0x3F800000#32) _ rfl (nw 32 main_cst_6 (by decide))

/-- Operation 32: … at every segment. -/
theorem E32 :
    A m c main_v21
      = (broadcastInDim S150000 ![] bcast_S_S150000 : (⟨S_, .f32⟩ : BufTy).Contents (Elt Ideal) → (⟨S150000, .f32⟩ : BufTy).Contents (Elt Ideal)) (A m c main_cst_6) :=
  at_unary (x := main_cst_6) (y := main_v21) writesAre 32 (W0 m c)
    (broadcastInDim S150000 ![] bcast_S_S150000 : (⟨S_, .f32⟩ : BufTy).Contents (Elt Ideal) → (⟨S150000, .f32⟩ : BufTy).Contents (Elt Ideal))
    _ _ rfl (nw 33 main_v21 (by decide)) (nw 32 main_cst_6 (by decide))

/-- Operation 33: one over the clipped count. -/
theorem E33 :
    A m c main_v22
      = (Host.divf (F := Ideal) (φ := .f32) : (⟨S150000, .f32⟩ : BufTy).Contents (Elt Ideal) → (⟨S150000, .f32⟩ : BufTy).Contents (Elt Ideal) → (⟨S150000, .f32⟩ : BufTy).Contents (Elt Ideal))
          (A m c main_v21) (A m c main_v20) :=
  at_binary (a := main_v21) (b := main_v20) (y := main_v22) writesAre 33 (W0 m c)
    (Host.divf (F := Ideal) (φ := .f32) : (⟨S150000, .f32⟩ : BufTy).Contents (Elt Ideal) → (⟨S150000, .f32⟩ : BufTy).Contents (Elt Ideal) → (⟨S150000, .f32⟩ : BufTy).Contents (Elt Ideal))
    _ _ _ rfl (nw 34 main_v22 (by decide)) (nw 33 main_v21 (by decide)) (nw 33 main_v20 (by decide))

/-- Operation 41: the 150000 reciprocals as three rows of 50000. -/
theorem E41 : A m c main_v30 = shapeCast S3x50000 (A m c main_v22) shapeCasts_S150000_S3x50000 :=
  at_reshape (x := main_v22) (y := main_v30) writesAre 41 (W0 m c) rfl shapeCasts_S150000_S3x50000 _ _ rfl
    (nw 42 main_v30 (by decide)) (nw 41 main_v22 (by decide))

/-- Operations 42 … 47: row 0, 1, 2, each as a vector. -/
theorem E42 : A m c main_v31 = extractStridedSlice S1x50000 ![0, 0] (A m c main_v30) slices_S3x50000_S1x50000_0_0 :=
  at_unary (x := main_v30) (y := main_v31) writesAre 42 (W0 m c) _ _ _ rfl (nw 43 main_v31 (by decide)) (nw 42 main_v30 (by decide))
theorem E43 : A m c main_v32 = shapeCast S50000 (A m c main_v31) shapeCasts_S1x50000_S50000 :=
  at_reshape (x := main_v31) (y := main_v32) writesAre 43 (W0 m c) rfl shapeCasts_S1x50000_S50000 _ _ rfl
    (nw 44 main_v32 (by decide)) (nw 43 main_v31 (by decide))
theorem E44 : A m c main_v33 = extractStridedSlice S1x50000 ![1, 0] (A m c main_v30) slices_S3x50000_S1x50000_1_0 :=
  at_unary (x := main_v30) (y := main_v33) writesAre 44 (W0 m c) _ _ _ rfl (nw 45 main_v33 (by decide)) (nw 44 main_v30 (by decide))
theorem E45 : A m c main_v34 = shapeCast S50000 (A m c main_v33) shapeCasts_S1x50000_S50000 :=
  at_reshape (x := main_v33) (y := main_v34) writesAre 45 (W0 m c) rfl shapeCasts_S1x50000_S50000 _ _ rfl
    (nw 46 main_v34 (by decide)) (nw 45 main_v33 (by decide))
theorem E46 : A m c main_v35 = extractStridedSlice S1x50000 ![2, 0] (A m c main_v30) slices_S3x50000_S1x50000_2_0 :=
  at_unary (x := main_v30) (y := main_v35) writesAre 46 (W0 m c) _ _ _ rfl (nw 47 main_v35 (by decide)) (nw 46 main_v30 (by decide))
theorem E47 : A m c main_v36 = shapeCast S50000 (A m c main_v35) shapeCasts_S1x50000_S50000 :=
  at_reshape (x := main_v35) (y := main_v36) writesAre 47 (W0 m c) rfl shapeCasts_S1x50000_S50000 _ _ rfl
    (nw 48 main_v36 (by decide)) (nw 47 main_v35 (by decide))

/-- Operations 48 … 50: each vector as a column. -/
theorem E48 :
    A m c main_v37
      = (broadcastInDim S50000x1 ![0] bcast_S50000_S50000x1_0 : (⟨S50000, .f32⟩ : BufTy).Contents (Elt Ideal) → (⟨S50000x1, .f32⟩ : BufTy).Contents (Elt Ideal)) (A m c main_v32) :=
  at_unary (x := main_v32) (y := main_v37) writesAre 48 (W0 m c)
    (broadcastInDim S50000x1 ![0] bcast_S50000_S50000x1_0 : (⟨S50000, .f32⟩ : BufTy).Contents (Elt Ideal) → (⟨S50000x1, .f32⟩ : BufTy).Contents (Elt Ideal))
    _ _ rfl (nw 49 main_v37 (by decide)) (nw 48 main_v32 (by decide))
theorem E49 :
    A m c main_v38
      = (broadcastInDim S50000x1 ![0] bcast_S50000_S50000x1_0 : (⟨S50000, .f32⟩ : BufTy).Contents (Elt Ideal) → (⟨S50000x1, .f32⟩ : BufTy).Contents (Elt Ideal)) (A m c main_v34) :=
  at_unary (x := main_v34) (y := main_v38) writesAre 49 (W0 m c)
    (broadcastInDim S50000x1 ![0] bcast_S50000_S50000x1_0 : (⟨S50000, .f32⟩ : BufTy).Contents (Elt Ideal) → (⟨S50000x1, .f32⟩ : BufTy).Contents (Elt Ideal))
    _ _ rfl (nw 50 main_v38 (by decide)) (nw 49 main_v34 (by decide))
theorem E50 :
    A m c main_v39
      = (broadcastInDim S50000x1 ![0] bcast_S50000_S50000x1_0 : (⟨S50000, .f32⟩ : BufTy).Contents (Elt Ideal) → (⟨S50000x1, .f32⟩ : BufTy).Contents (Elt Ideal)) (A m c main_v36) :=
  at_unary (x := main_v36) (y := main_v39) writesAre 50 (W0 m c)
    (broadcastInDim S50000x1 ![0] bcast_S50000_S50000x1_0 : (⟨S50000, .f32⟩ : BufTy).Contents (Elt Ideal) → (⟨S50000x1, .f32⟩ : BufTy).Contents (Elt Ideal))
    _ _ rfl (nw 51 main_v39 (by decide)) (nw 50 main_v36 (by decide))

/-- Operation 51: the three columns side by side. -/
theorem E51 :
    A m c main_v40
      = concatenate S50000x3 1 [⟨S50000x1, (A m c main_v37)⟩, ⟨S50000x1, (A m c main_v38)⟩, ⟨S50000x1, (A m c main_v39)⟩] concatenates_S50000x1_S50000x1_S50000x1_S50000x3_d1 :=
  at_nary3 (x := main_v37) (a := main_v38) (b := main_v39) (y := main_v40) writesAre 51 (W0 m c)
    (fun u => concatenate S50000x3 1 [⟨S50000x1, u 0⟩, ⟨S50000x1, u 1⟩, ⟨S50000x1, u 2⟩] concatenates_S50000x1_S50000x1_S50000x1_S50000x3_d1)
    _ _ rfl (nw 52 main_v40 (by decide)) (nw 51 main_v37 (by decide)) (nw 51 main_v38 (by decide)) (nw 51 main_v39 (by decide))

/-- Operations 52 … 55: each matrix in the narrower float format. -/
theorem E52 :
    A m c main_v41 = ((fun x => truncf (F := Ideal) .bf16 x bitsLt_bf16_f32) : (⟨S128x128, .f32⟩ : BufTy).Contents (Elt Ideal) → (⟨S128x128, .bf16⟩ : BufTy).Contents (Elt Ideal)) (A m c main_arg7) :=
  at_unary (x := main_arg7) (y := main_v41) writesAre 52 (W0 m c)
    ((fun x => truncf (F := Ideal) .bf16 x bitsLt_bf16_f32) : (⟨S128x128, .f32⟩ : BufTy).Contents (Elt Ideal) → (⟨S128x128, .bf16⟩ : BufTy).Contents (Elt Ideal))
    _ _ rfl (nw 53 main_v41 (by decide)) (nw 52 main_arg7 (by decide))
theorem E53 :
    A m c main_v42 = ((fun x => truncf (F := Ideal) .bf16 x bitsLt_bf16_f32) : (⟨S128x128, .f32⟩ : BufTy).Contents (Elt Ideal) → (⟨S128x128, .bf16⟩ : BufTy).Contents (Elt Ideal)) (A m c main_arg8) :=
  at_unary (x := main_arg8) (y := main_v42) writesAre 53 (W0 m c)
    ((fun x => truncf (F := Ideal) .bf16 x bitsLt_bf16_f32) : (⟨S128x128, .f32⟩ : BufTy).Contents (Elt Ideal) → (⟨S128x128, .bf16⟩ : BufTy).Contents (Elt Ideal))
    _ _ rfl (nw 54 main_v42 (by decide)) (nw 53 main_arg8 (by decide))
theorem E54 :
    A m c main_v43 = ((fun x => truncf (F := Ideal) .bf16 x bitsLt_bf16_f32) : (⟨S128x128, .f32⟩ : BufTy).Contents (Elt Ideal) → (⟨S128x128, .bf16⟩ : BufTy).Contents (Elt Ideal)) (A m c main_arg9) :=
  at_unary (x := main_arg9) (y := main_v43) writesAre 54 (W0 m c)
    ((fun x => truncf (F := Ideal) .bf16 x bitsLt_bf16_f32) : (⟨S128x128, .f32⟩ : BufTy).Contents (Elt Ideal) → (⟨S128x128, .bf16⟩ : BufTy).Contents (Elt Ideal))
    _ _ rfl (nw 55 main_v43 (by decide)) (nw 54 main_arg9 (by decide))
theorem E55 :
    A m c main_v44 = ((fun x => truncf (F := Ideal) .bf16 x bitsLt_bf16_f32) : (⟨S128x128, .f32⟩ : BufTy).Contents (Elt Ideal) → (⟨S128x128, .bf16⟩ : BufTy).Contents (Elt Ideal)) (A m c main_arg10) :=
  at_unary (x := main_arg10) (y := main_v44) writesAre 55 (W0 m c)
    ((fun x => truncf (F := Ideal) .bf16 x bitsLt_bf16_f32) : (⟨S128x128, .f32⟩ : BufTy).Contents (Elt Ideal) → (⟨S128x128, .bf16⟩ : BufTy).Contents (Elt Ideal))
    _ _ rfl (nw 56 main_v44 (by decide)) (nw 55 main_arg10 (by decide))

/-- Operation 56: the bias vector as a row. -/
theorem E56 : A m c main_v45 = shapeCast S1x128 (A m c main_arg11) shapeCasts_S128_S1x128 :=
  at_reshape (x := main_arg11) (y := main_v45) writesAre 56 (W0 m c) rfl shapeCasts_S128_S1x128 _ _ rfl
    (nw 57 main_v45 (by decide)) (nw 56 main_arg11 (by decide))

section Layout
variable {α : Type}

/-- A vector of 150000 cut into three rows of 50000: row o, position p is entry o·50000 + p. -/
theorem row_apply (X : S150000.Idx → α) (o : Nat) (ho : o < 3)
    (h1 : S150000.ShapeCasts S3x50000) (hs : S3x50000.Slices ![o, 0] S1x50000)
    (h2 : S1x50000.ShapeCasts S50000) (p : Fin 50000) (i : Fin 150000) (hi : i.val = o * 50000 + p.val) :
    shapeCast S50000 (extractStridedSlice S1x50000 ![o, 0] (shapeCast S3x50000 X h1) hs) h2 (ix1 p) = X (ix1 i) := by
  refine (shapeCast_apply _ h2 (ix1 p) (ix2 (0 : Fin 1) p) ?_).trans ?_
  · rw [Shape.rowMajor_val_two, Shape.rowMajor_val_one]
    show (0 : ℕ) * 50000 + p.val = p.val
    omega
  refine (extractStridedSlice_apply _ _ hs (ix2 (0 : Fin 1) p) (ix2 (⟨o, ho⟩ : Fin 3) p) ?_).trans ?_
  · intro a
    match a with
    | ⟨0, _⟩ => show o = o + 0; omega
    | ⟨1, _⟩ => show p.val = 0 + p.val; omega
  refine shapeCast_apply X h1 (ix2 (⟨o, ho⟩ : Fin 3) p) (ix1 i) ?_
  rw [Shape.rowMajor_val_one, Shape.rowMajor_val_two]
  show i.val = o * 50000 + p.val
  exact hi

/-- Three columns of 50000 side by side, read at (p, r): column r at (p, 0). -/
theorem cols3_apply (x0 x1 x2 : S50000x1.Idx → α)
    (h : Shape.Concatenates [S50000x1, S50000x1, S50000x1] S50000x3 1) (p : Fin 50000) :
    concatenate S50000x3 1 [⟨S50000x1, x0⟩, ⟨S50000x1, x1⟩, ⟨S50000x1, x2⟩] h (ix2 p (0 : Fin 3)) = x0 (ix2 p (0 : Fin 1))
    ∧ concatenate S50000x3 1 [⟨S50000x1, x0⟩, ⟨S50000x1, x1⟩, ⟨S50000x1, x2⟩] h (ix2 p (1 : Fin 3)) = x1 (ix2 p (0 : Fin 1))
    ∧ concatenate S50000x3 1 [⟨S50000x1, x0⟩, ⟨S50000x1, x1⟩, ⟨S50000x1, x2⟩] h (ix2 p (2 : Fin 3)) = x2 (ix2 p (0 : Fin 1)) := by
  have hoff : ∀ (r : Fin 3) (b : Fin S50000x1.rank), b.cast (rfl : S50000x1.rank = S50000x3.rank) ≠ (1 : Fin 2) →
      ((ix2 p (0 : Fin 1) : S50000x1.Idx) b).val = ((ix2 p r : S50000x3.Idx) (b.cast rfl)).val := fun r b hb => by
    match b with
    | ⟨0, _⟩ => rfl
    | ⟨1, _⟩ => exact absurd rfl hb
  refine ⟨?_, ?_, ?_⟩
  · exact concatenate_apply_piece (t := S50000x3) (1 : Fin 2) [⟨S50000x1, x0⟩, ⟨S50000x1, x1⟩, ⟨S50000x1, x2⟩] h (ix2 p (0 : Fin 3)) 0
      (Nat.lt_of_sub_eq_succ rfl) S50000x1 x0 rfl rfl 0 rfl (ix2 p (0 : Fin 1)) (hoff 0) rfl
  · exact concatenate_apply_piece (t := S50000x3) (1 : Fin 2) [⟨S50000x1, x0⟩, ⟨S50000x1, x1⟩, ⟨S50000x1, x2⟩] h (ix2 p (1 : Fin 3)) 1
      (Nat.lt_of_sub_eq_succ rfl) S50000x1 x1 rfl rfl 1
      (show (([S50000x1] : List Shape).map fun s =>
        if h : s.rank = S50000x3.rank then s.size ((1 : Fin 2).cast h.symm) else 0).sum = 1 from rfl)
      (ix2 p (0 : Fin 1)) (hoff 1) rfl
  · exact concatenate_apply_piece (t := S50000x3) (1 : Fin 2) [⟨S50000x1, x0⟩, ⟨S50000x1, x1⟩, ⟨S50000x1, x2⟩] h (ix2 p (2 : Fin 3)) 2
      (Nat.lt_of_sub_eq_succ rfl) S50000x1 x2 rfl rfl 2
      (show (([S50000x1, S50000x1] : List Shape).map fun s =>
        if h : s.rank = S50000x3.rank then s.size ((1 : Fin 2).cast h.symm) else 0).sum = 2 from rfl)
      (ix2 p (0 : Fin 1)) (hoff 2) rfl

end Layout

/-! ### The degrees, read at an index -/

/-- The histogram's indices, one column: the destination words laid end to end. -/
theorem v18_apply (e : Fin 1500000) :
    (A m c main_v18 : S1500000x1.Idx → BitVec 32) (ix2 e (0 : Fin 1))
      = Cert.Spec.dstAll (d0 m c) (d1 m c) (d2 m c) e := by
  rw [E25]
  exact (col_apply (by decide) _ _ e).trans (v5_apply m c e)

/-- The histogram starts from the float zero everywhere. -/
theorem v17_apply (j : S150000.Idx) : (A m c main_v17 : S150000.Idx → EReal) j = Cert.Spec.zeroF := by
  rw [E24, E23]
  rfl

/-- Every edge contributes the float one. -/
theorem v16_apply (j : S1500000.Idx) : (A m c main_v16 : S1500000.Idx → EReal) j = Cert.Spec.oneF := by
  rw [E22, E21]
  rfl

/-- THE COUNT of segment i: the degree over all three relations' edges. -/
theorem v19_apply (i : Fin 150000) :
    (A m c main_v19 : S150000.Idx → EReal) (ix1 i)
      = Cert.Spec.deg (Cert.Spec.dstAll (d0 m c) (d1 m c) (d2 m c)) (i.val : ℤ) := by
  rw [E26]
  refine (Cert.LibGraphOps.histDims_scatterAdd_apply (N := 150000) (K := 1500000)
    scatter_S150000_S1500000x1_S1500000_n_0_0_1_wf (A m c main_v17) (A m c main_v18) (A m c main_v16) i).trans ?_
  unfold Cert.Spec.deg
  rw [v17_apply]
  refine congrArg (fun t => Cert.Spec.zeroF + t) (Finset.sum_congr rfl fun e _ => ?_)
  rw [v18_apply, v16_apply]

/-- The clip, over any vector of counts: at an index, the maximum of one and the count. -/
theorem clip_at (y : FVec Ideal S150000 .f32) (j : S150000.Idx) :
    (maximumf (F := Ideal) (φ := .f32) ((broadcastInDim S150000 ![] bcast_S_S150000 : (⟨S_, .f32⟩ : BufTy).Contents (Elt Ideal) → (⟨S150000, .f32⟩ : BufTy).Contents (Elt Ideal))
        ((id : (⟨S_, .f32⟩ : BufTy).Contents (Elt Ideal) → (⟨S_, .f32⟩ : BufTy).Contents (Elt Ideal)) (constant (F := Ideal) S_ .f32 0x3F800000#32))) y : S150000.Idx → EReal) j
      = max Cert.Spec.oneF (y j) := rfl

/-- The reciprocal, over any vector: at an index, one divided by the entry. -/
theorem recip_at (y : FVec Ideal S150000 .f32) (j : S150000.Idx) :
    (Host.divf (F := Ideal) (φ := .f32) ((broadcastInDim S150000 ![] bcast_S_S150000 : (⟨S_, .f32⟩ : BufTy).Contents (Elt Ideal) → (⟨S150000, .f32⟩ : BufTy).Contents (Elt Ideal))
        (constant (F := Ideal) S_ .f32 0x3F800000#32)) y : S150000.Idx → EReal) j
      = Ideal.div Cert.Spec.oneF (y j) := rfl

/-- The clipped count of segment i. -/
theorem v20_apply (i : Fin 150000) :
    (A m c main_v20 : S150000.Idx → EReal) (ix1 i)
      = max Cert.Spec.oneF (Cert.Spec.deg (Cert.Spec.dstAll (d0 m c) (d1 m c) (d2 m c)) (i.val : ℤ)) := by
  rw [E30, E29, E28, E27]
  exact (clip_at (A m c main_v19) (ix1 i)).trans (congrArg (max Cert.Spec.oneF) (v19_apply m c i))

/-- One over the clipped count of segment i. -/
theorem v22_apply (i : Fin 150000) :
    (A m c main_v22 : S150000.Idx → EReal) (ix1 i)
      = Ideal.div Cert.Spec.oneF (max Cert.Spec.oneF (Cert.Spec.deg (Cert.Spec.dstAll (d0 m c) (d1 m c) (d2 m c)) (i.val : ℤ))) := by
  rw [E33, E32, E31]
  exact (recip_at (A m c main_v20) (ix1 i)).trans (congrArg (Ideal.div Cert.Spec.oneF) (v20_apply m c i))

/-- The three columns: column r at node p is the reciprocal at segment r·50000 + p. -/
theorem v37_apply (p : Fin 50000) (i : Fin 150000) (hi : i.val = 0 * 50000 + p.val) :
    (A m c main_v37 : S50000x1.Idx → EReal) (ix2 p (0 : Fin 1)) = (A m c main_v22 : S150000.Idx → EReal) (ix1 i) := by
  rw [E48]
  refine (col_apply (by decide) _ _ p).trans ?_
  rw [E43, E42, E41]
  exact row_apply _ 0 (by omega) _ _ _ p i hi
theorem v38_apply (p : Fin 50000) (i : Fin 150000) (hi : i.val = 1 * 50000 + p.val) :
    (A m c main_v38 : S50000x1.Idx → EReal) (ix2 p (0 : Fin 1)) = (A m c main_v22 : S150000.Idx → EReal) (ix1 i) := by
  rw [E49]
  refine (col_apply (by decide) _ _ p).trans ?_
  rw [E45, E44, E41]
  exact row_apply _ 1 (by omega) _ _ _ p i hi
theorem v39_apply (p : Fin 50000) (i : Fin 150000) (hi : i.val = 2 * 50000 + p.val) :
    (A m c main_v39 : S50000x1.Idx → EReal) (ix2 p (0 : Fin 1)) = (A m c main_v22 : S150000.Idx → EReal) (ix1 i) := by
  rw [E50]
  refine (col_apply (by decide) _ _ p).trans ?_
  rw [E47, E46, E41]
  exact row_apply _ 2 (by omega) _ _ _ p i hi

end Line

open Line

/-- The reciprocal clipped degrees: column r of node p is one over the clipped count of segment r·50000 + p. -/
theorem V_v40_apply (p : Fin 50000) (r : Fin 3) :
    (V m c main_v40 : S50000x3.Idx → EReal) (ix2 p r)
      = Ideal.div Cert.Spec.oneF (max Cert.Spec.oneF (Cert.Spec.deg (Cert.Spec.dstAll (d0 m c) (d1 m c) (d2 m c)) ((r.val * 50000 + p.val : ℕ) : ℤ))) := by
  have hc := cols3_apply (A m c main_v37) (A m c main_v38) (A m c main_v39) concatenates_S50000x1_S50000x1_S50000x1_S50000x3_d1 p
  show (A m c main_v40 : S50000x3.Idx → EReal) (ix2 p r) = _
  rw [E51]
  match r with
  | ⟨0, _⟩ =>
    exact (hc.1.trans (v37_apply m c p ⟨0 * 50000 + p.val, by omega⟩ rfl)).trans (v22_apply m c ⟨0 * 50000 + p.val, by omega⟩)
  | ⟨1, _⟩ =>
    exact (hc.2.1.trans (v38_apply m c p ⟨1 * 50000 + p.val, by omega⟩ rfl)).trans (v22_apply m c ⟨1 * 50000 + p.val, by omega⟩)
  | ⟨2, _⟩ =>
    exact (hc.2.2.trans (v39_apply m c p ⟨2 * 50000 + p.val, by omega⟩ rfl)).trans (v22_apply m c ⟨2 * 50000 + p.val, by omega⟩)

/-- The four matrices reach the kernel as launched. -/
theorem V_v41_eq : (V m c main_v41 : S128x128.Idx → EReal) = (m ((c : Thread nD τ).loc main_arg7) : S128x128.Idx → EReal) :=
  (E52 m c).trans (by rw [A_arg m c main_arg7 (by decide)]; generalize (m ((c : Thread nD τ).loc main_arg7) : S128x128.Idx → EReal) = w; rfl)
theorem V_v42_eq : (V m c main_v42 : S128x128.Idx → EReal) = (m ((c : Thread nD τ).loc main_arg8) : S128x128.Idx → EReal) :=
  (E53 m c).trans (by rw [A_arg m c main_arg8 (by decide)]; generalize (m ((c : Thread nD τ).loc main_arg8) : S128x128.Idx → EReal) = w; rfl)
theorem V_v43_eq : (V m c main_v43 : S128x128.Idx → EReal) = (m ((c : Thread nD τ).loc main_arg9) : S128x128.Idx → EReal) :=
  (E54 m c).trans (by rw [A_arg m c main_arg9 (by decide)]; generalize (m ((c : Thread nD τ).loc main_arg9) : S128x128.Idx → EReal) = w; rfl)
theorem V_v44_eq : (V m c main_v44 : S128x128.Idx → EReal) = (m ((c : Thread nD τ).loc main_arg10) : S128x128.Idx → EReal) :=
  (E55 m c).trans (by rw [A_arg m c main_arg10 (by decide)]; generalize (m ((c : Thread nD τ).loc main_arg10) : S128x128.Idx → EReal) = w; rfl)

/-- The bias row is the bias vector. -/
theorem V_v45_apply (q : Fin 128) :
    (V m c main_v45 : S1x128.Idx → EReal) (ix2 (0 : Fin 1) q) = (m ((c : Thread nD τ).loc main_arg11) : S128.Idx → EReal) (ix1 q) := by
  show (A m c main_v45 : S1x128.Idx → EReal) (ix2 (0 : Fin 1) q) = _
  rw [E56, A_arg m c main_arg11 (by decide)]
  refine shapeCast_apply _ shapeCasts_S128_S1x128 (ix2 (0 : Fin 1) q) (ix1 q) ?_
  rw [Shape.rowMajor_val_one, Shape.rowMajor_val_two]
  show q.val = (0 : ℕ) * 128 + q.val
  omega

end Cert.KernelIdeal.HostVals

end
-- ==== Proof.Fusion.lean ====
/-
  One sum over three edge lists laid end to end is three sums.

  Lay three lists of 500000 edges end to end and move the destination words of the second and third list up by 50000 and
  100000. When every destination word reads as a node number below 50000, an edge of list r has its moved word in
  [r·50000, (r+1)·50000), so the edges whose moved word reads r·50000 + p are exactly the edges of list r whose own word
  reads p: segment r·50000 + p of the one sum is segment p of list r's sum. The reciprocal form then meets the quotient:
  a · (1 / d) = a / d for every extended real a once d is not zero, and a degree clipped below at one is not zero.
-/
import proofs.«408782_j40278203301916_3_alg».proof.Proof.Spec
import Mathlib.Algebra.BigOperators.Fin
import Mathlib.Data.BitVec

noncomputable section

open scoped BigOperators

namespace Cert.Fusion

open Idealize.ShloMosaic Idealize.ShloMosaic.ValueIdx Cert.Spec

/-- Every word of a destination list reads as a node number. -/
def InRange (d : Fin 500000 → BitVec 32) : Prop := ∀ e : Fin 500000, 0 ≤ (d e).toInt ∧ (d e).toInt < 50000

/-! ## Words -/

/-- A word that reads as a node number, moved up by a small count, reads as the sum: nothing wraps. -/
theorem toInt_addi_small (w : BitVec 32) (c : ℕ) (hc : c < 1000000) (h0 : 0 ≤ w.toInt) (h1 : w.toInt < 50000) :
    (IntOp.addi w (BitVec.ofNat 32 c)).toInt = w.toInt + (c : ℤ) := by
  unfold IntOp.addi
  have hw := BitVec.toInt_eq_toNat_cond w
  have hs := BitVec.toInt_eq_toNat_cond (w + BitVec.ofNat 32 c)
  have hlt := w.isLt
  rw [BitVec.toNat_add, BitVec.toNat_ofNat] at hs
  rw [hs]
  split_ifs at hw hs ⊢ <;> omega

/-! ## The long sum in three pieces -/

/-- A sum over a + (b + c) positions is the sum of its three stretches, for any lengths. -/
theorem sum_three' {M : Type} [AddCommMonoid M] (a b c n : ℕ) (hn : a + (b + c) = n) (g : Fin n → M) :
    ∑ e : Fin n, g e
      = (∑ e : Fin a, g ⟨e.val, by have := e.isLt; omega⟩)
        + ((∑ e : Fin b, g ⟨a + e.val, by have := e.isLt; omega⟩) + ∑ e : Fin c, g ⟨a + (b + e.val), by have := e.isLt; omega⟩) := by
  subst hn
  rw [Fin.sum_univ_add, Fin.sum_univ_add]
  rfl

/-- A sum over 1500000 positions is the sum of its three stretches of 500000. -/
theorem sum_three {M : Type} [AddCommMonoid M] (g : Fin 1500000 → M) :
    ∑ e : Fin 1500000, g e
      = (∑ e : Fin 500000, g ⟨e.val, by omega⟩)
        + ((∑ e : Fin 500000, g ⟨500000 + e.val, by omega⟩) + ∑ e : Fin 500000, g ⟨1000000 + e.val, by omega⟩) := by
  refine (sum_three' 500000 500000 500000 1500000 (by norm_num) g).trans ?_
  refine congrArg (fun z => (∑ e : Fin 500000, g ⟨e.val, by omega⟩) + ((∑ e : Fin 500000, g ⟨500000 + e.val, by omega⟩) + z)) ?_
  refine Finset.sum_congr rfl fun e _ => congrArg g (Fin.ext ?_)
  show 500000 + (500000 + e.val) = 1000000 + e.val
  omega

variable (s0 d0 s1 d1 s2 d2 : Fin 500000 → BitVec 32)

theorem dstAll_0 (e : Fin 500000) : dstAll d0 d1 d2 ⟨e.val, by omega⟩ = d0 e := by
  unfold dstAll; rw [dif_pos e.isLt]
theorem dstAll_1 (e : Fin 500000) : dstAll d0 d1 d2 ⟨500000 + e.val, by omega⟩ = IntOp.addi (d1 e) 50000#32 := by
  unfold dstAll
  rw [dif_neg (by show ¬ 500000 + e.val < 500000; omega), dif_pos (by show 500000 + e.val < 1000000; omega)]
  exact congrArg (fun i => IntOp.addi (d1 i) 50000#32) (Fin.ext (by show 500000 + e.val - 500000 = e.val; omega))
theorem dstAll_2 (e : Fin 500000) : dstAll d0 d1 d2 ⟨1000000 + e.val, by omega⟩ = IntOp.addi (d2 e) 100000#32 := by
  unfold dstAll
  rw [dif_neg (by show ¬ 1000000 + e.val < 500000; omega), dif_neg (by show ¬ 1000000 + e.val < 1000000; omega)]
  exact congrArg (fun i => IntOp.addi (d2 i) 100000#32) (Fin.ext (by show 1000000 + e.val - 1000000 = e.val; omega))
theorem srcAll_0 (e : Fin 500000) : srcAll s0 s1 s2 ⟨e.val, by omega⟩ = s0 e := by
  unfold srcAll; rw [dif_pos e.isLt]
theorem srcAll_1 (e : Fin 500000) : srcAll s0 s1 s2 ⟨500000 + e.val, by omega⟩ = s1 e := by
  unfold srcAll
  rw [dif_neg (by show ¬ 500000 + e.val < 500000; omega), dif_pos (by show 500000 + e.val < 1000000; omega)]
  exact congrArg s1 (Fin.ext (by show 500000 + e.val - 500000 = e.val; omega))
theorem srcAll_2 (e : Fin 500000) : srcAll s0 s1 s2 ⟨1000000 + e.val, by omega⟩ = s2 e := by
  unfold srcAll
  rw [dif_neg (by show ¬ 1000000 + e.val < 500000; omega), dif_neg (by show ¬ 1000000 + e.val < 1000000; omega)]
  exact congrArg s2 (Fin.ext (by show 1000000 + e.val - 1000000 = e.val; omega))

/-- THE SEGMENT SUM OF THE LONG LIST, any payload of the source word: list 0's edges whose word reads v, list 1's whose
    word reads v − 50000, list 2's whose word reads v − 100000. -/
theorem seg_sum (h1 : InRange d1) (h2 : InRange d2) (v : ℤ) (pay : BitVec 32 → EReal) :
    ∑ e : Fin 1500000, (if (dstAll d0 d1 d2 e).toInt = v then pay (srcAll s0 s1 s2 e) else 0)
      = (∑ e : Fin 500000, if (d0 e).toInt = v then pay (s0 e) else 0)
        + ((∑ e : Fin 500000, if (d1 e).toInt + 50000 = v then pay (s1 e) else 0)
          + ∑ e : Fin 500000, if (d2 e).toInt + 100000 = v then pay (s2 e) else 0) := by
  rw [sum_three]
  refine congrArg₂ (· + ·) ?_ (congrArg₂ (· + ·) ?_ ?_)
  · refine Finset.sum_congr rfl fun e _ => ?_
    rw [dstAll_0, srcAll_0]
  · refine Finset.sum_congr rfl fun e _ => ?_
    rw [dstAll_1, srcAll_1, show (50000#32 : BitVec 32) = BitVec.ofNat 32 50000 from rfl,
      toInt_addi_small _ 50000 (by norm_num) (h1 e).1 (h1 e).2]
    rfl
  · refine Finset.sum_congr rfl fun e _ => ?_
    rw [dstAll_2, srcAll_2, show (100000#32 : BitVec 32) = BitVec.ofNat 32 100000 from rfl,
      toInt_addi_small _ 100000 (by norm_num) (h2 e).1 (h2 e).2]
    rfl

/-- A sum of terms each of which is zero. -/
theorem sum_ite_false {ι : Type} [Fintype ι] (c : ι → Prop) [DecidablePred c] (f : ι → EReal) (h : ∀ e, ¬ c e) :
    (∑ e : ι, if c e then f e else 0) = 0 :=
  Finset.sum_eq_zero fun e _ => if_neg (h e)

/-- Segment p of the long list is segment p of list 0. -/
theorem seg_0 (h0 : InRange d0) (h1 : InRange d1) (h2 : InRange d2) (p : Fin 50000) (pay : BitVec 32 → EReal) :
    ∑ e : Fin 1500000, (if (dstAll d0 d1 d2 e).toInt = ((p.val : ℕ) : ℤ) then pay (srcAll s0 s1 s2 e) else 0)
      = ∑ e : Fin 500000, if (d0 e).toInt = (p.val : ℤ) then pay (s0 e) else 0 := by
  rw [seg_sum s0 d0 s1 d1 s2 d2 h1 h2,
    sum_ite_false (fun e => (d1 e).toInt + 50000 = ((p.val : ℕ) : ℤ)) _ (fun e => by have := (h1 e).1; have := p.isLt; omega),
    sum_ite_false (fun e => (d2 e).toInt + 100000 = ((p.val : ℕ) : ℤ)) _ (fun e => by have := (h2 e).1; have := p.isLt; omega), add_zero, add_zero]

/-- Segment 50000 + p of the long list is segment p of list 1. -/
theorem seg_1 (h0 : InRange d0) (h1 : InRange d1) (h2 : InRange d2) (p : Fin 50000) (pay : BitVec 32 → EReal) :
    ∑ e : Fin 1500000, (if (dstAll d0 d1 d2 e).toInt = ((50000 + p.val : ℕ) : ℤ) then pay (srcAll s0 s1 s2 e) else 0)
      = ∑ e : Fin 500000, if (d1 e).toInt = (p.val : ℤ) then pay (s1 e) else 0 := by
  rw [seg_sum s0 d0 s1 d1 s2 d2 h1 h2,
    sum_ite_false (fun e => (d0 e).toInt = ((50000 + p.val : ℕ) : ℤ)) _ (fun e => by have := (h0 e).2; push_cast; omega),
    sum_ite_false (fun e => (d2 e).toInt + 100000 = ((50000 + p.val : ℕ) : ℤ)) _ (fun e => by have := (h2 e).1; have := p.isLt; push_cast; omega),
    zero_add, add_zero]
  refine Finset.sum_congr rfl fun e _ => ?_
  have hiff : ((d1 e).toInt + 50000 = ((50000 + p.val : ℕ) : ℤ)) ↔ ((d1 e).toInt = (p.val : ℤ)) := by push_cast; omega
  simp only [hiff]

/-- Segment 100000 + p of the long list is segment p of list 2. -/
theorem seg_2 (h0 : InRange d0) (h1 : InRange d1) (h2 : InRange d2) (p : Fin 50000) (pay : BitVec 32 → EReal) :
    ∑ e : Fin 1500000, (if (dstAll d0 d1 d2 e).toInt = ((100000 + p.val : ℕ) : ℤ) then pay (srcAll s0 s1 s2 e) else 0)
      = ∑ e : Fin 500000, if (d2 e).toInt = (p.val : ℤ) then pay (s2 e) else 0 := by
  rw [seg_sum s0 d0 s1 d1 s2 d2 h1 h2,
    sum_ite_false (fun e => (d0 e).toInt = ((100000 + p.val : ℕ) : ℤ)) _ (fun e => by have := (h0 e).2; push_cast; omega),
    sum_ite_false (fun e => (d1 e).toInt + 50000 = ((100000 + p.val : ℕ) : ℤ)) _ (fun e => by have := (h1 e).2; push_cast; omega),
    zero_add, zero_add]
  refine Finset.sum_congr rfl fun e _ => ?_
  have hiff : ((d2 e).toInt + 100000 = ((100000 + p.val : ℕ) : ℤ)) ↔ ((d2 e).toInt = (p.val : ℤ)) := by push_cast; omega
  simp only [hiff]

variable (x : (⟨2, ![50000, 128]⟩ : Shape).Idx → EReal)

theorem agg_all_0 (h0 : InRange d0) (h1 : InRange d1) (h2 : InRange d2) (p : Fin 50000) (k : Fin 128) :
    agg x (srcAll s0 s1 s2) (dstAll d0 d1 d2) ((p.val : ℕ) : ℤ) k = agg x s0 d0 (p.val : ℤ) k := by
  unfold agg
  rw [seg_0 s0 d0 s1 d1 s2 d2 h0 h1 h2 p (fun w => x (ix2 (rowOf w) k))]
theorem agg_all_1 (h0 : InRange d0) (h1 : InRange d1) (h2 : InRange d2) (p : Fin 50000) (k : Fin 128) :
    agg x (srcAll s0 s1 s2) (dstAll d0 d1 d2) ((50000 + p.val : ℕ) : ℤ) k = agg x s1 d1 (p.val : ℤ) k := by
  unfold agg
  rw [seg_1 s0 d0 s1 d1 s2 d2 h0 h1 h2 p (fun w => x (ix2 (rowOf w) k))]
theorem agg_all_2 (h0 : InRange d0) (h1 : InRange d1) (h2 : InRange d2) (p : Fin 50000) (k : Fin 128) :
    agg x (srcAll s0 s1 s2) (dstAll d0 d1 d2) ((100000 + p.val : ℕ) : ℤ) k = agg x s2 d2 (p.val : ℤ) k := by
  unfold agg
  rw [seg_2 s0 d0 s1 d1 s2 d2 h0 h1 h2 p (fun w => x (ix2 (rowOf w) k))]

/-- The degree sums never read the source word: a constant payload. -/
theorem deg_all_0 (h0 : InRange d0) (h1 : InRange d1) (h2 : InRange d2) (p : Fin 50000) :
    deg (dstAll d0 d1 d2) (((0 : Fin 3).val * 50000 + p.val : ℕ) : ℤ) = deg d0 (p.val : ℤ) := by
  unfold deg
  have e : (((0 : Fin 3).val * 50000 + p.val : ℕ) : ℤ) = ((p.val : ℕ) : ℤ) := by norm_num
  rw [e]
  exact congrArg (zeroF + ·) (seg_0 d0 d0 d1 d1 d2 d2 h0 h1 h2 p (fun _ => oneF))
theorem deg_all_1 (h0 : InRange d0) (h1 : InRange d1) (h2 : InRange d2) (p : Fin 50000) :
    deg (dstAll d0 d1 d2) (((1 : Fin 3).val * 50000 + p.val : ℕ) : ℤ) = deg d1 (p.val : ℤ) := by
  unfold deg
  have e : (((1 : Fin 3).val * 50000 + p.val : ℕ) : ℤ) = ((50000 + p.val : ℕ) : ℤ) := by norm_num
  rw [e]
  exact congrArg (zeroF + ·) (seg_1 d0 d0 d1 d1 d2 d2 h0 h1 h2 p (fun _ => oneF))
theorem deg_all_2 (h0 : InRange d0) (h1 : InRange d1) (h2 : InRange d2) (p : Fin 50000) :
    deg (dstAll d0 d1 d2) (((2 : Fin 3).val * 50000 + p.val : ℕ) : ℤ) = deg d2 (p.val : ℤ) := by
  unfold deg
  have e : (((2 : Fin 3).val * 50000 + p.val : ℕ) : ℤ) = ((100000 + p.val : ℕ) : ℤ) := by norm_num
  rw [e]
  exact congrArg (zeroF + ·) (seg_2 d0 d0 d1 d1 d2 d2 h0 h1 h2 p (fun _ => oneF))

/-! ## The reciprocal form -/

/-- The float one is the number one. -/
theorem oneF_eq : oneF = 1 := by
  simp [oneF, Ideal.ofBits, Ideal.ieee]
  norm_cast
  norm_num

/-- A degree clipped below at one is not zero. -/
theorem clip_ne_zero (d : EReal) : max oneF d ≠ 0 := by
  rw [oneF_eq]
  exact (lt_of_lt_of_le zero_lt_one (le_max_left 1 d)).ne'

/-- The reciprocal form is the quotient, at a clipped degree. -/
theorem mul_recip (a d : EReal) : a * Ideal.div oneF (max oneF d) = Ideal.div a (max oneF d) := by
  have h := clip_ne_zero d
  unfold Ideal.div
  rw [if_neg h, if_neg h]
  congr 1
  rw [oneF_eq, one_mul]

/-! ## The fused form is the separate form -/

/-- One relation's term of a product: (a segment sum of the long list × the reciprocal of its clipped degree) is (the
    relation's own sum / its own clipped degree). -/
theorem term_eq (a a' d d' : EReal) (ha : a = a') (hd : d = d') :
    a * Ideal.div oneF (max oneF d) = Ideal.div a' (max oneF d') := by
  rw [ha, hd]; exact mul_recip a' d'

/-- THE FUSED FORM OF ANY ARRAYS that hold, at every index, the long list's segment sums, the reciprocals of its clipped
    degrees, the features and the bias as a row, is the separate form — when every destination word is a node number. -/
theorem gker_eq_gref (x : (⟨2, ![50000, 128]⟩ : Shape).Idx → EReal) (s0 d0 s1 d1 s2 d2 : Fin 500000 → BitVec 32)
    (A0 A1 A2 : (⟨2, ![50000, 128]⟩ : Shape).Idx → EReal) (INV : (⟨2, ![50000, 3]⟩ : Shape).Idx → EReal)
    (W0 W1 W2 WL : (⟨2, ![128, 128]⟩ : Shape).Idx → EReal) (B : (⟨2, ![1, 128]⟩ : Shape).Idx → EReal)
    (b : (⟨1, ![128]⟩ : Shape).Idx → EReal)
    (h0 : InRange d0) (h1 : InRange d1) (h2 : InRange d2)
    (hA0 : ∀ (p : Fin 50000) (k : Fin 128), A0 (ix2 p k) = agg x (srcAll s0 s1 s2) (dstAll d0 d1 d2) ((p.val : ℕ) : ℤ) k)
    (hA1 : ∀ (p : Fin 50000) (k : Fin 128), A1 (ix2 p k) = agg x (srcAll s0 s1 s2) (dstAll d0 d1 d2) ((50000 + p.val : ℕ) : ℤ) k)
    (hA2 : ∀ (p : Fin 50000) (k : Fin 128), A2 (ix2 p k) = agg x (srcAll s0 s1 s2) (dstAll d0 d1 d2) ((100000 + p.val : ℕ) : ℤ) k)
    (hINV : ∀ (p : Fin 50000) (r : Fin 3),
      INV (ix2 p r) = Ideal.div oneF (max oneF (deg (dstAll d0 d1 d2) ((r.val * 50000 + p.val : ℕ) : ℤ))))
    (hB : ∀ q : Fin 128, B (ix2 (0 : Fin 1) q) = b (ix1 q)) (p : Fin 50000) (q : Fin 128) :
    Gker A0 A1 A2 INV x W0 W1 W2 WL B p q = Gref x s0 d0 s1 d1 s2 d2 W0 W1 W2 WL b p q := by
  have e0 : ∀ k : Fin 128, A0 (ix2 p k) * INV (ix2 p (0 : Fin 3))
      = Ideal.div (agg x s0 d0 (p.val : ℤ) k) (max oneF (deg d0 (p.val : ℤ))) := fun k => by
    rw [hA0 p k, hINV p 0]
    exact term_eq _ _ _ _ (agg_all_0 s0 d0 s1 d1 s2 d2 x h0 h1 h2 p k) (deg_all_0 d0 d1 d2 h0 h1 h2 p)
  have e1 : ∀ k : Fin 128, A1 (ix2 p k) * INV (ix2 p (1 : Fin 3))
      = Ideal.div (agg x s1 d1 (p.val : ℤ) k) (max oneF (deg d1 (p.val : ℤ))) := fun k => by
    rw [hA1 p k, hINV p 1]
    exact term_eq _ _ _ _ (agg_all_1 s0 d0 s1 d1 s2 d2 x h0 h1 h2 p k) (deg_all_1 d0 d1 d2 h0 h1 h2 p)
  have e2 : ∀ k : Fin 128, A2 (ix2 p k) * INV (ix2 p (2 : Fin 3))
      = Ideal.div (agg x s2 d2 (p.val : ℤ) k) (max oneF (deg d2 (p.val : ℤ))) := fun k => by
    rw [hA2 p k, hINV p 2]
    exact term_eq _ _ _ _ (agg_all_2 s0 d0 s1 d1 s2 d2 x h0 h1 h2 p k) (deg_all_2 d0 d1 d2 h0 h1 h2 p)
  unfold Gker Gref
  simp only [e0, e1, e2, hB q]

end Cert.Fusion

end
-- ==== Proof.Bridge.lean ====
/-
  The fused form is the separate form.

  At node p, column q, both are the maximum with zero of four 128-term products plus the bias. The arrays the fused
  side's launch finds hold, at every index, the long list's segment sums (relation r at node p: segment r·50000 + p), the
  reciprocals of its clipped degrees, the features, the matrices and the bias as a row; the law that the fused form of
  such arrays is the separate form is stated over plain arrays, and applied here to those arrays.
-/
import proofs.«408782_j40278203301916_3_alg».proof.Proof.KIBlocks
import proofs.«408782_j40278203301916_3_alg».proof.Proof.KIHostVals
import proofs.«408782_j40278203301916_3_alg».proof.Proof.KIHostValsD
import proofs.«408782_j40278203301916_3_alg».proof.Proof.Fusion
import proofs.«408782_j40278203301916_3_alg».proof.Proof.Spec

noncomputable section

open scoped BigOperators

namespace Cert.KernelIdeal.Bridge

open Idealize.ShloMosaic Idealize.ShloMosaic.TcCoe Idealize.ShloMosaic.ValueIdx
open Idealize.SL Idealize.SL.Sem
open Cert.KernelIdeal Cert.KernelIdeal.Gen Cert.KernelIdeal.Hand Cert.KernelIdeal.HostVals Cert.KernelIdeal.Blocks Cert.Fusion

variable (m : (ℓ : Loc nD τ sig) → Buf (Elt Ideal) ℓ) (c : Dev nD)

/-- The fused side's result at (p, q) is the separate form of the arguments, when the destination words are in range. -/
theorem garr_apply (h0 : InRange (d0 m c)) (h1 : InRange (d1 m c)) (h2 : InRange (d2 m c)) (p : Fin 50000) (q : Fin 128) :
    Garr m c (ix2 p q)
      = Cert.Spec.Gref (xA m c) (s0 m c) (d0 m c) (s1 m c) (d1 m c) (s2 m c) (d2 m c)
          (m ((c : Thread nD τ).loc main_arg7)) (m ((c : Thread nD τ).loc main_arg8)) (m ((c : Thread nD τ).loc main_arg9))
          (m ((c : Thread nD τ).loc main_arg10)) (m ((c : Thread nD τ).loc main_arg11)) p q := by
  show Cert.Spec.Gker (V m c main_v25) (V m c main_v27) (V m c main_v29) (V m c main_v40) (V m c main_arg0)
    (V m c main_v41) (V m c main_v42) (V m c main_v43) (V m c main_v44) (V m c main_v45) p q = _
  rw [V_v41_eq m c, V_v42_eq m c, V_v43_eq m c, V_v44_eq m c, V_main_arg0 m c]
  exact gker_eq_gref (xA m c) (s0 m c) (d0 m c) (s1 m c) (d1 m c) (s2 m c) (d2 m c)
    (V m c main_v25) (V m c main_v27) (V m c main_v29) (V m c main_v40) _ _ _ _ (V m c main_v45) _ h0 h1 h2
    (V_v25_apply m c) (V_v27_apply m c) (V_v29_apply m c) (V_v40_apply m c) (V_v45_apply m c) p q

end Cert.KernelIdeal.Bridge

end
-- ==== Proof.RefValue.lean ====
/-
  The separate side's result, read at an index: its last stage is the separate form of the layer.

  The stages between are read one operation at a time; the three row gathers and the six scatter-adds (three of feature rows,
  three of ones) are read by the row-take and scatter-add lemmas, every other stage by the generated reading of the run.
-/
import proofs.«408782_j40278203301916_3_alg».proof.Proof.Gen.ReferenceIdeal.Read
import proofs.«408782_j40278203301916_3_alg».proof.Proof.Spec
import proofs.«408782_j40278203301916_3_alg».proof.Proof.LibScatter
import proofs.«408782_j40278203301916_3_alg».proof.Proof.LibGraphOps
import proofs.«408782_j40278203301916_3_alg».proof.Proof.LibTakeRows
import Idealize.ShloMosaic.Lib.Pipeline.Value
import Idealize.ShloMosaic.Lib.ValueIdx
import Idealize.ShloMosaic.PureOps.Ideal.Laws

noncomputable section

open scoped BigOperators

namespace Cert.ReferenceIdeal.RefValue

open Idealize.ShloMosaic Idealize.ShloMosaic.TcCoe Idealize.ShloMosaic.StableHlo Idealize.ShloMosaic.ValueIdx
open Idealize.SL Idealize.SL.Sem
open Cert.ReferenceIdeal Cert.ReferenceIdeal.Gen Cert.ReferenceIdeal.Read

/-! ## One relation, whatever its stage names -/

/-- Rows taken at the source column and added at the destination column, from a start of float zeros, read at node p,
    column k: the message sum, an edge contributing the feature row its source word names when its destination word
    reads p. -/
private theorem agg_stage (x0 : (⟨S50000x128, .f32⟩ : BufTy).Contents (Elt Ideal))
    (zero : (⟨S50000x128, .f32⟩ : BufTy).Contents (Elt Ideal))
    (srcIdx dstIdx : (⟨S500000x1, .i32⟩ : BufTy).Contents (Elt Ideal))
    (s d : Fin 500000 → BitVec 32)
    (hz : ∀ i, zero i = Cert.Spec.zeroF)
    (hs : ∀ e : Fin 500000, srcIdx (ix2 e (0 : Fin 1))
      = Scalar.select (IntOp.cmpi .slt (s e) 0#32) (IntOp.addi (s e) 50000#32) (s e))
    (hd : ∀ e : Fin 500000, dstIdx (ix2 e (0 : Fin 1)) = d e)
    (p : Fin 50000) (k : Fin 128) :
    Host.scatterAdd (F := Ideal) (φ := .f32) scatter_S50000x128_S500000x1_S500000x128_1_0_0_1 zero dstIdx
        (Host.gather gather_S50000x128_S500000x1_S500000x128_1_0_n_n_0_1_1128 x0 srcIdx) (ix2 p k)
      = Cert.Spec.agg x0 s d (p.val : ℤ) k := by
  refine (Cert.LibScatter.rowDims_scatterAdd_apply (R := 50000) (K := 500000) (C := 128)
    scatter_S50000x128_S500000x1_S500000x128_1_0_0_1_wf zero dstIdx
    (Host.gather gather_S50000x128_S500000x1_S500000x128_1_0_n_n_0_1_1128 x0 srcIdx) p k).trans ?_
  unfold Cert.Spec.agg
  rw [hz]
  refine congrArg (fun t => Cert.Spec.zeroF + t) ?_
  refine Finset.sum_congr rfl fun e _ => ?_
  rw [hd e]
  by_cases h : (d e).toInt = (p.val : ℤ)
  · rw [if_pos h, if_pos h]
    refine (Cert.LibTakeRows.gather_rows_apply (N := 50000) (W := 128) (E := 500000) (by decide)
      gather_S50000x128_S500000x1_S500000x128_1_0_n_n_0_1_1128_wf x0 srcIdx e k).trans ?_
    refine congrArg (fun r : Fin 50000 => x0 (ix2 r k)) (Fin.ext ?_)
    show min (srcIdx (ix2 e (0 : Fin 1))).toInt.toNat (50000 - 1) = _
    rw [hs e]
    rfl
  · rw [if_neg h, if_neg h]

/-- Ones added at the destination column, from a start of float zeros, read at node p: the degree, an edge
    contributing a one when its destination word reads p. -/
private theorem deg_stage (zero : (⟨S50000, .f32⟩ : BufTy).Contents (Elt Ideal))
    (dstIdx : (⟨S500000x1, .i32⟩ : BufTy).Contents (Elt Ideal))
    (ones : (⟨S500000, .f32⟩ : BufTy).Contents (Elt Ideal))
    (d : Fin 500000 → BitVec 32)
    (hz : ∀ i, zero i = Cert.Spec.zeroF)
    (ho : ∀ i, ones i = Cert.Spec.oneF)
    (hd : ∀ e : Fin 500000, dstIdx (ix2 e (0 : Fin 1)) = d e)
    (p : Fin 50000) :
    Host.scatterAdd (F := Ideal) (φ := .f32) scatter_S50000_S500000x1_S500000_n_0_0_1 zero dstIdx ones (ix1 p)
      = Cert.Spec.deg d (p.val : ℤ) := by
  refine (Cert.LibGraphOps.histDims_scatterAdd_apply (N := 50000) (K := 500000)
    scatter_S50000_S500000x1_S500000_n_0_0_1_wf zero dstIdx ones p).trans ?_
  unfold Cert.Spec.deg
  rw [hz]
  refine congrArg (fun t => Cert.Spec.zeroF + t) ?_
  refine Finset.sum_congr rfl fun e _ => ?_
  rw [hd e, ho]

/-! ## The first relation -/

/-- The source column of the first relation at edge e: the source word, moved up once by the node count when negative. -/
private theorem src0 (xs : (⟨S500000, .i32⟩ : BufTy).Contents (Elt Ideal)) (e : Fin 500000) :
    val_main_v5 (F := Ideal) xs (ix2 e (0 : Fin 1))
      = Scalar.select (IntOp.cmpi .slt (xs (ix1 e)) 0#32) (IntOp.addi (xs (ix1 e)) 50000#32) (xs (ix1 e)) := by
  have hi : idx_main_v5 (ix2 e (0 : Fin 1)) = ix1 e :=
    funext fun a => Fin.ext (by match a with | ⟨0, _⟩ => rfl)
  rw [val_main_v5_apply, hi, val_main_v4_apply, val_main_v1_apply, val_main_v3_apply, val_main_v0_apply, val_main_v2_apply,
    val_main_c_apply, val_main_c_0_apply]

/-- The destination column feeding the row sums, at edge e: the destination word. -/
private theorem dstA0 (xd : (⟨S500000, .i32⟩ : BufTy).Contents (Elt Ideal)) (e : Fin 500000) :
    val_main_v8 (F := Ideal) xd (ix2 e (0 : Fin 1)) = xd (ix1 e) := by
  have hi : idx_main_v8 (ix2 e (0 : Fin 1)) = ix1 e :=
    funext fun a => Fin.ext (by match a with | ⟨0, _⟩ => rfl)
  rw [val_main_v8_apply, hi]

/-- The destination column feeding the degree, at edge e: the destination word. -/
private theorem dstD0 (xd : (⟨S500000, .i32⟩ : BufTy).Contents (Elt Ideal)) (e : Fin 500000) :
    val_main_v12 (F := Ideal) xd (ix2 e (0 : Fin 1)) = xd (ix1 e) := by
  have hi : idx_main_v12 (ix2 e (0 : Fin 1)) = ix1 e :=
    funext fun a => Fin.ext (by match a with | ⟨0, _⟩ => rfl)
  rw [val_main_v12_apply, hi]

/-- The row sums of the first relation at node p, column k. -/
private theorem agg0 (x0 : (⟨S50000x128, .f32⟩ : BufTy).Contents (Elt Ideal)) (xs xd : (⟨S500000, .i32⟩ : BufTy).Contents (Elt Ideal)) (p : Fin 50000) (k : Fin 128) :
    val_main_v9 (F := Ideal) x0 xs xd (ix2 p k)
      = Cert.Spec.agg x0 (fun e => xs (ix1 e)) (fun e => xd (ix1 e)) (p.val : ℤ) k := by
  unfold val_main_v9 val_main_v6
  exact agg_stage x0 _ _ _ (fun e => xs (ix1 e)) (fun e => xd (ix1 e))
    (fun i => by rw [val_main_v7_apply, val_main_cst_apply]; rfl) (src0 xs) (dstA0 xd) p k

/-- The degree of the first relation at node p. -/
private theorem deg0 (xd : (⟨S500000, .i32⟩ : BufTy).Contents (Elt Ideal)) (p : Fin 50000) :
    val_main_v13 (F := Ideal) xd (ix1 p) = Cert.Spec.deg (fun e => xd (ix1 e)) (p.val : ℤ) := by
  unfold val_main_v13
  exact deg_stage _ _ _ (fun e => xd (ix1 e))
    (fun i => by rw [val_main_v11_apply, val_main_cst_2_apply]; rfl)
    (fun i => by rw [val_main_v10_apply, val_main_cst_1_apply]; rfl) (dstD0 xd) p

/-- The clipped degree of the first relation, spread along a row: the same at every column. -/
private theorem clip0 (xd : (⟨S500000, .i32⟩ : BufTy).Contents (Elt Ideal)) (p : Fin 50000) (k : Fin 128) :
    val_main_v16 (F := Ideal) xd (ix2 p k)
      = max Cert.Spec.oneF (Cert.Spec.deg (fun e => xd (ix1 e)) (p.val : ℤ)) := by
  have hi : idx_main_v15 (idx_main_v16 (ix2 p k)) = ix1 p :=
    funext fun a => Fin.ext (by match a with | ⟨0, _⟩ => rfl)
  rw [val_main_v16_apply, val_main_v15_apply, hi, val_main_v14_apply, val_main_call0_v1_apply, val_main_call0_v0_apply, val_main_cst_3_apply,
    deg0]
  rfl

/-- The first relation's product at node p, column q. -/
private theorem rel0 (x0 : (⟨S50000x128, .f32⟩ : BufTy).Contents (Elt Ideal)) (xs xd : (⟨S500000, .i32⟩ : BufTy).Contents (Elt Ideal)) (W : (⟨S128x128, .f32⟩ : BufTy).Contents (Elt Ideal)) (p : Fin 50000) (q : Fin 128) :
    val_main_v18 (F := Ideal) x0 xs xd W (ix2 p q)
      = ∑ k : Fin 128, Ideal.div (Cert.Spec.agg x0 (fun e => xs (ix1 e)) (fun e => xd (ix1 e)) (p.val : ℤ) k)
          (max Cert.Spec.oneF (Cert.Spec.deg (fun e => xd (ix1 e)) (p.val : ℤ))) * W (ix2 k q) := by
  rw [val_main_v18_apply]
  refine Finset.sum_congr rfl fun k _ => ?_
  have hl : lidx_main_v18 (ix2 p q) k = ix2 p k :=
    funext fun a => Fin.ext (by match a with | ⟨0, _⟩ => rfl | ⟨1, _⟩ => rfl)
  have hr : ridx_main_v18 (ix2 p q) k = ix2 k q :=
    funext fun a => Fin.ext (by match a with | ⟨0, _⟩ => rfl | ⟨1, _⟩ => rfl)
  rw [hl, hr, val_main_v17_apply, agg0, clip0]
  rfl

/-! ## The second relation -/

/-- The source column of the second relation at edge e: the source word, moved up once by the node count when negative. -/
private theorem src1 (xs : (⟨S500000, .i32⟩ : BufTy).Contents (Elt Ideal)) (e : Fin 500000) :
    val_main_v24 (F := Ideal) xs (ix2 e (0 : Fin 1))
      = Scalar.select (IntOp.cmpi .slt (xs (ix1 e)) 0#32) (IntOp.addi (xs (ix1 e)) 50000#32) (xs (ix1 e)) := by
  have hi : idx_main_v24 (ix2 e (0 : Fin 1)) = ix1 e :=
    funext fun a => Fin.ext (by match a with | ⟨0, _⟩ => rfl)
  rw [val_main_v24_apply, hi, val_main_v23_apply, val_main_v20_apply, val_main_v22_apply, val_main_v19_apply, val_main_v21_apply,
    val_main_c_4_apply, val_main_c_5_apply]

/-- The destination column feeding the row sums, at edge e: the destination word. -/
private theorem dstA1 (xd : (⟨S500000, .i32⟩ : BufTy).Contents (Elt Ideal)) (e : Fin 500000) :
    val_main_v27 (F := Ideal) xd (ix2 e (0 : Fin 1)) = xd (ix1 e) := by
  have hi : idx_main_v27 (ix2 e (0 : Fin 1)) = ix1 e :=
    funext fun a => Fin.ext (by match a with | ⟨0, _⟩ => rfl)
  rw [val_main_v27_apply, hi]

/-- The destination column feeding the degree, at edge e: the destination word. -/
private theorem dstD1 (xd : (⟨S500000, .i32⟩ : BufTy).Contents (Elt Ideal)) (e : Fin 500000) :
    val_main_v31 (F := Ideal) xd (ix2 e (0 : Fin 1)) = xd (ix1 e) := by
  have hi : idx_main_v31 (ix2 e (0 : Fin 1)) = ix1 e :=
    funext fun a => Fin.ext (by match a with | ⟨0, _⟩ => rfl)
  rw [val_main_v31_apply, hi]

/-- The row sums of the second relation at node p, column k. -/
private theorem agg1 (x0 : (⟨S50000x128, .f32⟩ : BufTy).Contents (Elt Ideal)) (xs xd : (⟨S500000, .i32⟩ : BufTy).Contents (Elt Ideal)) (p : Fin 50000) (k : Fin 128) :
    val_main_v28 (F := Ideal) x0 xs xd (ix2 p k)
      = Cert.Spec.agg x0 (fun e => xs (ix1 e)) (fun e => xd (ix1 e)) (p.val : ℤ) k := by
  unfold val_main_v28 val_main_v25
  exact agg_stage x0 _ _ _ (fun e => xs (ix1 e)) (fun e => xd (ix1 e))
    (fun i => by rw [val_main_v26_apply, val_main_cst_6_apply]; rfl) (src1 xs) (dstA1 xd) p k

/-- The degree of the second relation at node p. -/
private theorem deg1 (xd : (⟨S500000, .i32⟩ : BufTy).Contents (Elt Ideal)) (p : Fin 50000) :
    val_main_v32 (F := Ideal) xd (ix1 p) = Cert.Spec.deg (fun e => xd (ix1 e)) (p.val : ℤ) := by
  unfold val_main_v32
  exact deg_stage _ _ _ (fun e => xd (ix1 e))
    (fun i => by rw [val_main_v30_apply, val_main_cst_8_apply]; rfl)
    (fun i => by rw [val_main_v29_apply, val_main_cst_7_apply]; rfl) (dstD1 xd) p

/-- The clipped degree of the second relation, spread along a row: the same at every column. -/
private theorem clip1 (xd : (⟨S500000, .i32⟩ : BufTy).Contents (Elt Ideal)) (p : Fin 50000) (k : Fin 128) :
    val_main_v35 (F := Ideal) xd (ix2 p k)
      = max Cert.Spec.oneF (Cert.Spec.deg (fun e => xd (ix1 e)) (p.val : ℤ)) := by
  have hi : idx_main_v34 (idx_main_v35 (ix2 p k)) = ix1 p :=
    funext fun a => Fin.ext (by match a with | ⟨0, _⟩ => rfl)
  rw [val_main_v35_apply, val_main_v34_apply, hi, val_main_v33_apply, val_main_call1_v1_apply, val_main_call1_v0_apply, val_main_cst_9_apply,
    deg1]
  rfl

/-- The second relation's product at node p, column q. -/
private theorem rel1 (x0 : (⟨S50000x128, .f32⟩ : BufTy).Contents (Elt Ideal)) (xs xd : (⟨S500000, .i32⟩ : BufTy).Contents (Elt Ideal)) (W : (⟨S128x128, .f32⟩ : BufTy).Contents (Elt Ideal)) (p : Fin 50000) (q : Fin 128) :
    val_main_v37 (F := Ideal) x0 xs xd W (ix2 p q)
      = ∑ k : Fin 128, Ideal.div (Cert.Spec.agg x0 (fun e => xs (ix1 e)) (fun e => xd (ix1 e)) (p.val : ℤ) k)
          (max Cert.Spec.oneF (Cert.Spec.deg (fun e => xd (ix1 e)) (p.val : ℤ))) * W (ix2 k q) := by
  rw [val_main_v37_apply]
  refine Finset.sum_congr rfl fun k _ => ?_
  have hl : lidx_main_v37 (ix2 p q) k = ix2 p k :=
    funext fun a => Fin.ext (by match a with | ⟨0, _⟩ => rfl | ⟨1, _⟩ => rfl)
  have hr : ridx_main_v37 (ix2 p q) k = ix2 k q :=
    funext fun a => Fin.ext (by match a with | ⟨0, _⟩ => rfl | ⟨1, _⟩ => rfl)
  rw [hl, hr, val_main_v36_apply, agg1, clip1]
  rfl

/-! ## The third relation -/

/-- The source column of the third relation at edge e: the source word, moved up once by the node count when negative. -/
private theorem src2 (xs : (⟨S500000, .i32⟩ : BufTy).Contents (Elt Ideal)) (e : Fin 500000) :
    val_main_v44 (F := Ideal) xs (ix2 e (0 : Fin 1))
      = Scalar.select (IntOp.cmpi .slt (xs (ix1 e)) 0#32) (IntOp.addi (xs (ix1 e)) 50000#32) (xs (ix1 e)) := by
  have hi : idx_main_v44 (ix2 e (0 : Fin 1)) = ix1 e :=
    funext fun a => Fin.ext (by match a with | ⟨0, _⟩ => rfl)
  rw [val_main_v44_apply, hi, val_main_v43_apply, val_main_v40_apply, val_main_v42_apply, val_main_v39_apply, val_main_v41_apply,
    val_main_c_10_apply, val_main_c_11_apply]

/-- The destination column feeding the row sums, at edge e: the destination word. -/
private theorem dstA2 (xd : (⟨S500000, .i32⟩ : BufTy).Contents (Elt Ideal)) (e : Fin 500000) :
    val_main_v47 (F := Ideal) xd (ix2 e (0 : Fin 1)) = xd (ix1 e) := by
  have hi : idx_main_v47 (ix2 e (0 : Fin 1)) = ix1 e :=
    funext fun a => Fin.ext (by match a with | ⟨0, _⟩ => rfl)
  rw [val_main_v47_apply, hi]

/-- The destination column feeding the degree, at edge e: the destination word. -/
private theorem dstD2 (xd : (⟨S500000, .i32⟩ : BufTy).Contents (Elt Ideal)) (e : Fin 500000) :
    val_main_v51 (F := Ideal) xd (ix2 e (0 : Fin 1)) = xd (ix1 e) := by
  have hi : idx_main_v51 (ix2 e (0 : Fin 1)) = ix1 e :=
    funext fun a => Fin.ext (by match a with | ⟨0, _⟩ => rfl)
  rw [val_main_v51_apply, hi]

/-- The row sums of the third relation at node p, column k. -/
private theorem agg2 (x0 : (⟨S50000x128, .f32⟩ : BufTy).Contents (Elt Ideal)) (xs xd : (⟨S500000, .i32⟩ : BufTy).Contents (Elt Ideal)) (p : Fin 50000) (k : Fin 128) :
    val_main_v48 (F := Ideal) x0 xs xd (ix2 p k)
      = Cert.Spec.agg x0 (fun e => xs (ix1 e)) (fun e => xd (ix1 e)) (p.val : ℤ) k := by
  unfold val_main_v48 val_main_v45
  exact agg_stage x0 _ _ _ (fun e => xs (ix1 e)) (fun e => xd (ix1 e))
    (fun i => by rw [val_main_v46_apply, val_main_cst_12_apply]; rfl) (src2 xs) (dstA2 xd) p k

/-- The degree of the third relation at node p. -/
private theorem deg2 (xd : (⟨S500000, .i32⟩ : BufTy).Contents (Elt Ideal)) (p : Fin 50000) :
    val_main_v52 (F := Ideal) xd (ix1 p) = Cert.Spec.deg (fun e => xd (ix1 e)) (p.val : ℤ) := by
  unfold val_main_v52
  exact deg_stage _ _ _ (fun e => xd (ix1 e))
    (fun i => by rw [val_main_v50_apply, val_main_cst_14_apply]; rfl)
    (fun i => by rw [val_main_v49_apply, val_main_cst_13_apply]; rfl) (dstD2 xd) p

/-- The clipped degree of the third relation, spread along a row: the same at every column. -/
private theorem clip2 (xd : (⟨S500000, .i32⟩ : BufTy).Contents (Elt Ideal)) (p : Fin 50000) (k : Fin 128) :
    val_main_v55 (F := Ideal) xd (ix2 p k)
      = max Cert.Spec.oneF (Cert.Spec.deg (fun e => xd (ix1 e)) (p.val : ℤ)) := by
  have hi : idx_main_v54 (idx_main_v55 (ix2 p k)) = ix1 p :=
    funext fun a => Fin.ext (by match a with | ⟨0, _⟩ => rfl)
  rw [val_main_v55_apply, val_main_v54_apply, hi, val_main_v53_apply, val_main_call2_v1_apply, val_main_call2_v0_apply, val_main_cst_15_apply,
    deg2]
  rfl

/-- The third relation's product at node p, column q. -/
private theorem rel2 (x0 : (⟨S50000x128, .f32⟩ : BufTy).Contents (Elt Ideal)) (xs xd : (⟨S500000, .i32⟩ : BufTy).Contents (Elt Ideal)) (W : (⟨S128x128, .f32⟩ : BufTy).Contents (Elt Ideal)) (p : Fin 50000) (q : Fin 128) :
    val_main_v57 (F := Ideal) x0 xs xd W (ix2 p q)
      = ∑ k : Fin 128, Ideal.div (Cert.Spec.agg x0 (fun e => xs (ix1 e)) (fun e => xd (ix1 e)) (p.val : ℤ) k)
          (max Cert.Spec.oneF (Cert.Spec.deg (fun e => xd (ix1 e)) (p.val : ℤ))) * W (ix2 k q) := by
  rw [val_main_v57_apply]
  refine Finset.sum_congr rfl fun k _ => ?_
  have hl : lidx_main_v57 (ix2 p q) k = ix2 p k :=
    funext fun a => Fin.ext (by match a with | ⟨0, _⟩ => rfl | ⟨1, _⟩ => rfl)
  have hr : ridx_main_v57 (ix2 p q) k = ix2 k q :=
    funext fun a => Fin.ext (by match a with | ⟨0, _⟩ => rfl | ⟨1, _⟩ => rfl)
  rw [hl, hr, val_main_v56_apply, agg2, clip2]
  rfl

/-! ## The layer -/

/-- The plain product of the features with the self-loop matrix at node p, column q. -/
private theorem self_term (x0 : (⟨S50000x128, .f32⟩ : BufTy).Contents (Elt Ideal)) (W : (⟨S128x128, .f32⟩ : BufTy).Contents (Elt Ideal)) (p : Fin 50000) (q : Fin 128) :
    val_main_v59 (F := Ideal) x0 W (ix2 p q) = ∑ k : Fin 128, x0 (ix2 p k) * W (ix2 k q) := by
  rw [val_main_v59_apply]
  refine Finset.sum_congr rfl fun k _ => ?_
  have hl : lidx_main_v59 (ix2 p q) k = ix2 p k :=
    funext fun a => Fin.ext (by match a with | ⟨0, _⟩ => rfl | ⟨1, _⟩ => rfl)
  have hr : ridx_main_v59 (ix2 p q) k = ix2 k q :=
    funext fun a => Fin.ext (by match a with | ⟨0, _⟩ => rfl | ⟨1, _⟩ => rfl)
  rw [hl, hr]

/-- The bias spread over the nodes, at node p, column q: the bias at q. -/
private theorem bias_term (x11 : (⟨S128, .f32⟩ : BufTy).Contents (Elt Ideal)) (p : Fin 50000) (q : Fin 128) :
    val_main_v62 (F := Ideal) x11 (ix2 p q) = x11 (ix1 q) := by
  have hi : idx_main_v61 (idx_main_v62 (ix2 p q)) = ix1 q :=
    funext fun a => Fin.ext (by match a with | ⟨0, _⟩ => rfl)
  rw [val_main_v62_apply, val_main_v61_apply, hi]

/-- The last stage at node p, column q is the separate form. -/
theorem ref_apply (x0 : (⟨S50000x128, .f32⟩ : BufTy).Contents (Elt Ideal))
    (x1 x2 x3 x4 x5 x6 : (⟨S500000, .i32⟩ : BufTy).Contents (Elt Ideal))
    (x7 x8 x9 x10 : (⟨S128x128, .f32⟩ : BufTy).Contents (Elt Ideal)) (x11 : (⟨S128, .f32⟩ : BufTy).Contents (Elt Ideal))
    (p : Fin 50000) (q : Fin 128) :
    val_main_v64 (F := Ideal) x0 x1 x2 x3 x4 x5 x6 x7 x8 x9 x10 x11 (ix2 p q)
      = Cert.Spec.Gref x0 (fun e => x1 (ix1 e)) (fun e => x2 (ix1 e)) (fun e => x3 (ix1 e)) (fun e => x4 (ix1 e))
          (fun e => x5 (ix1 e)) (fun e => x6 (ix1 e)) x7 x8 x9 x10 x11 p q := by
  rw [val_main_v64_apply, val_main_v63_apply, val_main_v60_apply, val_main_v58_apply, val_main_v38_apply,
    rel0, rel1, rel2, self_term, bias_term, val_main_call3_v0_apply, val_main_call3_cst_apply]
  rfl

end Cert.ReferenceIdeal.RefValue

end
-- ==== Proof.PreDecode.lean ====
/-
  What the precondition says about the destination words: each of the three destination vectors holds, at every
  edge, a word that reads (signed) as a node number 0 … 49999.
-/
import proofs.«408782_j40278203301916_3_alg».proof.Pre_finite_inputs
import proofs.«408782_j40278203301916_3_alg».proof.Proof.Gen.Pre_finite_inputs
import Idealize.ShloMosaic.Lib.ReduceAll
import Idealize.ShloMosaic.Lib.ValueIdx
import Idealize.ShloMosaic.Lib.StableHlo.Predicate

noncomputable section

namespace Cert.PreDecode

open Idealize.ShloMosaic Idealize.ShloMosaic.ValueIdx Cert.Pre_finite_inputs

/-- A destination vector is in range: every word reads as a node number. -/
def InRange (d : IVec S500000 32) : Prop := ∀ e : Fin 500000, 0 ≤ (d (ix1 e)).toInt ∧ (d (ix1 e)).toInt < 50000

/-- The rank-0 shape has one index. -/
instance subsingleton_idx : Subsingleton S_.Idx := ⟨fun a b => funext fun d => d.elim0⟩

/-- One conjunct read back: if the pointwise test "0 ≤ d and d < 50000" (both signed, against the broadcast
    constants) is 1 at every index, every word of `d` reads in [0, 50000). -/
theorem inRange_of_test (d : IVec S500000 32) (hb : S_.BroadcastsInDim S500000 (![] : Fin 0 → Fin S500000.rank))
    (hall : ∀ i : S500000.Idx,
      andi (cmpi .sge d (broadcastInDim S500000 ![] hb (constantI S_ 32 0#32)))
        (cmpi .slt d (broadcastInDim S500000 ![] hb (constantI S_ 32 50000#32))) i = 1#1) :
    InRange d := by
  intro e
  have he := hall (ix1 e)
  -- at one index the vector operations are the word operations, and a broadcast constant is the constant
  have he' : IntOp.andi (IntOp.cmpi .sge (d (ix1 e)) 0#32) (IntOp.cmpi .slt (d (ix1 e)) 50000#32) = 1#1 := he
  obtain ⟨h1, h2⟩ := IntOp.andi_eq_one.1 he'
  have g1 := IntOp.cmpi_sge.1 h1
  have g2 := IntOp.cmpi_slt.1 h2
  rw [show (0#32 : BitVec 32).toInt = 0 from by decide] at g1
  rw [show (50000#32 : BitVec 32).toInt = 50000 from by decide] at g2
  exact ⟨g1, g2⟩

/-- The last part of the chain: its result 1 says the incoming conjunction is 1, the incoming test holds everywhere, and
    the second and third destination vectors are in range. -/
theorem part2_decode {F : FTy → Type} [FloatOps F] [hF : Cert.Pre_finite_inputs.Facts]
    (a4 a6 : IVec S500000 32) (v28 : IVec S_ 1) (v33 : IVec S500000 1)
    (h : Cert.Pre_finite_inputs.fn_part2 (F := F) a4 a6 v28 v33 ix0 = 1#1) :
    v28 ix0 = 1#1 ∧ (∀ i : S500000.Idx, v33 i = 1#1) ∧ InRange a4 ∧ InRange a6 := by
  unfold Cert.Pre_finite_inputs.fn_part2 at h
  dsimp only at h
  -- the result is a three-fold `and` of scalars, read at the one index
  obtain ⟨h12, h3⟩ := IntOp.andi_eq_one.1 (show IntOp.andi _ _ = 1#1 from h)
  obtain ⟨h1', h2⟩ := IntOp.andi_eq_one.1 (show IntOp.andi _ _ = 1#1 from h12)
  obtain ⟨h0, h1⟩ := IntOp.andi_eq_one.1 (show IntOp.andi _ _ = 1#1 from h1')
  refine ⟨h0, ?_, ?_, ?_⟩
  · exact fun i => Host.reduce_andi_all _ _ _ _ ix0 h1 i
  · exact inRange_of_test a4 _ (fun i => Host.reduce_andi_all _ _ _ _ ix0 h2 i)
  · exact inRange_of_test a6 _ (fun i => Host.reduce_andi_all _ _ _ _ ix0 h3 i)

/-- The middle part: it builds the first destination vector's test and hands it to the last part. -/
theorem part1_decode {F : FTy → Type} [FloatOps F] [hF : Cert.Pre_finite_inputs.Facts]
    (a2 a4 a6 : IVec S500000 32) (a10 : FVec F S128x128 .f32) (a11 : FVec F S128 .f32) (v13 : IVec S_ 1) (v16 : IVec S128x128 1)
    (h : Cert.Pre_finite_inputs.fn_part1 (F := F) a2 a4 a6 a10 a11 v13 v16 ix0 = 1#1) :
    InRange a2 ∧ InRange a4 ∧ InRange a6 := by
  unfold Cert.Pre_finite_inputs.fn_part1 at h
  dsimp only at h
  obtain ⟨-, hall, r4, r6⟩ := part2_decode a4 a6 _ _ h
  exact ⟨inRange_of_test a2 _ hall, r4, r6⟩

/-- The precondition, all ones, gives the three range facts (at any float instance: they speak of words only). -/
theorem dst_range_of_pre {F : FTy → Type} [FloatOps F] [hF : Cert.Pre_finite_inputs.Facts]
    (a0 : FVec F S50000x128 .f32) (a1 a2 a3 a4 a5 a6 : IVec S500000 32) (a7 a8 a9 a10 : FVec F S128x128 .f32) (a11 : FVec F S128 .f32)
    (h : Cert.Pre_finite_inputs.fn (F := F) a0 a1 a2 a3 a4 a5 a6 a7 a8 a9 a10 a11 = fun _ => 1#1) :
    InRange a2 ∧ InRange a4 ∧ InRange a6 := by
  have h0 : Cert.Pre_finite_inputs.fn (F := F) a0 a1 a2 a3 a4 a5 a6 a7 a8 a9 a10 a11 ix0 = 1#1 := congrFun h ix0
  unfold Cert.Pre_finite_inputs.fn at h0
  dsimp only at h0
  exact part1_decode a2 a4 a6 a10 a11 _ _ h0

end Cert.PreDecode

end
-- ==== Proof.lean ====
/-
  A relational graph convolution layer, fused against separate.

  50000 nodes carry 128 features; three relations carry 500000 edges each (a source word and a destination word per edge).
  Per relation the layer sums the source features into the destination nodes, divides by the in-degree clipped below at
  one, and multiplies by the relation's 128 x 128 matrix; the three results, the features times a fourth matrix and a
  bias are added, and the maximum with zero is taken.

  The separate program does this relation by relation. The fused program lays the three edge lists end to end, moves
  the destination words of the second and third list up by one and two node counts, forms ONE segment sum (and one
  degree count) over 150000 segments, reads relation r at node p from segment r·50000 + p, multiplies by the reciprocal of
  the clipped degree instead of dividing, and leaves the four products, the additions and the maximum to one kernel
  launched over 25 blocks of 2000 nodes.

  Over the extended reals the two agree as soon as every destination word reads as a node number 0 … 49999 — outside
  that range the separate program's segment sum indexes out of range and drops the edge while the fused one would add it
  to another relation's node, so the range is part of the precondition. Then an edge of list r has its moved word in
  [r·50000, (r+1)·50000): the long sum's segment r·50000 + p collects exactly list r's edges into p (Fusion.lean);
  a · (1/d) = a/d for every extended real a because a clipped degree is not zero; sums are taken in the same association
  on both sides; a change of float format is the identity. No finiteness of the features is used.

  The modules: Spec.lean (both forms over plain indices), Fusion.lean (the one sum is three sums; the reciprocal),
  PreDecode.lean (the range facts out of the precondition), KIHostV.lean / KIFrame.lean (the fused program runs, its
  result array named block by block; KHostV.lean / KFrame.lean the same for the word-level program), KIBlocks.lean (the blocks
  are one function of the arrays the launch finds), KIHostVals.lean (those arrays read at an index), Bridge.lean (fused =
  separate), RefValue.lean (the separate program's last stage is the separate form).
-/
import proofs.«408782_j40278203301916_3_alg».proof.Defs
import proofs.«408782_j40278203301916_3_alg».proof.Proof.Gen.Kernel
import proofs.«408782_j40278203301916_3_alg».proof.Proof.Gen.Kernel.Skeleton
import proofs.«408782_j40278203301916_3_alg».proof.Proof.Gen.Kernel.Launch
import proofs.«408782_j40278203301916_3_alg».proof.Proof.Gen.Kernel.Points
import proofs.«408782_j40278203301916_3_alg».proof.Proof.Gen.KernelIdeal
import proofs.«408782_j40278203301916_3_alg».proof.Proof.Gen.KernelIdeal.Skeleton
import proofs.«408782_j40278203301916_3_alg».proof.Proof.Gen.KernelIdeal.Launch
import proofs.«408782_j40278203301916_3_alg».proof.Proof.Gen.KernelIdeal.Points
import proofs.«408782_j40278203301916_3_alg».proof.Proof.Gen.ReferenceIdeal
import proofs.«408782_j40278203301916_3_alg».proof.Proof.Gen.Pre_finite_inputs
import proofs.«408782_j40278203301916_3_alg».proof.Proof.Gen.ReferenceIdeal.Run
import proofs.«408782_j40278203301916_3_alg».proof.Proof.Gen.ReferenceIdeal.Read
import proofs.«408782_j40278203301916_3_alg».proof.Proof.KFrame
import proofs.«408782_j40278203301916_3_alg».proof.Proof.KIFrame
import proofs.«408782_j40278203301916_3_alg».proof.Proof.KIBlocks
import proofs.«408782_j40278203301916_3_alg».proof.Proof.Bridge
import proofs.«408782_j40278203301916_3_alg».proof.Proof.RefValue
import proofs.«408782_j40278203301916_3_alg».proof.Proof.PreDecode
import Idealize.ShloMosaic.Adequacy
import Idealize.ShloMosaic.Init

noncomputable section

namespace Cert.Proof

open Idealize.ShloMosaic Idealize.SL.Sem Idealize.ShloMosaic.ValueIdx

/-- The word-level fused program runs and leaves its arguments alone. -/
theorem frame_k : Cert.frame_Kernel := fun m ρ _ => Cert.Kernel.Hand.frame m ρ

/-- So does the fused program at exact arithmetic. -/
theorem frame_ki : Cert.frame_KernelIdeal := fun m ρ _ => Cert.KernelIdeal.Hand.frame m ρ

/-- The separate program is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the word-level and the exact fused program. -/
theorem preserves : Cert.preserves_Kernel_KernelIdeal := trivial

/-- From memories that agree on the arguments, with every destination word a node number, the fused program's result
    array and the separate program's are the same function: at node p, column q, the separate form of the layer. -/
theorem algebraic : Cert.algebraic_KernelIdeal_ReferenceIdeal := by
  intro m ρ m' ρ' hpre hagree
  refine ⟨fun c => Cert.KernelIdeal.Blocks.Garr m c, Cert.KernelIdeal.Blocks.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.PreDecode.dst_range_of_pre _ _ _ _ _ _ _ _ _ _ _ _ (hpre c)
  obtain ⟨a0, a1, a2, a3, a4, a5, a6, a7, a8, a9, a10, a11⟩ := hagree c
  rw [Cert.ReferenceIdeal.Read.val_main_v64_eq, a0, a1, a2, a3, a4, a5, a6, a7, a8, a9, a10, a11]
  funext j
  obtain ⟨p, q, rfl⟩ : ∃ (p : Fin 50000) (q : Fin 128), j = ix2 p q := ⟨j 0, j 1, eq_ix2 j⟩
  rw [Cert.ReferenceIdeal.RefValue.ref_apply]
  exact (Cert.KernelIdeal.Bridge.garr_apply m c h0 h1 h2 p q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
